-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_arg6 : FVec F S64 .f32) (main_arg7 : FVec F S64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x32 .f32) (main_arg1 : IVec S2x800000 32) (main_arg2 : FVec F S32x64 .f32) (main_arg3 : FVec F S64 .f32) (main_arg4 : FVec F S3x64x64 .f32) (main_arg5 : FVec F S3x64 .f32) (main_arg6 : FVec F S64 .f32) (main_arg7 : FVec F S64 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x32 : Shape := ⟨2, ![5000, 32]⟩
abbrev S5000x64 : Shape := ⟨2, ![5000, 64]⟩
abbrev S1x64 : Shape := ⟨2, ![1, 64]⟩
abbrev S1x64x64 : Shape := ⟨3, ![1, 64, 64]⟩
abbrev S64x64 : Shape := ⟨2, ![64, 64]⟩
abbrev S850000x64 : Shape := ⟨2, ![850000, 64]⟩

abbrev nBuf : Space → Nat
  | .hbm => 195
  | .vmem => 54
  | .smem => 0
  | _ => 0

abbrev hbmTy0_0 (i : Nat) : BufTy := match i % 128 with
  | 0 => ⟨S50000x32, .f32⟩
  | 1 => ⟨S2x800000, .i32⟩
  | 2 => ⟨S32x64, .f32⟩
  | 3 => ⟨S64, .f32⟩
  | 4 => ⟨S3x64x64, .f32⟩
  | 5 => ⟨S3x64, .f32⟩
  | 6 => ⟨S64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S50000x64, .f32⟩
  | 45 => ⟨S1x64x64, .f32⟩
  | 46 => ⟨S64x64, .f32⟩
  | 47 => ⟨S1x64, .f32⟩
  | 48 => ⟨S64, .f32⟩
  | 49 => ⟨S50000x64, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S_, .f32⟩
  | 67 => ⟨S64, .f32⟩
  | 68 => ⟨S_, .f32⟩
  | 69 => ⟨S64, .f32⟩
  | 70 => ⟨S64, .f32⟩
  | 71 => ⟨S_, .i32⟩
  | 72 => ⟨S_, .f32⟩
  | 73 => ⟨S64, .f32⟩
  | 74 => ⟨S1x64, .f32⟩
  | 75 => ⟨S_, .f32⟩
  | 76 => ⟨S1x64, .f32⟩
  | 77 => ⟨S1x64, .f32⟩
  | 78 => ⟨S50000x64, .f32⟩
  | 79 => ⟨S50000x64, .f32⟩
  | 80 => ⟨S50000x64, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S64, .f32⟩
  | 88 => ⟨S_, .f32⟩
  | 89 => ⟨S_, .i1⟩
  | 90 => ⟨S_, .f32⟩
  | 91 => ⟨S_, .f32⟩
  | 92 => ⟨S64, .f32⟩
  | 93 => ⟨S64, .f32⟩
  | 94 => ⟨S50000x64, .f32⟩
  | 95 => ⟨S1x64x64, .f32⟩
  | 96 => ⟨S64x64, .f32⟩
  | 97 => ⟨S1x64, .f32⟩
  | 98 => ⟨S64, .f32⟩
  | 99 => ⟨S50000x64, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x64, .f32⟩
  | 109 => ⟨S850000x1, .f32⟩
  | 110 => ⟨S850000x64, .f32⟩
  | 111 => ⟨S850000x64, .f32⟩
  | 112 => ⟨S_, .f32⟩
  | 113 => ⟨S50000x64, .f32⟩
  | 114 => ⟨S850000x1, .i32⟩
  | 115 => ⟨S50000x64, .f32⟩
  | 116 => ⟨S_, .f32⟩
  | 117 => ⟨S64, .f32⟩
  | 118 => ⟨S_, .f32⟩
  | 119 => ⟨S64, .f32⟩
  | 120 => ⟨S64, .f32⟩
  | 121 => ⟨S_, .i32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S50000x32, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S_, .f32⟩
  | 5 => ⟨S_, .f32⟩
  | 6 => ⟨S_, .f32⟩
  | 7 => ⟨S64, .f32⟩
  | 8 => ⟨S64, .f32⟩
  | 9 => ⟨S64, .f32⟩
  | 10 => ⟨S_, .f32⟩
  | 11 => ⟨S_, .i1⟩
  | 12 => ⟨S_, .f32⟩
  | 13 => ⟨S_, .f32⟩
  | 14 => ⟨S64, .f32⟩
  | 15 => ⟨S64, .f32⟩
  | 16 => ⟨S50000x64, .f32⟩
  | 17 => ⟨S1x64x64, .f32⟩
  | 18 => ⟨S64x64, .f32⟩
  | 19 => ⟨S1x64, .f32⟩
  | 20 => ⟨S64, .f32⟩
  | 21 => ⟨S50000x64, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000x64, .f32⟩
  | 31 => ⟨S850000x1, .f32⟩
  | 32 => ⟨S850000x64, .f32⟩
  | 33 => ⟨S850000x64, .f32⟩
  | 34 => ⟨S_, .f32⟩
  | 35 => ⟨S50000x64, .f32⟩
  | 36 => ⟨S850000x1, .i32⟩
  | 37 => ⟨S50000x64, .f32⟩
  | 38 => ⟨S_, .f32⟩
  | 39 => ⟨S64, .f32⟩
  | 40 => ⟨S_, .f32⟩
  | 41 => ⟨S64, .f32⟩
  | 42 => ⟨S64, .f32⟩
  | 43 => ⟨S_, .i32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S50000x64, .f32⟩
  | 51 => ⟨S50000x64, .f32⟩
  | 52 => ⟨S50000x64, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S64, .f32⟩
  | 60 => ⟨S_, .f32⟩
  | 61 => ⟨S_, .i1⟩
  | 62 => ⟨S_, .f32⟩
  | 63 => ⟨S_, .f32⟩
  | 64 => ⟨S64, .f32⟩
  | 65 => ⟨S64, .f32⟩
  | 66 => ⟨S50000x64, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64, .f32⟩
  | .local _ .vmem, ⟨49, _⟩ => ⟨S64, .f32⟩
  | .local _ .vmem, ⟨50, _⟩ => ⟨S64, .f32⟩
  | .local _ .vmem, ⟨51, _⟩ => ⟨S64, .f32⟩
  | .local _ .vmem, ⟨52, _⟩ => ⟨S5000x64, .f32⟩
  | .local _ .vmem, ⟨53, _⟩ => ⟨S5000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_cst_1 : Ref sig .tc := ⟨.hbm, 82, rfl⟩
abbrev main_call0_v8 : Ref sig .tc := ⟨.hbm, 83, rfl⟩
abbrev main_call0_cst_2 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_cst_3 : Ref sig .tc := ⟨.hbm, 88, rfl⟩
abbrev main_call0_v12 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_11 : Ref sig .tc := ⟨.hbm, 100, rfl⟩
abbrev main_v58 : Ref sig .tc := ⟨.hbm, 101, rfl⟩
abbrev main_v59 : Ref sig .tc := ⟨.hbm, 102, rfl⟩
abbrev main_c_12 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_13 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_14 : Ref sig .tc := ⟨.hbm, 116, rfl⟩
abbrev main_v71 : Ref sig .tc := ⟨.hbm, 117, rfl⟩
abbrev main_cst_15 : Ref sig .tc := ⟨.hbm, 118, rfl⟩
abbrev main_v72 : Ref sig .tc := ⟨.hbm, 119, rfl⟩
abbrev main_v73 : Ref sig .tc := ⟨.hbm, 120, rfl⟩
abbrev main_c_16 : Ref sig .tc := ⟨.hbm, 121, rfl⟩
abbrev main_call1_cst : Ref sig .tc := ⟨.hbm, 122, rfl⟩
abbrev main_call1_v0 : Ref sig .tc := ⟨.hbm, 123, rfl⟩
abbrev main_call1_v1 : Ref sig .tc := ⟨.hbm, 124, rfl⟩
abbrev main_call1_cst_0 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_v7 : Ref sig .tc := ⟨.hbm, 131, rfl⟩
abbrev main_call1_cst_1 : Ref sig .tc := ⟨.hbm, 132, rfl⟩
abbrev main_call1_v8 : Ref sig .tc := ⟨.hbm, 133, rfl⟩
abbrev main_call1_cst_2 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_cst_3 : Ref sig .tc := ⟨.hbm, 138, rfl⟩
abbrev main_call1_v12 : Ref sig .tc := ⟨.hbm, 139, rfl⟩
abbrev main_call1_cst_4 : Ref sig .tc := ⟨.hbm, 140, rfl⟩
abbrev main_call1_call0_v0 : Ref sig .tc := ⟨.hbm, 141, rfl⟩
abbrev main_call1_call0_v1 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_c_17 : Ref sig .tc := ⟨.hbm, 150, rfl⟩
abbrev main_v81 : Ref sig .tc := ⟨.hbm, 151, rfl⟩
abbrev main_v82 : Ref sig .tc := ⟨.hbm, 152, rfl⟩
abbrev main_c_18 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_cst_19 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_20 : Ref sig .tc := ⟨.hbm, 166, rfl⟩
abbrev main_v94 : Ref sig .tc := ⟨.hbm, 167, rfl⟩
abbrev main_cst_21 : Ref sig .tc := ⟨.hbm, 168, rfl⟩
abbrev main_v95 : Ref sig .tc := ⟨.hbm, 169, rfl⟩
abbrev main_v96 : Ref sig .tc := ⟨.hbm, 170, rfl⟩
abbrev main_c_22 : Ref sig .tc := ⟨.hbm, 171, rfl⟩
abbrev main_call2_cst : Ref sig .tc := ⟨.hbm, 172, rfl⟩
abbrev main_call2_v0 : Ref sig .tc := ⟨.hbm, 173, rfl⟩
abbrev main_call2_v1 : Ref sig .tc := ⟨.hbm, 174, rfl⟩
abbrev main_call2_cst_0 : Ref sig .tc := ⟨.hbm, 175, rfl⟩
abbrev main_call2_v2 : Ref sig .tc := ⟨.hbm, 176, rfl⟩
abbrev main_call2_v3 : Ref sig .tc := ⟨.hbm, 177, rfl⟩
abbrev main_call2_v4 : Ref sig .tc := ⟨.hbm, 178, rfl⟩
abbrev main_call2_v5 : Ref sig .tc := ⟨.hbm, 179, rfl⟩
abbrev main_call2_v6 : Ref sig .tc := ⟨.hbm, 180, rfl⟩
abbrev main_call2_v7 : Ref sig .tc := ⟨.hbm, 181, rfl⟩
abbrev main_call2_cst_1 : Ref sig .tc := ⟨.hbm, 182, rfl⟩
abbrev main_call2_v8 : Ref sig .tc := ⟨.hbm, 183, rfl⟩
abbrev main_call2_cst_2 : Ref sig .tc := ⟨.hbm, 184, rfl⟩
abbrev main_call2_v9 : Ref sig .tc := ⟨.hbm, 185, rfl⟩
abbrev main_call2_v10 : Ref sig .tc := ⟨.hbm, 186, rfl⟩
abbrev main_call2_v11 : Ref sig .tc := ⟨.hbm, 187, rfl⟩
abbrev main_call2_cst_3 : Ref sig .tc := ⟨.hbm, 188, rfl⟩
abbrev main_call2_v12 : Ref sig .tc := ⟨.hbm, 189, rfl⟩
abbrev main_call2_cst_4 : Ref sig .tc := ⟨.hbm, 190, rfl⟩
abbrev main_call2_call0_v0 : Ref sig .tc := ⟨.hbm, 191, rfl⟩
abbrev main_call2_call0_v1 : Ref sig .tc := ⟨.hbm, 192, rfl⟩
abbrev main_v97 : Ref sig .tc := ⟨.hbm, 193, rfl⟩
abbrev main_v98 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x32_S5000x32_0_0 : ∀ a, (![0, 0] : Fin 2 → Nat) a + S5000x32.size a ≤ S5000x32.size a
  h_S5000x32 : 0 < S5000x32.numel
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64.size a ≤ S64.size a
  hwx6_3 : ∀ i : grid6.Coords, EltTy.bits .f32 = 32 ∨ (Rect.block (s := S64) S64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64.size a ≤ S64.size a
  hwx6_5 : ∀ i : grid6.Coords, EltTy.bits .f32 = 32 ∨ (Rect.block (s := S64) S64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v70) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg6) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg7) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v93) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg6) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg7) S64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v98) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S1x64 : Shape := ⟨2, ![1, 64]⟩
abbrev S1x64x64 : Shape := ⟨3, ![1, 64, 64]⟩
abbrev S64x64 : Shape := ⟨2, ![64, 64]⟩
abbrev S850000x64 : Shape := ⟨2, ![850000, 64]⟩

abbrev nBuf : Space → Nat
  | .hbm => 267
  | .vmem => 0
  | .smem => 0
  | _ => 0

abbrev hbmTy0_0 (i : Nat) : BufTy := match i % 128 with
  | 0 => ⟨S50000x32, .f32⟩
  | 1 => ⟨S2x800000, .i32⟩
  | 2 => ⟨S32x64, .f32⟩
  | 3 => ⟨S64, .f32⟩
  | 4 => ⟨S3x64x64, .f32⟩
  | 5 => ⟨S3x64, .f32⟩
  | 6 => ⟨S64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S1x64x64, .f32⟩
  | 52 => ⟨S64x64, .f32⟩
  | 53 => ⟨S50000x64, .f32⟩
  | 54 => ⟨S1x64, .f32⟩
  | 55 => ⟨S64, .f32⟩
  | 56 => ⟨S1x64, .f32⟩
  | 57 => ⟨S50000x64, .f32⟩
  | 58 => ⟨S50000x64, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x64, .f32⟩
  | 68 => ⟨S850000x1, .f32⟩
  | 69 => ⟨S850000x64, .f32⟩
  | 70 => ⟨S850000x64, .f32⟩
  | 71 => ⟨S_, .f32⟩
  | 72 => ⟨S50000x64, .f32⟩
  | 73 => ⟨S850000x1, .i32⟩
  | 74 => ⟨S50000x64, .f32⟩
  | 75 => ⟨S_, .f32⟩
  | 76 => ⟨S64, .f32⟩
  | 77 => ⟨S_, .f32⟩
  | 78 => ⟨S64, .f32⟩
  | 79 => ⟨S64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S50000x64, .f32⟩
  | 88 => ⟨S50000x64, .f32⟩
  | 89 => ⟨S50000x64, .f32⟩
  | 90 => ⟨S_, .f32⟩
  | 91 => ⟨S_, .f32⟩
  | 92 => ⟨S_, .f32⟩
  | 93 => ⟨S_, .f32⟩
  | 94 => ⟨S64, .f32⟩
  | 95 => ⟨S64, .f32⟩
  | 96 => ⟨S64, .f32⟩
  | 97 => ⟨S_, .f32⟩
  | 98 => ⟨S_, .i1⟩
  | 99 => ⟨S_, .f32⟩
  | 100 => ⟨S_, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S_, .f32⟩
  | 107 => ⟨S64, .f32⟩
  | 108 => ⟨S64, .f32⟩
  | 109 => ⟨S64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S1x64x64, .f32⟩
  | 124 => ⟨S64x64, .f32⟩
  | 125 => ⟨S50000x64, .f32⟩
  | 126 => ⟨S1x64, .f32⟩
  | 127 => ⟨S64, .f32⟩
  | _ => ⟨S50000x32, .f32⟩

abbrev hbmTy0_1 (i : Nat) : BufTy := match i % 128 with
  | 0 => ⟨S1x64, .f32⟩
  | 1 => ⟨S50000x64, .f32⟩
  | 2 => ⟨S50000x64, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x64, .f32⟩
  | 12 => ⟨S850000x1, .f32⟩
  | 13 => ⟨S850000x64, .f32⟩
  | 14 => ⟨S850000x64, .f32⟩
  | 15 => ⟨S_, .f32⟩
  | 16 => ⟨S50000x64, .f32⟩
  | 17 => ⟨S850000x1, .i32⟩
  | 18 => ⟨S50000x64, .f32⟩
  | 19 => ⟨S_, .f32⟩
  | 20 => ⟨S64, .f32⟩
  | 21 => ⟨S_, .f32⟩
  | 22 => ⟨S64, .f32⟩
  | 23 => ⟨S64, .f32⟩
  | 24 => ⟨S_, .i32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S50000x64, .f32⟩
  | 32 => ⟨S50000x64, .f32⟩
  | 33 => ⟨S50000x64, .f32⟩
  | 34 => ⟨S_, .f32⟩
  | 35 => ⟨S_, .f32⟩
  | 36 => ⟨S_, .f32⟩
  | 37 => ⟨S_, .f32⟩
  | 38 => ⟨S64, .f32⟩
  | 39 => ⟨S64, .f32⟩
  | 40 => ⟨S64, .f32⟩
  | 41 => ⟨S_, .f32⟩
  | 42 => ⟨S_, .i1⟩
  | 43 => ⟨S_, .f32⟩
  | 44 => ⟨S_, .f32⟩
  | 45 => ⟨S64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S64, .f32⟩
  | 52 => ⟨S64, .f32⟩
  | 53 => ⟨S64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S1x64x64, .f32⟩
  | 68 => ⟨S64x64, .f32⟩
  | 69 => ⟨S50000x64, .f32⟩
  | 70 => ⟨S1x64, .f32⟩
  | 71 => ⟨S64, .f32⟩
  | 72 => ⟨S1x64, .f32⟩
  | 73 => ⟨S50000x64, .f32⟩
  | 74 => ⟨S50000x64, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x64, .f32⟩
  | 84 => ⟨S850000x1, .f32⟩
  | 85 => ⟨S850000x64, .f32⟩
  | 86 => ⟨S850000x64, .f32⟩
  | 87 => ⟨S_, .f32⟩
  | 88 => ⟨S50000x64, .f32⟩
  | 89 => ⟨S850000x1, .i32⟩
  | 90 => ⟨S50000x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S50000x64, .f32⟩
  | 104 => ⟨S50000x64, .f32⟩
  | 105 => ⟨S50000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S50000x64, .f32⟩
  | 121 => ⟨S50000x64, .f32⟩
  | 122 => ⟨S_, .f32⟩
  | 123 => ⟨S64, .f32⟩
  | 124 => ⟨S64, .f32⟩
  | 125 => ⟨S64, .f32⟩
  | 126 => ⟨S1x64, .f32⟩
  | 127 => ⟨S50000x64, .f32⟩
  | _ => ⟨S50000x32, .f32⟩

abbrev hbmTy0_2 (i : Nat) : BufTy := match i % 128 with
  | 0 => ⟨S50000x64, .f32⟩
  | 1 => ⟨S1x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S50000x64, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_11 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_call2_cst : Ref sig .tc := ⟨.hbm, 119, rfl⟩
abbrev main_call2_v0 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_12 : Ref sig .tc := ⟨.hbm, 131, rfl⟩
abbrev main_v84 : Ref sig .tc := ⟨.hbm, 132, rfl⟩
abbrev main_v85 : Ref sig .tc := ⟨.hbm, 133, rfl⟩
abbrev main_c_13 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_14 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_15 : Ref sig .tc := ⟨.hbm, 147, rfl⟩
abbrev main_v97 : Ref sig .tc := ⟨.hbm, 148, rfl⟩
abbrev main_cst_16 : Ref sig .tc := ⟨.hbm, 149, rfl⟩
abbrev main_v98 : Ref sig .tc := ⟨.hbm, 150, rfl⟩
abbrev main_v99 : Ref sig .tc := ⟨.hbm, 151, rfl⟩
abbrev main_c_17 : Ref sig .tc := ⟨.hbm, 152, rfl⟩
abbrev main_call3_cst : Ref sig .tc := ⟨.hbm, 153, rfl⟩
abbrev main_call3_v0 : Ref sig .tc := ⟨.hbm, 154, rfl⟩
abbrev main_call3_v1 : Ref sig .tc := ⟨.hbm, 155, rfl⟩
abbrev main_call3_cst_0 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_v5 : Ref sig .tc := ⟨.hbm, 160, rfl⟩
abbrev main_call3_v6 : Ref sig .tc := ⟨.hbm, 161, rfl⟩
abbrev main_call3_v7 : Ref sig .tc := ⟨.hbm, 162, rfl⟩
abbrev main_call3_cst_1 : Ref sig .tc := ⟨.hbm, 163, rfl⟩
abbrev main_call3_v8 : Ref sig .tc := ⟨.hbm, 164, rfl⟩
abbrev main_call3_cst_2 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_cst_3 : Ref sig .tc := ⟨.hbm, 169, rfl⟩
abbrev main_call3_v12 : Ref sig .tc := ⟨.hbm, 170, rfl⟩
abbrev main_call3_cst_4 : Ref sig .tc := ⟨.hbm, 171, rfl⟩
abbrev main_call3_call0_v0 : Ref sig .tc := ⟨.hbm, 172, rfl⟩
abbrev main_call3_call0_v1 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_18 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_call4_cst : Ref sig .tc := ⟨.hbm, 191, rfl⟩
abbrev main_call4_v0 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_c_19 : Ref sig .tc := ⟨.hbm, 203, rfl⟩
abbrev main_v126 : Ref sig .tc := ⟨.hbm, 204, rfl⟩
abbrev main_v127 : Ref sig .tc := ⟨.hbm, 205, rfl⟩
abbrev main_c_20 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_21 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_22 : Ref sig .tc := ⟨.hbm, 219, rfl⟩
abbrev main_v139 : Ref sig .tc := ⟨.hbm, 220, rfl⟩
abbrev main_cst_23 : Ref sig .tc := ⟨.hbm, 221, rfl⟩
abbrev main_v140 : Ref sig .tc := ⟨.hbm, 222, rfl⟩
abbrev main_v141 : Ref sig .tc := ⟨.hbm, 223, rfl⟩
abbrev main_c_24 : Ref sig .tc := ⟨.hbm, 224, rfl⟩
abbrev main_call5_cst : Ref sig .tc := ⟨.hbm, 225, rfl⟩
abbrev main_call5_v0 : Ref sig .tc := ⟨.hbm, 226, rfl⟩
abbrev main_call5_v1 : Ref sig .tc := ⟨.hbm, 227, rfl⟩
abbrev main_call5_cst_0 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_call5_v5 : Ref sig .tc := ⟨.hbm, 232, rfl⟩
abbrev main_call5_v6 : Ref sig .tc := ⟨.hbm, 233, rfl⟩
abbrev main_call5_v7 : Ref sig .tc := ⟨.hbm, 234, rfl⟩
abbrev main_call5_cst_1 : Ref sig .tc := ⟨.hbm, 235, rfl⟩
abbrev main_call5_v8 : Ref sig .tc := ⟨.hbm, 236, rfl⟩
abbrev main_call5_cst_2 : Ref sig .tc := ⟨.hbm, 237, rfl⟩
abbrev main_call5_v9 : Ref sig .tc := ⟨.hbm, 238, rfl⟩
abbrev main_call5_v10 : Ref sig .tc := ⟨.hbm, 239, rfl⟩
abbrev main_call5_v11 : Ref sig .tc := ⟨.hbm, 240, rfl⟩
abbrev main_call5_cst_3 : Ref sig .tc := ⟨.hbm, 241, rfl⟩
abbrev main_call5_v12 : Ref sig .tc := ⟨.hbm, 242, rfl⟩
abbrev main_call5_cst_4 : Ref sig .tc := ⟨.hbm, 243, rfl⟩
abbrev main_call5_call0_v0 : Ref sig .tc := ⟨.hbm, 244, rfl⟩
abbrev main_call5_call0_v1 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_cst_25 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_call6_cst : Ref sig .tc := ⟨.hbm, 263, rfl⟩
abbrev main_call6_v0 : Ref sig .tc := ⟨.hbm, 264, rfl⟩
abbrev main_v158 : Ref sig .tc := ⟨.hbm, 265, rfl⟩
abbrev main_v159 : Ref sig .tc := ⟨.hbm, 266, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S850000x1_S850000x64_0_1 : S850000x1.BroadcastsInDim S850000x64 (![0, 1] : Fin 2 → Fin S850000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x32_S32x64_S50000x64_1_0_0_1_n_n_wf : DotDims.WF S50000x32 S32x64 S50000x64 [1] [0] [0] [1] [] []
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  A three-layer graph convolution network over 50000 nodes and 800000 directed edges, as ONE function of its
  arguments, written with the host operations the reference program applies, in its order.

  Every node gets a self loop, so the edge list has 850000 entries: `srcIdx` / `dstIdx` are the two rows of the
  edge table followed by 0 … 49999.  The degree of a node counts the edges that end there, `dinv` is
  rsqrt (max (degree, 1)), and the weight of edge e is dinv (src e) · dinv (dst e) (`edgeNorm`).  A negative index is
  wrapped by adding the node count (`wrapIdx`): an index counted from the end.

  The node features start at `embed x W b = max (x·W + b, 0)`.  One layer sends h to
  t = h·Wₗ + bₗ (`lin`), gathers t at the edges' sources, scales by the edge weights and adds the rows up at the
  edges' targets (`aggregate`), takes the column mean and the column variance of that sum over the 50000 nodes
  (`colMean`, `colVar`), and returns max ((a − mean) · rsqrt (var + ε) · γ + β, 0) + h (`bnRelu`).
-/
import proofs.«407553_j68453188763742_4_alg».proof.Proof.Gen.ReferenceIdeal

noncomputable section

namespace Cert.Gcn

open Idealize.ShloMosaic Cert.ReferenceIdeal Cert.ReferenceIdeal.Gen

variable {F : FTy → Type} [FloatOps F]

/-- The sources of the 850000 edges: row 0 of the edge table, then the self loops 0 … 49999. -/
def srcIdx (ei : Vec F S2x800000 .i32) : Vec F S850000 .i32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

/-- The targets of the 850000 edges: row 1 of the edge table, then the self loops 0 … 49999. -/
def dstIdx (ei : Vec F S2x800000 .i32) : Vec F S850000 .i32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- An index column for a gather: a negative index wrapped by the node count, as one column. -/
def wrapIdx (v : Vec F S850000 .i32) : Vec F S850000x1 .i32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- rsqrt (max (degree, 1)) per node, the degree counting the edges that end at the node. -/
def dinv (ei : Vec F S2x800000 .i32) : Vec F S50000 .f32 :=
  Host.rsqrt (maximumf
    (Host.scatterAdd scatter_S50000_S850000x1_S850000_n_0_0_1
      (broadcastInDim S50000 ![] bcast_S_S50000 (constant S_ .f32 0x00000000#32))
      (broadcastInDim S850000x1 ![0] bcast_S850000_S850000x1_0 (dstIdx ei))
      (broadcastInDim S850000 ![] bcast_S_S850000 (constant S_ .f32 0x3F800000#32)))
    (broadcastInDim S50000 ![] bcast_S_S50000 (constant S_ .f32 0x3F800000#32)))

/-- The weight of each edge: dinv at its source times dinv at its target. -/
def edgeNorm (ei : Vec F S2x800000 .i32) : Vec F S850000 .f32 :=
  mulf (Host.gather gather_S50000_S850000x1_S850000_n_0_n_n_0_1_1 (dinv ei) (wrapIdx (srcIdx ei)))
    (Host.gather gather_S50000_S850000x1_S850000_n_0_n_n_0_1_1 (dinv ei) (wrapIdx (dstIdx ei)))

/-- A row vector of 64 entries repeated down 50000 rows. -/
def rowBcast (b : Vec F S64 .f32) : Vec F S50000x64 .f32 :=
  broadcastInDim S50000x64 ![0, 1] bcast_S1x64_S50000x64_0_1 (broadcastInDim S1x64 ![1] bcast_S64_S1x64_1 b)

/-- max (y, 0), entry by entry. -/
def relu (y : Vec F S50000x64 .f32) : Vec F S50000x64 .f32 :=
  maximumf y (broadcastInDim S50000x64 ![] bcast_S_S50000x64 (constant S_ .f32 0x00000000#32))

/-- The first features: max (x·W + b, 0). -/
def embed (x : Vec F S50000x32 .f32) (W : Vec F S32x64 .f32) (b : Vec F S64 .f32) : Vec F S50000x64 .f32 :=
  relu (addf (Host.dotGeneral dot_S50000x32_S32x64_S50000x64_1_0_0_1_n_n none x W) (rowBcast b))

/-- A layer's linear map: h·W + b. -/
def lin (h : Vec F S50000x64 .f32) (W : Vec F S64x64 .f32) (b : Vec F S64 .f32) : Vec F S50000x64 .f32 :=
  addf (Host.dotGeneral dot_S50000x64_S64x64_S50000x64_1_0_0_1_n_n none h W) (rowBcast b)

/-- Layer 0's weight matrix and bias out of the stacked ones (1 and 2 likewise). -/
def weight0 (Ws : Vec F S3x64x64 .f32) : Vec F S64x64 .f32 :=
  shapeCast S64x64 (extractStridedSlice S1x64x64 ![0, 0, 0] Ws slices_S3x64x64_S1x64x64_0_0_0) shapeCasts_S1x64x64_S64x64
def weight1 (Ws : Vec F S3x64x64 .f32) : Vec F S64x64 .f32 :=
  shapeCast S64x64 (extractStridedSlice S1x64x64 ![1, 0, 0] Ws slices_S3x64x64_S1x64x64_1_0_0) shapeCasts_S1x64x64_S64x64
def weight2 (Ws : Vec F S3x64x64 .f32) : Vec F S64x64 .f32 :=
  shapeCast S64x64 (extractStridedSlice S1x64x64 ![2, 0, 0] Ws slices_S3x64x64_S1x64x64_2_0_0) shapeCasts_S1x64x64_S64x64
def bias0 (bs : Vec F S3x64 .f32) : Vec F S64 .f32 :=
  shapeCast S64 (extractStridedSlice S1x64 ![0, 0] bs slices_S3x64_S1x64_0_0) shapeCasts_S1x64_S64
def bias1 (bs : Vec F S3x64 .f32) : Vec F S64 .f32 :=
  shapeCast S64 (extractStridedSlice S1x64 ![1, 0] bs slices_S3x64_S1x64_1_0) shapeCasts_S1x64_S64
def bias2 (bs : Vec F S3x64 .f32) : Vec F S64 .f32 :=
  shapeCast S64 (extractStridedSlice S1x64 ![2, 0] bs slices_S3x64_S1x64_2_0) shapeCasts_S1x64_S64

/-- The weighted sum over incoming edges: row n is the sum, over the edges e that end at n, of weight e times
    row (src e) of t. -/
def aggregate (t : Vec F S50000x64 .f32) (ei : Vec F S2x800000 .i32) : Vec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 (dstIdx ei))
    (mulf (Host.gather gather_S50000x64_S850000x1_S850000x64_1_0_n_n_0_1_164 t (wrapIdx (srcIdx ei)))
      (broadcastInDim S850000x64 ![0, 1] bcast_S850000x1_S850000x64_0_1
        (broadcastInDim S850000x1 ![0] bcast_S850000_S850000x1_0 (edgeNorm ei))))

/-- The mean of each of the 64 columns over the 50000 rows. -/
def colMean (a : Vec F S50000x64 .f32) : Vec F S64 .f32 :=
  Host.divf (Host.reduceAdd a (constant S_ .f32 0x00000000#32) reducesTo_S50000x64_S64_d0 h_S_)
    (broadcastInDim S64 ![] bcast_S_S64 (constant S_ .f32 0x47435000#32))

/-- The (population) variance of each column: the mean of the squared deviations from the column mean, divided by the
    count 50000 − 0 (no degrees of freedom taken off), with the guard for a count that is not positive. -/
def colVar (a : Vec F S50000x64 .f32) : Vec F S64 .f32 :=
  (fun (p : Vec F S_ .i1) (x y : Vec F S64 .f32) => select (broadcastInDim S64 ![] bcast_S_S64 p) x y)
    (cmpf .ogt (subf (constant (F := F) S_ .f32 0x47435000#32) (sitofp (F := F) .f32 (constantI S_ 32 0#32)))
      (constant (F := F) S_ .f32 0x00000000#32))
    (Host.divf
      (Host.reduceAdd
        (mulf
          (subf a (broadcastInDim S50000x64 ![0, 1] bcast_S1x64_S50000x64_0_1
            (Host.divf (broadcastInDim S1x64 ![1] bcast_S64_S1x64_1
                (Host.reduceAdd a (constant S_ .f32 0x00000000#32) reducesTo_S50000x64_S64_d0 h_S_))
              (broadcastInDim S1x64 ![] bcast_S_S1x64 (constant S_ .f32 0x47435000#32)))))
          (subf a (broadcastInDim S50000x64 ![0, 1] bcast_S1x64_S50000x64_0_1
            (Host.divf (broadcastInDim S1x64 ![1] bcast_S64_S1x64_1
                (Host.reduceAdd a (constant S_ .f32 0x00000000#32) reducesTo_S50000x64_S64_d0 h_S_))
              (broadcastInDim S1x64 ![] bcast_S_S1x64 (constant S_ .f32 0x47435000#32))))))
        (constant S_ .f32 0x00000000#32) reducesTo_S50000x64_S64_d0 h_S_)
      (broadcastInDim S64 ![] bcast_S_S64
        (subf (constant S_ .f32 0x47435000#32) (sitofp .f32 (constantI S_ 32 0#32)))))
    (broadcastInDim S64 ![] bcast_S_S64 (id (constant S_ .f32 0x7FC00000#32)))

/-- Batch normalisation with given column statistics, then max (·, 0), then the residual:
    max ((a − mean) · rsqrt (var + ε) · γ + β, 0) + h. -/
def bnRelu (a h : Vec F S50000x64 .f32) (mu vr gamma beta : Vec F S64 .f32) : Vec F S50000x64 .f32 :=
  addf
    (relu (addf
      (mulf
        (mulf (subf a (rowBcast mu))
          (rowBcast (Host.rsqrt (addf vr (broadcastInDim S64 ![] bcast_S_S64 (constant S_ .f32 0x3727C5AC#32))))))
        (rowBcast gamma))
      (rowBcast beta)))
    h

/-- One layer: linear map, aggregation over the edges, batch normalisation with the aggregate's own column
    statistics, max (·, 0), residual. -/
def layer (h : Vec F S50000x64 .f32) (ei : Vec F S2x800000 .i32) (W : Vec F S64x64 .f32) (b gamma beta : Vec F S64 .f32) :
    Vec F S50000x64 .f32 :=
  bnRelu (aggregate (lin h W b) ei) h (colMean (aggregate (lin h W b) ei)) (colVar (aggregate (lin h W b) ei)) gamma beta

/-- The network: the embedding, then three layers with the stacked weights 0, 1, 2. -/
def net (x : Vec F S50000x32 .f32) (ei : Vec F S2x800000 .i32) (We : Vec F S32x64 .f32) (be : Vec F S64 .f32)
    (Ws : Vec F S3x64x64 .f32) (bs : Vec F S3x64 .f32) (gamma beta : Vec F S64 .f32) : Vec F S50000x64 .f32 :=
  layer (layer (layer (embed x We be) ei (weight0 Ws) (bias0 bs) gamma beta) ei (weight1 Ws) (bias1 bs) gamma beta)
    ei (weight2 Ws) (bias2 bs) gamma beta

end Cert.Gcn

end
-- ==== Proof.ChainHost.lean ====
/-
  The host stretches of the kernel program, each read as a function of the buffer contents it starts from.

  Between its seven regions the program applies the same host operations as the specification: the edge lists and the
  edge weights before the first region; a layer's weight matrix and bias before each linear region; and before each
  normalisation region the aggregation over the edges, the column mean and the column variance of the aggregate.
  Each lemma below reads ONE result buffer after ONE stretch, from an arbitrary valuation `V` of the buffers, as the
  specification's function of `V` at the buffers the stretch reads.
-/
import proofs.«407553_j68453188763742_4_alg».proof.Proof.Gen.KernelIdeal.Launch
import proofs.«407553_j68453188763742_4_alg».proof.Proof.Spec
import Idealize.ShloMosaic.Lib.StableHlo.Run

set_option maxRecDepth 16384
set_option maxHeartbeats 1000000

noncomputable section

namespace Cert.KernelIdeal.Chain

open Idealize.ShloMosaic Idealize.ShloMosaic.TcCoe Idealize.ShloMosaic.StableHlo
open Cert.KernelIdeal Cert.KernelIdeal.Gen

variable {F : FTy → Type} [FloatOps F]

/-- The aggregation over the edges with the edge lists and the edge weights as parameters: row n of the result is the
    sum, over the edges e with `dst e = n`, of `nrm e` times row `src e` of `t`. -/
def aggOf (t : Vec F S50000x64 .f32) (src dst : Vec F S850000 .i32) (nrm : Vec F S850000 .f32) : Vec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf (Host.gather gather_S50000x64_S850000x1_S850000x64_1_0_n_n_0_1_164 t (Cert.Gcn.wrapIdx src))
      (broadcastInDim S850000x64 ![0, 1] bcast_S850000x1_S850000x64_0_1
        (broadcastInDim S850000x1 ![0] bcast_S850000_S850000x1_0 nrm)))

/-- The specification's aggregation is `aggOf` at the graph's own edge lists and weights. -/
theorem aggregate_eq (t : Vec F S50000x64 .f32) (ei : Vec F S2x800000 .i32) :
    Cert.Gcn.aggregate t ei = aggOf t (Cert.Gcn.srcIdx ei) (Cert.Gcn.dstIdx ei) (Cert.Gcn.edgeNorm ei) := rfl

variable (V : Valuation τ sig (Elt F))

/-! ## Before the first region: the edge lists and the edge weights -/

theorem pre_src : after hostOps0 V (Proc.devRef .tc main_v3) = Cert.Gcn.srcIdx (V (Proc.devRef .tc main_arg1)) := by
  after_results_simp
  rfl

theorem pre_dst : after hostOps0 V (Proc.devRef .tc main_v6) = Cert.Gcn.dstIdx (V (Proc.devRef .tc main_arg1)) := by
  after_results_simp
  rfl

theorem pre_norm : after hostOps0 V (Proc.devRef .tc main_v28) = Cert.Gcn.edgeNorm (V (Proc.devRef .tc main_arg1)) := by
  after_results_simp
  rfl

/-! ## Before a linear region: the layer's weight matrix and bias -/

theorem weight_l0 : after hostOps1 V (Proc.devRef .tc main_v31) = Cert.Gcn.weight0 (V (Proc.devRef .tc main_arg4)) := by
  after_results_simp
  rfl
theorem bias_l0 : after hostOps1 V (Proc.devRef .tc main_v33) = Cert.Gcn.bias0 (V (Proc.devRef .tc main_arg5)) := by
  after_results_simp
  rfl
theorem weight_l1 : after hostOps3 V (Proc.devRef .tc main_v54) = Cert.Gcn.weight1 (V (Proc.devRef .tc main_arg4)) := by
  after_results_simp
  rfl
theorem bias_l1 : after hostOps3 V (Proc.devRef .tc main_v56) = Cert.Gcn.bias1 (V (Proc.devRef .tc main_arg5)) := by
  after_results_simp
  rfl
theorem weight_l2 : after hostOps5 V (Proc.devRef .tc main_v77) = Cert.Gcn.weight2 (V (Proc.devRef .tc main_arg4)) := by
  after_results_simp
  rfl
theorem bias_l2 : after hostOps5 V (Proc.devRef .tc main_v79) = Cert.Gcn.bias2 (V (Proc.devRef .tc main_arg5)) := by
  after_results_simp
  rfl

/-! ## Before a normalisation region: the aggregate, its column mean, and the zero the variance is called with -/

theorem agg_l0 : after hostOps2 V (Proc.devRef .tc main_v47)
    = aggOf (V (Proc.devRef .tc main_v34)) (V (Proc.devRef .tc main_v3)) (V (Proc.devRef .tc main_v6)) (V (Proc.devRef .tc main_v28)) := by
  after_results_simp
  rfl
theorem mean_l0 : after hostOps2 V (Proc.devRef .tc main_v50)
    = Cert.Gcn.colMean (aggOf (V (Proc.devRef .tc main_v34)) (V (Proc.devRef .tc main_v3)) (V (Proc.devRef .tc main_v6)) (V (Proc.devRef .tc main_v28))) := by
  after_results_simp
  rfl
theorem zero_l0 : after hostOps2 V (Proc.devRef .tc main_c_10) = constantI S_ 32 0#32 := by
  after_results_simp

theorem agg_l1 : after hostOps4 V (Proc.devRef .tc main_v70)
    = aggOf (V (Proc.devRef .tc main_v57)) (V (Proc.devRef .tc main_v3)) (V (Proc.devRef .tc main_v6)) (V (Proc.devRef .tc main_v28)) := by
  after_results_simp
  rfl
theorem mean_l1 : after hostOps4 V (Proc.devRef .tc main_v73)
    = Cert.Gcn.colMean (aggOf (V (Proc.devRef .tc main_v57)) (V (Proc.devRef .tc main_v3)) (V (Proc.devRef .tc main_v6)) (V (Proc.devRef .tc main_v28))) := by
  after_results_simp
  rfl
theorem zero_l1 : after hostOps4 V (Proc.devRef .tc main_c_16) = constantI S_ 32 0#32 := by
  after_results_simp

theorem agg_l2 : after hostOps6 V (Proc.devRef .tc main_v93)
    = aggOf (V (Proc.devRef .tc main_v80)) (V (Proc.devRef .tc main_v3)) (V (Proc.devRef .tc main_v6)) (V (Proc.devRef .tc main_v28)) := by
  after_results_simp
  rfl
theorem mean_l2 : after hostOps6 V (Proc.devRef .tc main_v96)
    = Cert.Gcn.colMean (aggOf (V (Proc.devRef .tc main_v80)) (V (Proc.devRef .tc main_v3)) (V (Proc.devRef .tc main_v6)) (V (Proc.devRef .tc main_v28))) := by
  after_results_simp
  rfl
theorem zero_l2 : after hostOps6 V (Proc.devRef .tc main_c_22) = constantI S_ 32 0#32 := by
  after_results_simp

/-! ## The column variance: the outlined function's operations, called with the zero above -/

theorem var_l0 (h0 : V (Proc.devRef .tc main_c_10) = constantI S_ 32 0#32) :
    after hostOps2_1 V (Proc.devRef .tc main_v51) = Cert.Gcn.colVar (V (Proc.devRef .tc main_v47)) := by
  after_results_simp
  rw [h0]
  rfl
theorem var_l1 (h0 : V (Proc.devRef .tc main_c_16) = constantI S_ 32 0#32) :
    after hostOps4_1 V (Proc.devRef .tc main_v74) = Cert.Gcn.colVar (V (Proc.devRef .tc main_v70)) := by
  after_results_simp
  rw [h0]
  rfl
theorem var_l2 (h0 : V (Proc.devRef .tc main_c_22) = constantI S_ 32 0#32) :
    after hostOps6_1 V (Proc.devRef .tc main_v97) = Cert.Gcn.colVar (V (Proc.devRef .tc main_v93)) := by
  after_results_simp
  rw [h0]
  rfl

end Cert.KernelIdeal.Chain

end
-- ==== Proof.ChainKeep.lean ====
/-
  What the run leaves alone.  Seven buffers are written once, before the first region or never, and read by every
  layer: the two edge lists, the edge weights, the stacked weights and biases, and the normalisation's scale and shift.
  No later host operation writes them and no region has them as an output, so each boundary of the run finds them as the
  boundary before left them: `Keeps W W'` says so for two boundaries' contents, and the lemmas below walk the sixteen
  steps from the first region's entry to the last region's exit.
-/
import proofs.«407553_j68453188763742_4_alg».proof.Proof.Gen.KernelIdeal.Frame

set_option maxRecDepth 16384

noncomputable section

namespace Cert.KernelIdeal.Chain

open Idealize.ShloMosaic Idealize.ShloMosaic.TcCoe
open Idealize.SL.Sem
open Cert.KernelIdeal Cert.KernelIdeal.Gen

variable {F : FTy → Type} [FloatOps F]

/-- A buffer that no operation of a host stretch writes holds after the stretch what it held before. -/
macro "host_keeps" : tactic => `(tactic| (
  refine StableHlo.after_of_forall_not_mem _ _ (List.forall_iff_forall_mem.mp ?_)
  simp only [hostOps0, hostOps1, hostOps2, hostOps2_1, hostOps3, hostOps4, hostOps4_1, hostOps5, hostOps6, hostOps6_1,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The second contents agree with the first on the seven long-lived buffers. -/
structure Keeps (W W' : Valuation τ sig (Elt F)) : Prop where
  src : W' (Proc.devRef .tc main_v3) = W (Proc.devRef .tc main_v3)
  dst : W' (Proc.devRef .tc main_v6) = W (Proc.devRef .tc main_v6)
  nrm : W' (Proc.devRef .tc main_v28) = W (Proc.devRef .tc main_v28)
  wts : W' (Proc.devRef .tc main_arg4) = W (Proc.devRef .tc main_arg4)
  bss : W' (Proc.devRef .tc main_arg5) = W (Proc.devRef .tc main_arg5)
  gam : W' (Proc.devRef .tc main_arg6) = W (Proc.devRef .tc main_arg6)
  bet : W' (Proc.devRef .tc main_arg7) = W (Proc.devRef .tc main_arg7)

theorem Keeps.trans {W W' W'' : Valuation τ sig (Elt F)} (h : Keeps W W') (h' : Keeps W' W'') : Keeps W W'' :=
  ⟨h'.src.trans h.src, h'.dst.trans h.dst, h'.nrm.trans h.nrm, h'.wts.trans h.wts, h'.bss.trans h.bss,
    h'.gam.trans h.gam, h'.bet.trans h.bet⟩

variable (m : (ℓ : Loc nD τ sig) → Buf (Elt F) ℓ) (ρ : Dev nD → PrngReg) (c : Dev nD)

/-! ## One step at a time -/

theorem keeps_1_2 : Keeps (W1 m ρ c) (W2 m ρ c) :=
  ⟨W2_of_ne m ρ c main_v3 (by decide), W2_of_ne m ρ c main_v6 (by decide), W2_of_ne m ρ c main_v28 (by decide),
    W2_of_ne m ρ c main_arg4 (by decide), W2_of_ne m ρ c main_arg5 (by decide), W2_of_ne m ρ c main_arg6 (by decide),
    W2_of_ne m ρ c main_arg7 (by decide)⟩
theorem keeps_2_3 : Keeps (W2 m ρ c) (W3 m ρ c) :=
  ⟨by host_keeps, by host_keeps, by host_keeps, by host_keeps, by host_keeps, by host_keeps, by host_keeps⟩
theorem keeps_3_4 : Keeps (W3 m ρ c) (W4 m ρ c) :=
  ⟨W4_of_ne m ρ c main_v3 (by decide), W4_of_ne m ρ c main_v6 (by decide), W4_of_ne m ρ c main_v28 (by decide),
    W4_of_ne m ρ c main_arg4 (by decide), W4_of_ne m ρ c main_arg5 (by decide), W4_of_ne m ρ c main_arg6 (by decide),
    W4_of_ne m ρ c main_arg7 (by decide)⟩
theorem keeps_4_5 : Keeps (W4 m ρ c) (W5 m ρ c) :=
  ⟨by host_keeps, by host_keeps, by host_keeps, by host_keeps, by host_keeps, by host_keeps, by host_keeps⟩
theorem keeps_5_6 : Keeps (W5 m ρ c) (W6 m ρ c) :=
  ⟨by host_keeps, by host_keeps, by host_keeps, by host_keeps, by host_keeps, by host_keeps, by host_keeps⟩
theorem keeps_6_7 : Keeps (W6 m ρ c) (W7 m ρ c) :=
  ⟨W7_of_ne m ρ c main_v3 (by decide), W7_of_ne m ρ c main_v6 (by decide), W7_of_ne m ρ c main_v28 (by decide),
    W7_of_ne m ρ c main_arg4 (by decide), W7_of_ne m ρ c main_arg5 (by decide),
    (W7_arr m ρ c 4).trans (((dat2 (V6 m ρ) c).arrAt_in 4 rfl _).trans (A_eq2 (V6 m ρ) c 4)),
    (W7_arr m ρ c 5).trans (((dat2 (V6 m ρ) c).arrAt_in 5 rfl _).trans (A_eq2 (V6 m ρ) c 5))⟩
theorem keeps_7_8 : Keeps (W7 m ρ c) (W8 m ρ c) :=
  ⟨by host_keeps, by host_keeps, by host_keeps, by host_keeps, by host_keeps, by host_keeps, by host_keeps⟩
theorem keeps_8_9 : Keeps (W8 m ρ c) (W9 m ρ c) :=
  ⟨W9_of_ne m ρ c main_v3 (by decide), W9_of_ne m ρ c main_v6 (by decide), W9_of_ne m ρ c main_v28 (by decide),
    W9_of_ne m ρ c main_arg4 (by decide), W9_of_ne m ρ c main_arg5 (by decide), W9_of_ne m ρ c main_arg6 (by decide),
    W9_of_ne m ρ c main_arg7 (by decide)⟩
theorem keeps_9_10 : Keeps (W9 m ρ c) (W10 m ρ c) :=
  ⟨by host_keeps, by host_keeps, by host_keeps, by host_keeps, by host_keeps, by host_keeps, by host_keeps⟩
theorem keeps_10_11 : Keeps (W10 m ρ c) (W11 m ρ c) :=
  ⟨by host_keeps, by host_keeps, by host_keeps, by host_keeps, by host_keeps, by host_keeps, by host_keeps⟩
theorem keeps_11_12 : Keeps (W11 m ρ c) (W12 m ρ c) :=
  ⟨W12_of_ne m ρ c main_v3 (by decide), W12_of_ne m ρ c main_v6 (by decide), W12_of_ne m ρ c main_v28 (by decide),
    W12_of_ne m ρ c main_arg4 (by decide), W12_of_ne m ρ c main_arg5 (by decide),
    (W12_arr m ρ c 4).trans (((dat4 (V11 m ρ) c).arrAt_in 4 rfl _).trans (A_eq4 (V11 m ρ) c 4)),
    (W12_arr m ρ c 5).trans (((dat4 (V11 m ρ) c).arrAt_in 5 rfl _).trans (A_eq4 (V11 m ρ) c 5))⟩
theorem keeps_12_13 : Keeps (W12 m ρ c) (W13 m ρ c) :=
  ⟨by host_keeps, by host_keeps, by host_keeps, by host_keeps, by host_keeps, by host_keeps, by host_keeps⟩
theorem keeps_13_14 : Keeps (W13 m ρ c) (W14 m ρ c) :=
  ⟨W14_of_ne m ρ c main_v3 (by decide), W14_of_ne m ρ c main_v6 (by decide), W14_of_ne m ρ c main_v28 (by decide),
    W14_of_ne m ρ c main_arg4 (by decide), W14_of_ne m ρ c main_arg5 (by decide), W14_of_ne m ρ c main_arg6 (by decide),
    W14_of_ne m ρ c main_arg7 (by decide)⟩
theorem keeps_14_15 : Keeps (W14 m ρ c) (W15 m ρ c) :=
  ⟨by host_keeps, by host_keeps, by host_keeps, by host_keeps, by host_keeps, by host_keeps, by host_keeps⟩
theorem keeps_15_16 : Keeps (W15 m ρ c) (W16 m ρ c) :=
  ⟨by host_keeps, by host_keeps, by host_keeps, by host_keeps, by host_keeps, by host_keeps, by host_keeps⟩

/-! ## From the first region's entry -/

theorem keeps_1_3 : Keeps (W1 m ρ c) (W3 m ρ c) := (keeps_1_2 m ρ c).trans (keeps_2_3 m ρ c)
theorem keeps_1_4 : Keeps (W1 m ρ c) (W4 m ρ c) := (keeps_1_3 m ρ c).trans (keeps_3_4 m ρ c)
theorem keeps_1_5 : Keeps (W1 m ρ c) (W5 m ρ c) := (keeps_1_4 m ρ c).trans (keeps_4_5 m ρ c)
theorem keeps_1_6 : Keeps (W1 m ρ c) (W6 m ρ c) := (keeps_1_5 m ρ c).trans (keeps_5_6 m ρ c)
theorem keeps_1_7 : Keeps (W1 m ρ c) (W7 m ρ c) := (keeps_1_6 m ρ c).trans (keeps_6_7 m ρ c)
theorem keeps_1_8 : Keeps (W1 m ρ c) (W8 m ρ c) := (keeps_1_7 m ρ c).trans (keeps_7_8 m ρ c)
theorem keeps_1_9 : Keeps (W1 m ρ c) (W9 m ρ c) := (keeps_1_8 m ρ c).trans (keeps_8_9 m ρ c)
theorem keeps_1_10 : Keeps (W1 m ρ c) (W10 m ρ c) := (keeps_1_9 m ρ c).trans (keeps_9_10 m ρ c)
theorem keeps_1_11 : Keeps (W1 m ρ c) (W11 m ρ c) := (keeps_1_10 m ρ c).trans (keeps_10_11 m ρ c)
theorem keeps_1_12 : Keeps (W1 m ρ c) (W12 m ρ c) := (keeps_1_11 m ρ c).trans (keeps_11_12 m ρ c)
theorem keeps_1_13 : Keeps (W1 m ρ c) (W13 m ρ c) := (keeps_1_12 m ρ c).trans (keeps_12_13 m ρ c)
theorem keeps_1_14 : Keeps (W1 m ρ c) (W14 m ρ c) := (keeps_1_13 m ρ c).trans (keeps_13_14 m ρ c)
theorem keeps_1_15 : Keeps (W1 m ρ c) (W15 m ρ c) := (keeps_1_14 m ρ c).trans (keeps_14_15 m ρ c)
theorem keeps_1_16 : Keeps (W1 m ρ c) (W16 m ρ c) := (keeps_1_15 m ρ c).trans (keeps_15_16 m ρ c)

/-! ## The arguments at the first region's entry: the launch contents -/

theorem arg0_at1 : W1 m ρ c (Proc.devRef .tc main_arg0) = m ((c : Thread nD τ).loc main_arg0) :=
  (show StableHlo.after hostOps0 (W0 m ρ c) (Proc.devRef .tc main_arg0) = W0 m ρ c (Proc.devRef .tc main_arg0) by host_keeps).trans rfl
theorem arg1_at0 : W0 m ρ c (Proc.devRef .tc main_arg1) = m ((c : Thread nD τ).loc main_arg1) := rfl
theorem arg2_at1 : W1 m ρ c (Proc.devRef .tc main_arg2) = m ((c : Thread nD τ).loc main_arg2) :=
  (show StableHlo.after hostOps0 (W0 m ρ c) (Proc.devRef .tc main_arg2) = W0 m ρ c (Proc.devRef .tc main_arg2) by host_keeps).trans rfl
theorem arg3_at1 : W1 m ρ c (Proc.devRef .tc main_arg3) = m ((c : Thread nD τ).loc main_arg3) :=
  (show StableHlo.after hostOps0 (W0 m ρ c) (Proc.devRef .tc main_arg3) = W0 m ρ c (Proc.devRef .tc main_arg3) by host_keeps).trans rfl
theorem arg4_at1 : W1 m ρ c (Proc.devRef .tc main_arg4) = m ((c : Thread nD τ).loc main_arg4) :=
  (show StableHlo.after hostOps0 (W0 m ρ c) (Proc.devRef .tc main_arg4) = W0 m ρ c (Proc.devRef .tc main_arg4) by host_keeps).trans rfl
theorem arg5_at1 : W1 m ρ c (Proc.devRef .tc main_arg5) = m ((c : Thread nD τ).loc main_arg5) :=
  (show StableHlo.after hostOps0 (W0 m ρ c) (Proc.devRef .tc main_arg5) = W0 m ρ c (Proc.devRef .tc main_arg5) by host_keeps).trans rfl
theorem arg6_at1 : W1 m ρ c (Proc.devRef .tc main_arg6) = m ((c : Thread nD τ).loc main_arg6) :=
  (show StableHlo.after hostOps0 (W0 m ρ c) (Proc.devRef .tc main_arg6) = W0 m ρ c (Proc.devRef .tc main_arg6) by host_keeps).trans rfl
theorem arg7_at1 : W1 m ρ c (Proc.devRef .tc main_arg7) = m ((c : Thread nD τ).loc main_arg7) :=
  (show StableHlo.after hostOps0 (W0 m ρ c) (Proc.devRef .tc main_arg7) = W0 m ρ c (Proc.devRef .tc main_arg7) by host_keeps).trans rfl

end Cert.KernelIdeal.Chain

end
-- ==== Proof.ChainGraph.lean ====
/-
  The graph as the first region finds it: the edge lists and the edge weights are the specification's functions of the
  edge table the program was launched with.
-/
import proofs.«407553_j68453188763742_4_alg».proof.Proof.ChainHost
import proofs.«407553_j68453188763742_4_alg».proof.Proof.ChainKeep

noncomputable section

namespace Cert.KernelIdeal.Chain

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem src_at1 : W1 m ρ c (Proc.devRef .tc main_v3) = Cert.Gcn.srcIdx (m ((c : Thread nD τ).loc main_arg1)) :=
  pre_src (W0 m ρ c)
theorem dst_at1 : W1 m ρ c (Proc.devRef .tc main_v6) = Cert.Gcn.dstIdx (m ((c : Thread nD τ).loc main_arg1)) :=
  pre_dst (W0 m ρ c)
theorem nrm_at1 : W1 m ρ c (Proc.devRef .tc main_v28) = Cert.Gcn.edgeNorm (m ((c : Thread nD τ).loc main_arg1)) :=
  pre_norm (W0 m ρ c)

end Cert.KernelIdeal.Chain

end
-- ==== Proof.MatmulBias.lean ====
/-
  One entry of x·W + b.

  Every matrix product in this network is a data matrix (one row per node) times a small weight matrix, plus a bias
  vector laid along every row.  Entry (r, q) of the result is the sum over the contracted coordinate k of
  x(r, k)·W(k, q), plus b(q) (`affineAt`): it reads x through row r alone.  So a block of consecutive rows of the result
  is the same expression of the same rows of x — which is how a kernel that works through the rows 5000 at a time
  agrees with the product taken over all 50000 rows at once.  No finiteness is needed anywhere: the kernel's product
  starts from a zero accumulator, and 0 + s = s for every extended real s; after that the two sides are the same sum.

  Here: the entry (`affineAt`) and its dependence on one row; the kernels' stored blocks read at an entry (the first
  kernel's max (x·W + b, 0), the three linear kernels' h·W + b); the whole-array functions `Cert.Gcn.embed` and
  `Cert.Gcn.lin` read at an entry; and the two laws that join them, a block of rows against the whole array.
-/
import proofs.«407553_j68453188763742_4_alg».proof.Proof.Gen.KernelIdeal.Skeleton
import proofs.«407553_j68453188763742_4_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.RegionValue

open Idealize.ShloMosaic Idealize.ShloMosaic.ValueIdx

/-! ## The entry -/

/-- Entry (r, q) of x·W + b: the sum over the contracted coordinate k of x(r, k)·W(k, q), plus b(q). -/
def affineAt {M K N : Nat} (x : (⟨2, ![M, K]⟩ : Shape).Idx → EReal) (W : (⟨2, ![K, N]⟩ : Shape).Idx → EReal)
    (b : (⟨1, ![N]⟩ : Shape).Idx → EReal) (r : Fin M) (q : Fin N) : EReal :=
  (∑ k : Fin K, x (ix2 r k) * W (ix2 k q)) + b (ix1 q)

/-- Entry (r, q) uses x through its row r alone: a matrix whose row r' is that row gives the same entry at (r', q). -/
theorem affineAt_congr_row {M M' K N : Nat} (x : (⟨2, ![M, K]⟩ : Shape).Idx → EReal) (x' : (⟨2, ![M', K]⟩ : Shape).Idx → EReal)
    (W : (⟨2, ![K, N]⟩ : Shape).Idx → EReal) (b : (⟨1, ![N]⟩ : Shape).Idx → EReal) (r : Fin M) (r' : Fin M') (q : Fin N)
    (h : ∀ k : Fin K, x (ix2 r k) = x' (ix2 r' k)) : affineAt x W b r q = affineAt x' W b r' q := by
  unfold affineAt
  rw [Finset.sum_congr rfl fun k _ => by rw [h k]]

/-! ## The pieces, each read at an entry -/

/-- A product accumulated into the zero splat, at entry (p, q): the plain sum of products (0 + s = s on all the
    extended reals). -/
theorem matmul_zero_plain_apply {M K N : Nat} (l : FVec Ideal ⟨2, ![M, K]⟩ .f32) (r : FVec Ideal ⟨2, ![K, N]⟩ .f32)
    (p : Fin M) (q : Fin N) :
    matmul (DotDims.plain M K N) none l r (constant ⟨2, ![M, N]⟩ .f32 0x00000000#32) (ix2 p q)
      = ∑ k : Fin K, l (ix2 p k) * r (ix2 k q) := by
  rw [matmul_zero_eq_dotGeneral]
  exact StackMember.dotGeneral_plain_apply none l r p q

/-- A vector cast to one row and repeated down the rows reads, at (p, q), its entry q. -/
theorem rowOf_apply {M N : Nat} (b : (⟨1, ![N]⟩ : Shape).Idx → EReal) (hc : (⟨1, ![N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b hc) hb (ix2 p q) = b (ix1 q) := by
  rw [broadcastTo_1b_ab_apply, shapeCast_a_1a_apply]

/-- The same row of biases as the whole-array functions lay it: the vector placed along axis 1 of a one-row matrix,
    that row repeated down the rows. -/
theorem rowBcast_apply (b : FVec Ideal Cert.ReferenceIdeal.S64 .f32) (r : Fin 50000) (q : Fin 64) :
    Cert.Gcn.rowBcast (F := Ideal) b (ix2 r q) = b (ix1 q) := by
  unfold Cert.Gcn.rowBcast
  refine (broadcastInDim_oneRow_apply _ _ r q).trans ?_
  refine broadcastInDim_apply _ _ b (ix2 (0 : Fin 1) q) (ix1 q) fun a => ?_
  match a with
  | ⟨0, _⟩ => rfl

/-! ## The kernels' stored blocks -/

set_option maxHeartbeats 400000 in
/-- The first kernel's stored block, entry by entry: max (x·W + b, 0) of the loaded blocks. -/
theorem embed_pay_apply (x : FVec Ideal S5000x32 .f32) (W : FVec Ideal S32x64 .f32) (b : FVec Ideal S64 .f32)
    (p : Fin 5000) (q : Fin 64) :
    Gen.k0_pay1 (F := Ideal) x W b (ix2 p q) = max (affineAt x W b p q) (Ideal.ofBits .f32 0x00000000#32) := by
  unfold Gen.k0_pay1
  have e1 : matmul dot_S5000x32_S32x64_S5000x64_1_0_0_1_n_n none x W (constant S5000x64 .f32 0x00000000#32) (ix2 p q)
      = ∑ k : Fin 32, x (ix2 p k) * W (ix2 k q) := matmul_zero_plain_apply x W p q
  have e2 : broadcastTo S5000x64 (shapeCast S1x64 b Gen.shapeCasts_S64_S1x64) Gen.broadcasts_S1x64_S5000x64 (ix2 p q) = b (ix1 q) :=
    rowOf_apply b _ _ p q
  exact congrArg₂ (fun u v => max (u + v) (Ideal.ofBits .f32 0x00000000#32)) e1 e2

set_option maxHeartbeats 400000 in
/-- A linear kernel's stored block, entry by entry: h·W + b of the loaded blocks (its casts of a block to its own
    shape change nothing). -/
theorem lin_pay_apply (h : FVec Ideal S5000x64 .f32) (W : FVec Ideal S64x64 .f32) (b : FVec Ideal S64 .f32)
    (p : Fin 5000) (q : Fin 64) :
    Gen.k1_pay1 (F := Ideal) h W b (ix2 p q) = affineAt h W b p q := by
  unfold Gen.k1_pay1
  have e1 : matmul dot_S5000x64_S64x64_S5000x64_1_0_0_1_n_n none (shapeCast S5000x64 h Gen.shapeCasts_S5000x64_S5000x64)
        (shapeCast S64x64 W Gen.shapeCasts_S64x64_S64x64) (constant S5000x64 .f32 0x00000000#32) (ix2 p q)
      = ∑ k : Fin 64, h (ix2 p k) * W (ix2 k q) := by
    rw [shapeCast_self, shapeCast_self]
    exact matmul_zero_plain_apply h W p q
  have e2 : broadcastTo S5000x64 (shapeCast S1x64 (shapeCast S64 b Gen.shapeCasts_S64_S64) Gen.shapeCasts_S64_S1x64)
        Gen.broadcasts_S1x64_S5000x64 (ix2 p q) = b (ix1 q) := by
    rw [shapeCast_self]
    exact rowOf_apply b _ _ p q
  exact congrArg₂ (fun u v => u + v) e1 e2

/-- The three linear kernels store the same function of their loaded blocks (the same operations in the same order). -/
theorem lin_pay3_eq : @Gen.k3_pay1 Ideal _ = @Gen.k1_pay1 Ideal _ := rfl
theorem lin_pay5_eq : @Gen.k5_pay1 Ideal _ = @Gen.k1_pay1 Ideal _ := rfl

/-! ## The whole-array functions -/

set_option maxHeartbeats 400000 in
/-- `Cert.Gcn.embed` at entry (r, q): max (x·W + b, 0) there. -/
theorem embed_apply (X : FVec Ideal Cert.ReferenceIdeal.S50000x32 .f32) (W : FVec Ideal Cert.ReferenceIdeal.S32x64 .f32)
    (b : FVec Ideal Cert.ReferenceIdeal.S64 .f32) (r : Fin 50000) (q : Fin 64) :
    Cert.Gcn.embed (F := Ideal) X W b (ix2 r q) = max (affineAt X W b r q) (Ideal.ofBits .f32 0x00000000#32) := by
  unfold Cert.Gcn.embed Cert.Gcn.relu
  have e1 : Host.dotGeneral Cert.ReferenceIdeal.dot_S50000x32_S32x64_S50000x64_1_0_0_1_n_n none X W (ix2 r q)
      = ∑ k : Fin 32, X (ix2 r k) * W (ix2 k q) := StackMember.dotGeneral_plain_apply none X W r q
  have e2 := rowBcast_apply b r q
  have e3 : broadcastInDim Cert.ReferenceIdeal.S50000x64 ![] Cert.ReferenceIdeal.Gen.bcast_S_S50000x64
        (constant (F := Ideal) Cert.ReferenceIdeal.S_ .f32 0x00000000#32) (ix2 r q) = Ideal.ofBits .f32 0x00000000#32 :=
    broadcastInDim_apply _ _ _ (ix2 r q) ix0 fun a => a.elim0
  exact congrArg₂ max (congrArg₂ (fun u v => u + v) e1 e2) e3

set_option maxHeartbeats 400000 in
/-- `Cert.Gcn.lin` at entry (r, q): h·W + b there. -/
theorem lin_apply (H : FVec Ideal Cert.ReferenceIdeal.S50000x64 .f32) (W : FVec Ideal Cert.ReferenceIdeal.S64x64 .f32)
    (b : FVec Ideal Cert.ReferenceIdeal.S64 .f32) (r : Fin 50000) (q : Fin 64) :
    Cert.Gcn.lin (F := Ideal) H W b (ix2 r q) = affineAt H W b r q := by
  unfold Cert.Gcn.lin
  have e1 : Host.dotGeneral Cert.ReferenceIdeal.dot_S50000x64_S64x64_S50000x64_1_0_0_1_n_n none H W (ix2 r q)
      = ∑ k : Fin 64, H (ix2 r k) * W (ix2 k q) := StackMember.dotGeneral_plain_apply none H W r q
  exact congrArg₂ (fun u v => u + v) e1 (rowBcast_apply b r q)

/-! ## A block of rows against the whole array -/

/-- Rows s … s + 4999 of max (x·W + b, 0): the first kernel's block computed from those rows of x is that block of
    the whole array's function. -/
theorem embed_rows (X : FVec Ideal S50000x32 .f32) (W : FVec Ideal S32x64 .f32) (b : FVec Ideal S64 .f32)
    (x0 : FVec Ideal S5000x32 .f32) (s : Nat) (hs : s + 5000 ≤ 50000)
    (hx : ∀ (p : Fin 5000) (k : Fin 32), x0 (ix2 p k) = X (ix2 (⟨s + p.val, by omega⟩ : Fin 50000) k))
    (p : Fin 5000) (q : Fin 64) :
    Gen.k0_pay1 (F := Ideal) x0 W b (ix2 p q) = Cert.Gcn.embed (F := Ideal) X W b (ix2 (⟨s + p.val, by omega⟩ : Fin 50000) q) := by
  rw [embed_pay_apply, embed_apply, affineAt_congr_row x0 X W b p ⟨s + p.val, by omega⟩ q (hx p)]

/-- Rows s … s + 4999 of h·W + b likewise: the first linear kernel's block computed from those rows of h is that
    block of the whole array's function. -/
theorem lin_rows1 (H : FVec Ideal S50000x64 .f32) (W : FVec Ideal S64x64 .f32) (b : FVec Ideal S64 .f32)
    (h0 : FVec Ideal S5000x64 .f32) (s : Nat) (hs : s + 5000 ≤ 50000)
    (hx : ∀ (p : Fin 5000) (k : Fin 64), h0 (ix2 p k) = H (ix2 (⟨s + p.val, by omega⟩ : Fin 50000) k))
    (p : Fin 5000) (q : Fin 64) :
    Gen.k1_pay1 (F := Ideal) h0 W b (ix2 p q) = Cert.Gcn.lin (F := Ideal) H W b (ix2 (⟨s + p.val, by omega⟩ : Fin 50000) q) := by
  rw [lin_pay_apply, lin_apply, affineAt_congr_row h0 H W b p ⟨s + p.val, by omega⟩ q (hx p)]

/-- The second linear kernel's block computed from rows s … s + 4999 of h is rows s … s + 4999 of h·W + b (it stores
    the same function of its loaded blocks as the first). -/
theorem lin_rows3 (H : FVec Ideal S50000x64 .f32) (W : FVec Ideal S64x64 .f32) (b : FVec Ideal S64 .f32)
    (h0 : FVec Ideal S5000x64 .f32) (s : Nat) (hs : s + 5000 ≤ 50000)
    (hx : ∀ (p : Fin 5000) (k : Fin 64), h0 (ix2 p k) = H (ix2 (⟨s + p.val, by omega⟩ : Fin 50000) k))
    (p : Fin 5000) (q : Fin 64) :
    Gen.k3_pay1 (F := Ideal) h0 W b (ix2 p q) = Cert.Gcn.lin (F := Ideal) H W b (ix2 (⟨s + p.val, by omega⟩ : Fin 50000) q) := by
  rw [lin_pay3_eq]
  exact lin_rows1 H W b h0 s hs hx p q

/-- The third linear kernel's block computed from rows s … s + 4999 of h is rows s … s + 4999 of h·W + b (it stores
    the same function of its loaded blocks as the first). -/
theorem lin_rows5 (H : FVec Ideal S50000x64 .f32) (W : FVec Ideal S64x64 .f32) (b : FVec Ideal S64 .f32)
    (h0 : FVec Ideal S5000x64 .f32) (s : Nat) (hs : s + 5000 ≤ 50000)
    (hx : ∀ (p : Fin 5000) (k : Fin 64), h0 (ix2 p k) = H (ix2 (⟨s + p.val, by omega⟩ : Fin 50000) k))
    (p : Fin 5000) (q : Fin 64) :
    Gen.k5_pay1 (F := Ideal) h0 W b (ix2 p q) = Cert.Gcn.lin (F := Ideal) H W b (ix2 (⟨s + p.val, by omega⟩ : Fin 50000) q) := by
  rw [lin_pay5_eq]
  exact lin_rows1 H W b h0 s hs hx p q

end Cert.KernelIdeal.RegionValue

end
-- ==== Proof.RegionLin1.lean ====
/-
  A linear kernel's output array: h·W + b over all 50000 nodes.

  The call works through the rows 5000 at a time, at ten grid points.  At point t it is handed rows
  5000·t … 5000·t + 4999 of the features h, all of W and all of b, and it writes rows 5000·t … 5000·t + 4999 of the
  output.  An entry of h·W + b reads h through one row alone, so what point t writes is exactly that block of rows of
  the whole-array function; and every row r lies in the block of point r / 5000, so the ten blocks fill the array.
-/
import proofs.«407553_j68453188763742_4_alg».proof.Proof.Gen.KernelIdeal.Frame
import proofs.«407553_j68453188763742_4_alg».proof.Proof.MatmulBias
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A whole block is loaded and stored at offset zero on every axis. -/
theorem lin1_zero2 : (![0, 0] : Fin 2 → Nat) = fun _ => 0 := funext fun a => by fin_cases a <;> rfl
theorem lin1_zero1 : (![0] : Fin 1 → Nat) = fun _ => 0 := funext fun a => by fin_cases a <;> rfl

/-- Where the blocks sit, decided over the ten points: at point t the block of h and the block of the output are
    block t along the rows; W and b are taken whole at every point. -/
theorem lin1_blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

set_option maxHeartbeats 400000 in
/-- The block of W at any point is W, and the block of b is b. -/
theorem lin1_wblock (c : Dev nD) (t : Fin cfg1.N) : (iblk1 V c 1 t : FVec Ideal S64x64 .f32) = V c main_v31 := by
  obtain ⟨-, -, e2, e3, -, -, -⟩ := lin1_blockIdx t
  funext y
  show V c main_v31 (((cfg1.win 1).blk t).view.emb y) = V c main_v31 y
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

set_option maxHeartbeats 400000 in
theorem lin1_bblock (c : Dev nD) (t : Fin cfg1.N) : (iblk1 V c 2 t : FVec Ideal S64 .f32) = V c main_v33 := by
  obtain ⟨-, -, -, -, e4, -, -⟩ := lin1_blockIdx t
  funext y
  show V c main_v33 (((cfg1.win 2).blk t).view.emb y) = V c main_v33 y
  refine congrArg _ (funext fun a => Fin.ext ?_)
  match a with
  | ⟨0, _⟩ => show win1_2.index t (0 : Fin 1) * 64 + 1 * (y 0).val = (y 0).val; omega

set_option maxHeartbeats 400000 in
/-- Row p of the block of h at point t is row 5000·t + p of h. -/
theorem lin1_hblock (c : Dev nD) (t : Fin cfg1.N) (ht : t.val * 5000 + 5000 ≤ 50000) (p : Fin 5000) (k : Fin 64) :
    (iblk1 V c 0 t : FVec Ideal S5000x64 .f32) (ix2 p k)
      = (V c main_v29 : FVec Ideal S50000x64 .f32) (ix2 (⟨t.val * 5000 + p.val, by omega⟩ : Fin 50000) k) := by
  obtain ⟨e0, e1, -, -, -, -, -⟩ := lin1_blockIdx t
  show V c main_v29 (((cfg1.win 0).blk t).view.emb (ix2 p k)) = V c main_v29 _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

set_option maxHeartbeats 400000 in
/-- WHAT POINT t WRITES BACK is block t of h·W + b of the arrays as the call finds them. -/
theorem lin1_flushed (c : Dev nD) (t : Fin cfg1.N) :
    (dat1 V c).flushed 3 t = ((cfg1.win 3).blk t).view.read (Elt Ideal)
      (Cert.Gcn.lin (F := Ideal) (V c main_v29) (V c main_v31) (V c main_v33)) := by
  have ht : t.val * 5000 + 5000 ≤ 50000 := by
    have h := lt_of_lt_of_eq t.isLt N_1
    omega
  show (cfg1.win 3).cut (grid1.coords t) ((dat1 V c).after 3 t) = _
  rw [after1_3]
  unfold out1_3
  rw [View.canon_unit_zero lin1_zero2]
  simp only [View.ld_unit_zero (S := S5000x64) lin1_zero2, View.ld_unit_zero (S := S64x64) lin1_zero2,
    View.ld_unit_zero (S := S64) lin1_zero1]
  obtain ⟨-, -, -, -, -, e5, e6⟩ := lin1_blockIdx t
  refine funext fun (j : S5000x64.Idx) => ?_
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
      = Cert.Gcn.lin (F := Ideal) (V c main_v29) (V c main_v31) (V c main_v33) (((cfg1.win 3).blk t).view.emb (ix2 p q))
  rw [lin1_wblock V c t, lin1_bblock V c t]
  refine (lin_rows1 (V c main_v29) (V c main_v31) (V c main_v33) (iblk1 V c 0 t) (t.val * 5000) ht
    (lin1_hblock V c t ht) p q).trans ?_
  refine congrArg _ (funext fun a => Fin.ext ?_)
  match a with
  | ⟨0, _⟩ => show t.val * 5000 + p.val = win1_3.index t (0 : Fin 2) * 5000 + 1 * p.val; omega
  | ⟨1, _⟩ => show q.val = win1_3.index t (1 : Fin 2) * 64 + 1 * q.val; omega

/-- An index of the output array is in point t's block iff each coordinate is in the block's range on its axis. -/
theorem lin1_mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v34).slice (win1_3.rect t)).set ↔ _
  rw [View.set_slice_whole, Rect.mem_set_unit]
  exact Iff.rfl

/-- Every row r is in the block of point r / 5000: the ten blocks fill the output array. -/
theorem lin1_cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨-, -, -, -, -, e5, e6⟩ := lin1_blockIdx t
  have e5' : win1_3.index t (0 : Fin 2) = (i 0).val / 5000 := e5
  refine ⟨t, flush1_3 t, ?_⟩
  rw [lin1_mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT ARRAY after the call: h·W + b of the arrays as the call finds them. -/
theorem lin1_arr (c : Dev nD) :
    (dat1 (F := Ideal) V c).arrAt 3 cfg1.N
      = Cert.Gcn.lin (F := Ideal) (V c main_v29) (V c main_v31) (V c main_v33) :=
  (dat1 V c).arrAt_eq_of_cover 3 _ (fun t _ => lin1_flushed V c t) lin1_cover

end Cert.KernelIdeal.RegionValue

end
-- ==== Proof.BnEntry.lean ====
/-
  Batch normalisation with given column statistics, then max (·, 0), then the residual, read ENTRY BY ENTRY.
  The whole-array function spreads each of its four 64-vectors (mean, variance, γ, β) over the 50000 rows through a
  one-row layout, so at row r and column q each of them contributes its entry q alone, and the result there is
      max ((a r q − mean q) · (variance q + ε)^(−1/2) · γ q + β q, 0) + h r q.
  The constant ε stays the word it is written as; it is never evaluated.
-/
import proofs.«407553_j68453188763742_4_alg».proof.Proof.Spec
import Idealize.ShloMosaic.Lib.Pipeline.Value
import Idealize.ShloMosaic.Lib.ValueIdx

noncomputable section

namespace Cert.KernelIdeal.RegionValue

open Idealize.ShloMosaic Idealize.ShloMosaic.ValueIdx

/-- A 64-vector repeated down the 50000 rows (through its one-row layout) reads, at row r and column q, entry q. -/
theorem rowBcast_entry (b : Vec Ideal Cert.ReferenceIdeal.S64 .f32) (r : Fin 50000) (q : Fin 64) :
    Cert.Gcn.rowBcast (F := Ideal) b (ix2 r q) = b (ix1 q) := by
  unfold Cert.Gcn.rowBcast
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The normalised, clamped and shifted array, entry by entry: at row r and column q it is
    max ((a r q − mean q) · (var q + ε)^(−1/2) · γ q + β q, 0) + h r q, the statistics and the affine pair read at the
    column alone. -/
theorem bnRelu_apply (a h : Vec Ideal Cert.ReferenceIdeal.S50000x64 .f32) (mu vr gamma beta : Vec Ideal Cert.ReferenceIdeal.S64 .f32)
    (r : Fin 50000) (q : Fin 64) :
    Cert.Gcn.bnRelu (F := Ideal) a h mu vr gamma beta (ix2 r q)
      = max ((a (ix2 r q) - mu (ix1 q)) * Ideal.rsqrt (vr (ix1 q) + Ideal.ofBits .f32 0x3727C5AC#32) * gamma (ix1 q) + beta (ix1 q))
          (Ideal.ofBits .f32 0x00000000#32) + h (ix2 r q) := by
  unfold Cert.Gcn.bnRelu Cert.Gcn.relu
  rw [addf_apply, maximumf_apply, addf_apply, mulf_apply, mulf_apply, subf_apply,
    rowBcast_entry, rowBcast_entry, rowBcast_entry, rowBcast_entry]
  rfl

end Cert.KernelIdeal.RegionValue

end
-- ==== Proof.BnBlock.lean ====
/-
  One 64-vector spread over a block of 5000 rows, as the kernel spreads it: the vector is laid out as a single row
  (shape 1×64) and that row is repeated down the 5000 rows.  Read at row p and column q, the result is the vector's
  entry q: the row does not matter.  The reciprocal square root of (variance + ε) is taken on the single row, before the
  repetition, so at (p, q) it is (variance q + ε)^(−1/2).
-/
import proofs.«407553_j68453188763742_4_alg».proof.KernelIdeal
import Idealize.ShloMosaic.Lib.Pipeline.Value
import Idealize.ShloMosaic.Lib.ValueIdx
import Idealize.ShloMosaic.Lib.ValueLayout

noncomputable section

namespace Cert.KernelIdeal.RegionValue

open Cert.KernelIdeal Idealize.ShloMosaic Idealize.ShloMosaic.ValueIdx

/-- A block read from its first entry: the offsets (0, 0) of a whole-block access are the zero offsets. -/
theorem zeroOffsets2 : (![0, 0] : Fin 2 → Nat) = fun _ => 0 := funext fun a => by fin_cases a <;> rfl

/-- A whole 64-vector's access starts at offset 0. -/
theorem zeroOffsets1 : (![0] : Fin 1 → Nat) = fun _ => 0 := funext fun a => by fin_cases a <;> rfl

/-- A 64-vector laid out as one row and repeated down 5000 rows reads, at row p and column q, entry q. -/
theorem rowRepeat_apply (v : FVec Ideal S64 .f32) (h1 : S64.ShapeCasts S1x64) (h2 : S1x64.Broadcasts S5000x64)
    (p : Fin 5000) (q : Fin 64) :
    broadcastTo S5000x64 (shapeCast S1x64 v h1) h2 (ix2 p q) = v (ix1 q) :=
  (broadcastTo_1b_ab_apply (shapeCast S1x64 v h1) h2 p q).trans (shapeCast_a_1a_apply v h1 0 q)

/-- The reciprocal square root taken on the one-row layout of v + e and then repeated down the rows reads, at
    row p and column q, (v q + e)^(−1/2). -/
theorem rsqrtRow_apply (v : FVec Ideal S64 .f32) (e : Ideal .f32) (h1 : S64.ShapeCasts S1x64) (h2 : S1x64.Broadcasts S5000x64)
    (p : Fin 5000) (q : Fin 64) :
    broadcastTo S5000x64 (rsqrt (addf (shapeCast S1x64 v h1) (broadcast S1x64 e))) h2 (ix2 p q) = Ideal.rsqrt (v (ix1 q) + e) :=
  (broadcastTo_1b_ab_apply (rsqrt (addf (shapeCast S1x64 v h1) (broadcast S1x64 e))) h2 p q).trans
    (congrArg (fun z => Ideal.rsqrt (z + e)) (shapeCast_a_1a_apply v h1 0 q))

end Cert.KernelIdeal.RegionValue

end
-- ==== Proof.RegionBn2.lean ====
/-
  The value of the first batch-normalisation region (pipeline 2): what the array main_v52 holds when the region ends,
  as ONE function of the arrays the region finds in main_v47 (the aggregate a), main_v29 (the residual h), main_v50 (the
  column means), main_v51 (the column variances), main_arg6 (γ) and main_arg7 (β).

  The region walks a grid of ten points along the 50000 rows.  At point t the body loads rows 5000·t … 5000·t + 4999 of
  a and of h and the four whole 64-vectors, and stores, for row p of the block and column q,
      max ((a − mean q) · (variance q + ε)^(−1/2) · γ q + β q, 0) + h
  at the entries (5000·t + p, q) of a and h.  The whole-array function has exactly this value at row 5000·t + p and
  column q, because it reads each 64-vector at the column alone; so point t writes back block t of that function.  The ten
  blocks tile the rows (row r lies in block r / 5000), hence the array ends holding the function itself.
-/
import proofs.«407553_j68453188763742_4_alg».proof.Proof.Gen.KernelIdeal.Frame
import proofs.«407553_j68453188763742_4_alg».proof.Proof.BnEntry
import proofs.«407553_j68453188763742_4_alg».proof.Proof.BnBlock
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What the body stores for one point, entry by entry: from the loaded blocks x0 (the aggregate), x1 (the residual) and
    the four loaded 64-vectors, at row p and column q it is
    max ((x0 p q − x2 q) · (x3 q + ε)^(−1/2) · x4 q + x5 q, 0) + x1 p q. -/
theorem pay2_apply (x0 x1 : Vec Ideal S5000x64 .f32) (x2 x3 x4 x5 : Vec Ideal S64 .f32) (p : Fin 5000) (q : Fin 64) :
    k2_pay1 (F := Ideal) x0 x2 x3 x4 x5 x1 (ix2 p q)
      = max ((x0 (ix2 p q) - x2 (ix1 q)) * Ideal.rsqrt (x3 (ix1 q) + Ideal.ofBits .f32 0x3727C5AC#32) * x4 (ix1 q) + x5 (ix1 q))
          (Ideal.ofBits .f32 0x00000000#32) + x1 (ix2 p q) := by
  unfold k2_pay1
  rw [addf_apply, maximumf_apply, addf_apply, mulf_apply, mulf_apply, subf_apply, broadcast_apply]
  simp only [shapeCast_self]
  rw [rowRepeat_apply, rowRepeat_apply, rowRepeat_apply, rsqrtRow_apply]
  rfl

/-- One point's stored block is the matching block of rows of the whole-array function: if the two loaded 5000×64 blocks
    are the arrays A and H read along an embedding e of the block into the 50000 rows that keeps the column, and the
    four loaded vectors are the whole 64-vectors, then entry j of the stored block is entry e j of the array function. -/
theorem block2_eq (A H : Vec Ideal S50000x64 .f32) (MU VR GA BE : Vec Ideal S64 .f32)
    (x0 x1 : Vec Ideal S5000x64 .f32) (x2 x3 x4 x5 : Vec Ideal S64 .f32)
    (e : S5000x64.Idx → S50000x64.Idx) (hcol : ∀ j, (e j 1).val = (j 1).val)
    (h0 : ∀ j, x0 j = A (e j)) (h1 : ∀ j, x1 j = H (e j))
    (h2 : x2 = MU) (h3 : x3 = VR) (h4 : x4 = GA) (h5 : x5 = BE) (j : S5000x64.Idx) :
    k2_pay1 (F := Ideal) x0 x2 x3 x4 x5 x1 j = Cert.Gcn.bnRelu (F := Ideal) A H MU VR GA BE (e j) := by
  subst h2 h3 h4 h5
  obtain ⟨p, q, rfl⟩ : ∃ (p : Fin 5000) (q : Fin 64), j = ix2 p q := ⟨j 0, j 1, eq_ix2 j⟩
  obtain ⟨r, q', hr⟩ : ∃ (r : Fin 50000) (q' : Fin 64), e (ix2 p q) = ix2 r q' := ⟨e (ix2 p q) 0, e (ix2 p q) 1, eq_ix2 _⟩
  have hq : q' = q := Fin.ext (by have h := hcol (ix2 p q); rw [hr] at h; exact h)
  subst hq
  rw [pay2_apply, h0, h1, hr, bnRelu_apply]

/-- The index maps, decided over the ten grid points: the aggregate's and the residual's blocks move with the output's,
    the four vectors stay at block 0, and the output's block index is the point itself along the rows, 0 along the columns. -/
theorem index_facts2 : ∀ t : Fin cfg2.N, win2_0.index t (0 : Fin 2) = win2_6.index t (0 : Fin 2)
    ∧ win2_0.index t (1 : Fin 2) = win2_6.index t (1 : Fin 2)
    ∧ win2_1.index t (0 : Fin 2) = win2_6.index t (0 : Fin 2)
    ∧ win2_1.index t (1 : Fin 2) = win2_6.index t (1 : Fin 2)
    ∧ win2_2.index t (0 : Fin 1) = 0
    ∧ win2_3.index t (0 : Fin 1) = 0
    ∧ win2_4.index t (0 : Fin 1) = 0
    ∧ win2_5.index t (0 : Fin 1) = 0
    ∧ win2_6.index t (0 : Fin 2) = t.val
    ∧ win2_6.index t (1 : Fin 2) = 0 :=
  (by decide +kernel : ∀ t : Fin grid2.N, _)

/-- WHAT POINT t WRITES BACK is block t — rows 5000·t … 5000·t + 4999 — of the whole-array function of the arrays as the
    region finds them. -/
theorem flushed2_eq (c : Dev nD) (t : Fin cfg2.N) :
    (dat2 (F := Ideal) V c).flushed 6 t
      = ((cfg2.win 6).blk t).view.read (Elt Ideal)
          (Cert.Gcn.bnRelu (F := Ideal) (V c main_v47) (V c main_v29) (V c main_v50) (V c main_v51) (V c main_arg6) (V c main_arg7)) := by
  show (cfg2.win 6).cut (grid2.coords t) ((dat2 V c).after 6 t) = _
  rw [after2_6]
  unfold out2_6
  rw [View.canon_unit_zero zeroOffsets2]
  simp only [View.ld_unit_zero (S := S5000x64) zeroOffsets2, View.ld_unit_zero (S := S64) zeroOffsets1]
  obtain ⟨e0, e1, e2, e3, e4, e5, e6, e7, e8, e9⟩ := index_facts2 t
  funext j
  refine block2_eq (V c main_v47) (V c main_v29) (V c main_v50) (V c main_v51) (V c main_arg6) (V c main_arg7)
    (iblk2 V c 0 t) (iblk2 V c 1 t) (iblk2 V c 2 t) (iblk2 V c 3 t) (iblk2 V c 4 t) (iblk2 V c 5 t)
    (((cfg2.win 6).blk t).view.emb) (fun y => ?_) (fun y => ?_) (fun y => ?_) ?_ ?_ ?_ ?_ j
  · show win2_6.index t (1 : Fin 2) * 64 + 1 * (y 1).val = (y 1).val
    rw [e9]; omega
  · show V c main_v47 (((cfg2.win 0).blk t).view.emb y) = V c main_v47 (((cfg2.win 6).blk t).view.emb y)
    refine congrArg (V c main_v47) (funext fun a => Fin.ext ?_)
    match a with
    | ⟨0, _⟩ => show win2_0.index t (0 : Fin 2) * 5000 + 1 * (y 0).val = win2_6.index t (0 : Fin 2) * 5000 + 1 * (y 0).val; rw [e0]
    | ⟨1, _⟩ => show win2_0.index t (1 : Fin 2) * 64 + 1 * (y 1).val = win2_6.index t (1 : Fin 2) * 64 + 1 * (y 1).val; rw [e1]
  · show V c main_v29 (((cfg2.win 1).blk t).view.emb y) = V c main_v29 (((cfg2.win 6).blk t).view.emb y)
    refine congrArg (V c main_v29) (funext fun a => Fin.ext ?_)
    match a with
    | ⟨0, _⟩ => show win2_1.index t (0 : Fin 2) * 5000 + 1 * (y 0).val = win2_6.index t (0 : Fin 2) * 5000 + 1 * (y 0).val; rw [e2]
    | ⟨1, _⟩ => show win2_1.index t (1 : Fin 2) * 64 + 1 * (y 1).val = win2_6.index t (1 : Fin 2) * 64 + 1 * (y 1).val; rw [e3]
  · funext y
    show V c main_v50 (((cfg2.win 2).blk t).view.emb y) = V c main_v50 y
    refine congrArg (V c main_v50) (funext fun a => Fin.ext ?_)
    match a with
    | ⟨0, _⟩ => show win2_2.index t (0 : Fin 1) * 64 + 1 * (y 0).val = (y 0).val; rw [e4]; omega
  · funext y
    show V c main_v51 (((cfg2.win 3).blk t).view.emb y) = V c main_v51 y
    refine congrArg (V c main_v51) (funext fun a => Fin.ext ?_)
    match a with
    | ⟨0, _⟩ => show win2_3.index t (0 : Fin 1) * 64 + 1 * (y 0).val = (y 0).val; rw [e5]; omega
  · funext y
    show V c main_arg6 (((cfg2.win 4).blk t).view.emb y) = V c main_arg6 y
    refine congrArg (V c main_arg6) (funext fun a => Fin.ext ?_)
    match a with
    | ⟨0, _⟩ => show win2_4.index t (0 : Fin 1) * 64 + 1 * (y 0).val = (y 0).val; rw [e6]; omega
  · funext y
    show V c main_arg7 (((cfg2.win 5).blk t).view.emb y) = V c main_arg7 y
    refine congrArg (V c main_arg7) (funext fun a => Fin.ext ?_)
    match a with
    | ⟨0, _⟩ => show win2_5.index t (0 : Fin 1) * 64 + 1 * (y 0).val = (y 0).val; rw [e7]; omega

/-- An index of the array is in point t's block iff each coordinate is in the block's range on its axis. -/
theorem mem_block2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v52).slice (win2_6.rect t)).set ↔ _
  rw [View.set_slice_whole, Rect.mem_set_unit]
  exact Iff.rfl

/-- Every entry of the array lies in some point's block: row r is in the block of the point r / 5000. -/
theorem covered2 (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨-, -, -, -, -, -, -, -, e8, e9⟩ := index_facts2 t
  refine ⟨t, flush2_6 t, ?_⟩
  rw [mem_block2]
  intro a
  match a with
  | ⟨0, _⟩ => show win2_6.index t (0 : Fin 2) * 5000 ≤ (i 0).val ∧ (i 0).val < win2_6.index t (0 : Fin 2) * 5000 + 5000; rw [e8, ht]; omega
  | ⟨1, _⟩ => show win2_6.index t (1 : Fin 2) * 64 ≤ (i 1).val ∧ (i 1).val < win2_6.index t (1 : Fin 2) * 64 + 64; rw [e9]; omega

/-- THE ARRAY after the region: the output's ten blocks tile the 50000 rows, and each is its block of the whole-array
    function, so the array ends holding that function of the arrays the region found. -/
theorem bn2_arr (c : Dev nD) :
    (dat2 (F := Ideal) V c).arrAt 6 cfg2.N
      = Cert.Gcn.bnRelu (F := Ideal) (V c main_v47) (V c main_v29) (V c main_v50) (V c main_v51) (V c main_arg6) (V c main_arg7) :=
  (dat2 (F := Ideal) V c).arrAt_eq_of_cover 6 _ (fun t _ => flushed2_eq V c t) covered2

end Cert.KernelIdeal.RegionValue

end
-- ==== Proof.ChainLayer0.lean ====
/-
  One layer of the network, read off the run.  The layer starts from the boundary where its input features h sit in
  their buffer and ends five boundaries later: the weight matrix and the bias are sliced out of the stacked arguments;
  the linear region leaves t = h·W + b; the host aggregates t over the edges and takes the aggregate's column mean and
  column variance; the normalisation region leaves max ((a − mean)·rsqrt (var + ε)·γ + β, 0) + h.  Every step reads its
  operands at the boundary before it, where the earlier steps' lemmas say what they hold.
-/
import proofs.«407553_j68453188763742_4_alg».proof.Proof.ChainGraph
import proofs.«407553_j68453188763742_4_alg».proof.Proof.RegionLin1
import proofs.«407553_j68453188763742_4_alg».proof.Proof.RegionBn2

set_option maxRecDepth 16384

noncomputable section

namespace Cert.KernelIdeal.Chain

open Idealize.ShloMosaic Idealize.ShloMosaic.TcCoe Idealize.SL.Sem
open Cert.KernelIdeal Cert.KernelIdeal.Gen Cert.KernelIdeal.RegionValue

variable (m : (ℓ : Loc nD τ sig) → Buf (Elt Ideal) ℓ) (ρ : Dev nD → PrngReg) (c : Dev nD)

/-- If the features `h` sit in their buffer at the layer's first boundary, the layer's output buffer holds
    `layer h` (with this layer's slice of the stacked weights and biases) at its last. -/
theorem layer0_out (h : Vec Ideal S50000x64 .f32) (hh : W2 m ρ c (Proc.devRef .tc main_v29) = h) :
    W7 m ρ c (Proc.devRef .tc main_v52)
      = Cert.Gcn.layer h (m ((c : Thread nD τ).loc main_arg1))
          (Cert.Gcn.weight0 (m ((c : Thread nD τ).loc main_arg4))) (Cert.Gcn.bias0 (m ((c : Thread nD τ).loc main_arg5)))
          (m ((c : Thread nD τ).loc main_arg6)) (m ((c : Thread nD τ).loc main_arg7)) := by
  have kA := keeps_1_2 m ρ c
  have kB := keeps_1_4 m ρ c
  have kC := keeps_1_6 m ρ c
  -- the layer's weight matrix and bias, and h carried over the slicing
  have hw : W3 m ρ c (Proc.devRef .tc main_v31) = Cert.Gcn.weight0 (m ((c : Thread nD τ).loc main_arg4)) :=
    (weight_l0 (W2 m ρ c)).trans (by rw [kA.wts, arg4_at1])
  have hb : W3 m ρ c (Proc.devRef .tc main_v33) = Cert.Gcn.bias0 (m ((c : Thread nD τ).loc main_arg5)) :=
    (bias_l0 (W2 m ρ c)).trans (by rw [kA.bss, arg5_at1])
  have hh3 : W3 m ρ c (Proc.devRef .tc main_v29) = h :=
    (show StableHlo.after hostOps1 (W2 m ρ c) (Proc.devRef .tc main_v29) = W2 m ρ c (Proc.devRef .tc main_v29) by host_keeps).trans hh
  -- the linear region
  have ht : W4 m ρ c (Proc.devRef .tc main_v34)
      = Cert.Gcn.lin h (Cert.Gcn.weight0 (m ((c : Thread nD τ).loc main_arg4))) (Cert.Gcn.bias0 (m ((c : Thread nD τ).loc main_arg5))) := by
    rw [← hh3, ← hw, ← hb]
    exact (W4_arr m ρ c 3).trans (lin1_arr (V3 m ρ) c)
  have hh4 : W4 m ρ c (Proc.devRef .tc main_v29) = h :=
    ((W4_arr m ρ c 0).trans (((dat1 (V3 m ρ) c).arrAt_in 0 rfl _).trans (A_eq1 (V3 m ρ) c 0))).trans hh3
  -- the aggregate, its column mean, the zero
  have ha : W5 m ρ c (Proc.devRef .tc main_v47)
      = Cert.Gcn.aggregate (Cert.Gcn.lin h (Cert.Gcn.weight0 (m ((c : Thread nD τ).loc main_arg4))) (Cert.Gcn.bias0 (m ((c : Thread nD τ).loc main_arg5))))
          (m ((c : Thread nD τ).loc main_arg1)) := by
    rw [aggregate_eq]
    refine (agg_l0 (W4 m ρ c)).trans ?_
    rw [ht, kB.src, kB.dst, kB.nrm, src_at1, dst_at1, nrm_at1]
  have hmu : W5 m ρ c (Proc.devRef .tc main_v50)
      = Cert.Gcn.colMean (Cert.Gcn.aggregate (Cert.Gcn.lin h (Cert.Gcn.weight0 (m ((c : Thread nD τ).loc main_arg4))) (Cert.Gcn.bias0 (m ((c : Thread nD τ).loc main_arg5))))
          (m ((c : Thread nD τ).loc main_arg1))) := by
    rw [aggregate_eq]
    refine (mean_l0 (W4 m ρ c)).trans ?_
    rw [ht, kB.src, kB.dst, kB.nrm, src_at1, dst_at1, nrm_at1]
  have hz : W5 m ρ c (Proc.devRef .tc main_c_10) = constantI S_ 32 0#32 := zero_l0 (W4 m ρ c)
  have hh5 : W5 m ρ c (Proc.devRef .tc main_v29) = h :=
    (show StableHlo.after hostOps2 (W4 m ρ c) (Proc.devRef .tc main_v29) = W4 m ρ c (Proc.devRef .tc main_v29) by host_keeps).trans hh4
  -- the column variance, and the three carried over its operations
  have hv : W6 m ρ c (Proc.devRef .tc main_v51)
      = Cert.Gcn.colVar (Cert.Gcn.aggregate (Cert.Gcn.lin h (Cert.Gcn.weight0 (m ((c : Thread nD τ).loc main_arg4))) (Cert.Gcn.bias0 (m ((c : Thread nD τ).loc main_arg5))))
          (m ((c : Thread nD τ).loc main_arg1))) :=
    (var_l0 (W5 m ρ c) hz).trans (by rw [ha])
  have ha6 : W6 m ρ c (Proc.devRef .tc main_v47)
      = Cert.Gcn.aggregate (Cert.Gcn.lin h (Cert.Gcn.weight0 (m ((c : Thread nD τ).loc main_arg4))) (Cert.Gcn.bias0 (m ((c : Thread nD τ).loc main_arg5))))
          (m ((c : Thread nD τ).loc main_arg1)) :=
    (show StableHlo.after hostOps2_1 (W5 m ρ c) (Proc.devRef .tc main_v47) = W5 m ρ c (Proc.devRef .tc main_v47) by host_keeps).trans ha
  have hmu6 : W6 m ρ c (Proc.devRef .tc main_v50)
      = Cert.Gcn.colMean (Cert.Gcn.aggregate (Cert.Gcn.lin h (Cert.Gcn.weight0 (m ((c : Thread nD τ).loc main_arg4))) (Cert.Gcn.bias0 (m ((c : Thread nD τ).loc main_arg5))))
          (m ((c : Thread nD τ).loc main_arg1))) :=
    (show StableHlo.after hostOps2_1 (W5 m ρ c) (Proc.devRef .tc main_v50) = W5 m ρ c (Proc.devRef .tc main_v50) by host_keeps).trans hmu
  have hh6 : W6 m ρ c (Proc.devRef .tc main_v29) = h :=
    (show StableHlo.after hostOps2_1 (W5 m ρ c) (Proc.devRef .tc main_v29) = W5 m ρ c (Proc.devRef .tc main_v29) by host_keeps).trans hh5
  -- the normalisation region
  refine (W7_arr m ρ c 6).trans ((bn2_arr (V6 m ρ) c).trans ?_)
  show Cert.Gcn.bnRelu (W6 m ρ c (Proc.devRef .tc main_v47)) (W6 m ρ c (Proc.devRef .tc main_v29)) (W6 m ρ c (Proc.devRef .tc main_v50))
      (W6 m ρ c (Proc.devRef .tc main_v51)) (W6 m ρ c (Proc.devRef .tc main_arg6)) (W6 m ρ c (Proc.devRef .tc main_arg7)) = _
  rw [ha6, hh6, hmu6, hv, kC.gam, kC.bet, arg6_at1, arg7_at1]
  rfl

end Cert.KernelIdeal.Chain

end
-- ==== Proof.RegionLin3.lean ====
/-
  A linear kernel's output array: h·W + b over all 50000 nodes.

  The call works through the rows 5000 at a time, at ten grid points.  At point t it is handed rows
  5000·t … 5000·t + 4999 of the features h, all of W and all of b, and it writes rows 5000·t … 5000·t + 4999 of the
  output.  An entry of h·W + b reads h through one row alone, so what point t writes is exactly that block of rows of
  the whole-array function; and every row r lies in the block of point r / 5000, so the ten blocks fill the array.
-/
import proofs.«407553_j68453188763742_4_alg».proof.Proof.Gen.KernelIdeal.Frame
import proofs.«407553_j68453188763742_4_alg».proof.Proof.MatmulBias
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A whole block is loaded and stored at offset zero on every axis. -/
theorem lin3_zero2 : (![0, 0] : Fin 2 → Nat) = fun _ => 0 := funext fun a => by fin_cases a <;> rfl
theorem lin3_zero1 : (![0] : Fin 1 → Nat) = fun _ => 0 := funext fun a => by fin_cases a <;> rfl

/-- Where the blocks sit, decided over the ten points: at point t the block of h and the block of the output are
    block t along the rows; W and b are taken whole at every point. -/
theorem lin3_blockIdx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

set_option maxHeartbeats 400000 in
/-- The block of W at any point is W, and the block of b is b. -/
theorem lin3_wblock (c : Dev nD) (t : Fin cfg3.N) : (iblk3 V c 1 t : FVec Ideal S64x64 .f32) = V c main_v54 := by
  obtain ⟨-, -, e2, e3, -, -, -⟩ := lin3_blockIdx t
  funext y
  show V c main_v54 (((cfg3.win 1).blk t).view.emb y) = V c main_v54 y
  refine congrArg _ (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

set_option maxHeartbeats 400000 in
theorem lin3_bblock (c : Dev nD) (t : Fin cfg3.N) : (iblk3 V c 2 t : FVec Ideal S64 .f32) = V c main_v56 := by
  obtain ⟨-, -, -, -, e4, -, -⟩ := lin3_blockIdx t
  funext y
  show V c main_v56 (((cfg3.win 2).blk t).view.emb y) = V c main_v56 y
  refine congrArg _ (funext fun a => Fin.ext ?_)
  match a with
  | ⟨0, _⟩ => show win3_2.index t (0 : Fin 1) * 64 + 1 * (y 0).val = (y 0).val; omega

set_option maxHeartbeats 400000 in
/-- Row p of the block of h at point t is row 5000·t + p of h. -/
theorem lin3_hblock (c : Dev nD) (t : Fin cfg3.N) (ht : t.val * 5000 + 5000 ≤ 50000) (p : Fin 5000) (k : Fin 64) :
    (iblk3 V c 0 t : FVec Ideal S5000x64 .f32) (ix2 p k)
      = (V c main_v52 : FVec Ideal S50000x64 .f32) (ix2 (⟨t.val * 5000 + p.val, by omega⟩ : Fin 50000) k) := by
  obtain ⟨e0, e1, -, -, -, -, -⟩ := lin3_blockIdx t
  show V c main_v52 (((cfg3.win 0).blk t).view.emb (ix2 p k)) = V c main_v52 _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * k.val = k.val; omega

set_option maxHeartbeats 400000 in
/-- WHAT POINT t WRITES BACK is block t of h·W + b of the arrays as the call finds them. -/
theorem lin3_flushed (c : Dev nD) (t : Fin cfg3.N) :
    (dat3 V c).flushed 3 t = ((cfg3.win 3).blk t).view.read (Elt Ideal)
      (Cert.Gcn.lin (F := Ideal) (V c main_v52) (V c main_v54) (V c main_v56)) := by
  have ht : t.val * 5000 + 5000 ≤ 50000 := by
    have h := lt_of_lt_of_eq t.isLt N_3
    omega
  show (cfg3.win 3).cut (grid3.coords t) ((dat3 V c).after 3 t) = _
  rw [after3_3]
  unfold out3_3
  rw [View.canon_unit_zero lin3_zero2]
  simp only [View.ld_unit_zero (S := S5000x64) lin3_zero2, View.ld_unit_zero (S := S64x64) lin3_zero2,
    View.ld_unit_zero (S := S64) lin3_zero1]
  obtain ⟨-, -, -, -, -, e5, e6⟩ := lin3_blockIdx t
  refine funext fun (j : S5000x64.Idx) => ?_
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (ix2 p q)
      = Cert.Gcn.lin (F := Ideal) (V c main_v52) (V c main_v54) (V c main_v56) (((cfg3.win 3).blk t).view.emb (ix2 p q))
  rw [lin3_wblock V c t, lin3_bblock V c t]
  refine (lin_rows3 (V c main_v52) (V c main_v54) (V c main_v56) (iblk3 V c 0 t) (t.val * 5000) ht
    (lin3_hblock V c t ht) p q).trans ?_
  refine congrArg _ (funext fun a => Fin.ext ?_)
  match a with
  | ⟨0, _⟩ => show t.val * 5000 + p.val = win3_3.index t (0 : Fin 2) * 5000 + 1 * p.val; omega
  | ⟨1, _⟩ => show q.val = win3_3.index t (1 : Fin 2) * 64 + 1 * q.val; omega

/-- An index of the output array is in point t's block iff each coordinate is in the block's range on its axis. -/
theorem lin3_mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v57).slice (win3_3.rect t)).set ↔ _
  rw [View.set_slice_whole, Rect.mem_set_unit]
  exact Iff.rfl

/-- Every row r is in the block of point r / 5000: the ten blocks fill the output array. -/
theorem lin3_cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 10 := N_3
  let t : Fin cfg3.N := ⟨(i 0).val / 5000, by show (i 0).val / 5000 < grid3.N; omega⟩
  obtain ⟨-, -, -, -, -, e5, e6⟩ := lin3_blockIdx t
  have e5' : win3_3.index t (0 : Fin 2) = (i 0).val / 5000 := e5
  refine ⟨t, flush3_3 t, ?_⟩
  rw [lin3_mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- THE OUTPUT ARRAY after the call: h·W + b of the arrays as the call finds them. -/
theorem lin3_arr (c : Dev nD) :
    (dat3 (F := Ideal) V c).arrAt 3 cfg3.N
      = Cert.Gcn.lin (F := Ideal) (V c main_v52) (V c main_v54) (V c main_v56) :=
  (dat3 V c).arrAt_eq_of_cover 3 _ (fun t _ => lin3_flushed V c t) lin3_cover

end Cert.KernelIdeal.RegionValue

end
-- ==== Proof.RegionBn4.lean ====
/-
  The value of the second batch-normalisation region (pipeline 4): what the array main_v75 holds when the region ends,
  as ONE function of the arrays the region finds in main_v70 (the aggregate a), main_v52 (the residual h), main_v73 (the
  column means), main_v74 (the column variances), main_arg6 (γ) and main_arg7 (β).

  The region walks a grid of ten points along the 50000 rows.  At point t the body loads rows 5000·t … 5000·t + 4999 of
  a and of h and the four whole 64-vectors, and stores, for row p of the block and column q,
      max ((a − mean q) · (variance q + ε)^(−1/2) · γ q + β q, 0) + h
  at the entries (5000·t + p, q) of a and h.  The whole-array function has exactly this value at row 5000·t + p and
  column q, because it reads each 64-vector at the column alone; so point t writes back block t of that function.  The ten
  blocks tile the rows (row r lies in block r / 5000), hence the array ends holding the function itself.
-/
import proofs.«407553_j68453188763742_4_alg».proof.Proof.Gen.KernelIdeal.Frame
import proofs.«407553_j68453188763742_4_alg».proof.Proof.BnEntry
import proofs.«407553_j68453188763742_4_alg».proof.Proof.BnBlock
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What the body stores for one point, entry by entry: from the loaded blocks x0 (the aggregate), x1 (the residual) and
    the four loaded 64-vectors, at row p and column q it is
    max ((x0 p q − x2 q) · (x3 q + ε)^(−1/2) · x4 q + x5 q, 0) + x1 p q. -/
theorem pay4_apply (x0 x1 : Vec Ideal S5000x64 .f32) (x2 x3 x4 x5 : Vec Ideal S64 .f32) (p : Fin 5000) (q : Fin 64) :
    k4_pay1 (F := Ideal) x0 x2 x3 x4 x5 x1 (ix2 p q)
      = max ((x0 (ix2 p q) - x2 (ix1 q)) * Ideal.rsqrt (x3 (ix1 q) + Ideal.ofBits .f32 0x3727C5AC#32) * x4 (ix1 q) + x5 (ix1 q))
          (Ideal.ofBits .f32 0x00000000#32) + x1 (ix2 p q) := by
  unfold k4_pay1
  rw [addf_apply, maximumf_apply, addf_apply, mulf_apply, mulf_apply, subf_apply, broadcast_apply]
  simp only [shapeCast_self]
  rw [rowRepeat_apply, rowRepeat_apply, rowRepeat_apply, rsqrtRow_apply]
  rfl

/-- One point's stored block is the matching block of rows of the whole-array function: if the two loaded 5000×64 blocks
    are the arrays A and H read along an embedding e of the block into the 50000 rows that keeps the column, and the
    four loaded vectors are the whole 64-vectors, then entry j of the stored block is entry e j of the array function. -/
theorem block4_eq (A H : Vec Ideal S50000x64 .f32) (MU VR GA BE : Vec Ideal S64 .f32)
    (x0 x1 : Vec Ideal S5000x64 .f32) (x2 x3 x4 x5 : Vec Ideal S64 .f32)
    (e : S5000x64.Idx → S50000x64.Idx) (hcol : ∀ j, (e j 1).val = (j 1).val)
    (h0 : ∀ j, x0 j = A (e j)) (h1 : ∀ j, x1 j = H (e j))
    (h2 : x2 = MU) (h3 : x3 = VR) (h4 : x4 = GA) (h5 : x5 = BE) (j : S5000x64.Idx) :
    k4_pay1 (F := Ideal) x0 x2 x3 x4 x5 x1 j = Cert.Gcn.bnRelu (F := Ideal) A H MU VR GA BE (e j) := by
  subst h2 h3 h4 h5
  obtain ⟨p, q, rfl⟩ : ∃ (p : Fin 5000) (q : Fin 64), j = ix2 p q := ⟨j 0, j 1, eq_ix2 j⟩
  obtain ⟨r, q', hr⟩ : ∃ (r : Fin 50000) (q' : Fin 64), e (ix2 p q) = ix2 r q' := ⟨e (ix2 p q) 0, e (ix2 p q) 1, eq_ix2 _⟩
  have hq : q' = q := Fin.ext (by have h := hcol (ix2 p q); rw [hr] at h; exact h)
  subst hq
  rw [pay4_apply, h0, h1, hr, bnRelu_apply]

/-- The index maps, decided over the ten grid points: the aggregate's and the residual's blocks move with the output's,
    the four vectors stay at block 0, and the output's block index is the point itself along the rows, 0 along the columns. -/
theorem index_facts4 : ∀ t : Fin cfg4.N, win4_0.index t (0 : Fin 2) = win4_6.index t (0 : Fin 2)
    ∧ win4_0.index t (1 : Fin 2) = win4_6.index t (1 : Fin 2)
    ∧ win4_1.index t (0 : Fin 2) = win4_6.index t (0 : Fin 2)
    ∧ win4_1.index t (1 : Fin 2) = win4_6.index t (1 : Fin 2)
    ∧ win4_2.index t (0 : Fin 1) = 0
    ∧ win4_3.index t (0 : Fin 1) = 0
    ∧ win4_4.index t (0 : Fin 1) = 0
    ∧ win4_5.index t (0 : Fin 1) = 0
    ∧ win4_6.index t (0 : Fin 2) = t.val
    ∧ win4_6.index t (1 : Fin 2) = 0 :=
  (by decide +kernel : ∀ t : Fin grid4.N, _)

/-- WHAT POINT t WRITES BACK is block t — rows 5000·t … 5000·t + 4999 — of the whole-array function of the arrays as the
    region finds them. -/
theorem flushed4_eq (c : Dev nD) (t : Fin cfg4.N) :
    (dat4 (F := Ideal) V c).flushed 6 t
      = ((cfg4.win 6).blk t).view.read (Elt Ideal)
          (Cert.Gcn.bnRelu (F := Ideal) (V c main_v70) (V c main_v52) (V c main_v73) (V c main_v74) (V c main_arg6) (V c main_arg7)) := by
  show (cfg4.win 6).cut (grid4.coords t) ((dat4 V c).after 6 t) = _
  rw [after4_6]
  unfold out4_6
  rw [View.canon_unit_zero zeroOffsets2]
  simp only [View.ld_unit_zero (S := S5000x64) zeroOffsets2, View.ld_unit_zero (S := S64) zeroOffsets1]
  obtain ⟨e0, e1, e2, e3, e4, e5, e6, e7, e8, e9⟩ := index_facts4 t
  funext j
  refine block4_eq (V c main_v70) (V c main_v52) (V c main_v73) (V c main_v74) (V c main_arg6) (V c main_arg7)
    (iblk4 V c 0 t) (iblk4 V c 1 t) (iblk4 V c 2 t) (iblk4 V c 3 t) (iblk4 V c 4 t) (iblk4 V c 5 t)
    (((cfg4.win 6).blk t).view.emb) (fun y => ?_) (fun y => ?_) (fun y => ?_) ?_ ?_ ?_ ?_ j
  · show win4_6.index t (1 : Fin 2) * 64 + 1 * (y 1).val = (y 1).val
    rw [e9]; omega
  · show V c main_v70 (((cfg4.win 0).blk t).view.emb y) = V c main_v70 (((cfg4.win 6).blk t).view.emb y)
    refine congrArg (V c main_v70) (funext fun a => Fin.ext ?_)
    match a with
    | ⟨0, _⟩ => show win4_0.index t (0 : Fin 2) * 5000 + 1 * (y 0).val = win4_6.index t (0 : Fin 2) * 5000 + 1 * (y 0).val; rw [e0]
    | ⟨1, _⟩ => show win4_0.index t (1 : Fin 2) * 64 + 1 * (y 1).val = win4_6.index t (1 : Fin 2) * 64 + 1 * (y 1).val; rw [e1]
  · show V c main_v52 (((cfg4.win 1).blk t).view.emb y) = V c main_v52 (((cfg4.win 6).blk t).view.emb y)
    refine congrArg (V c main_v52) (funext fun a => Fin.ext ?_)
    match a with
    | ⟨0, _⟩ => show win4_1.index t (0 : Fin 2) * 5000 + 1 * (y 0).val = win4_6.index t (0 : Fin 2) * 5000 + 1 * (y 0).val; rw [e2]
    | ⟨1, _⟩ => show win4_1.index t (1 : Fin 2) * 64 + 1 * (y 1).val = win4_6.index t (1 : Fin 2) * 64 + 1 * (y 1).val; rw [e3]
  · funext y
    show V c main_v73 (((cfg4.win 2).blk t).view.emb y) = V c main_v73 y
    refine congrArg (V c main_v73) (funext fun a => Fin.ext ?_)
    match a with
    | ⟨0, _⟩ => show win4_2.index t (0 : Fin 1) * 64 + 1 * (y 0).val = (y 0).val; rw [e4]; omega
  · funext y
    show V c main_v74 (((cfg4.win 3).blk t).view.emb y) = V c main_v74 y
    refine congrArg (V c main_v74) (funext fun a => Fin.ext ?_)
    match a with
    | ⟨0, _⟩ => show win4_3.index t (0 : Fin 1) * 64 + 1 * (y 0).val = (y 0).val; rw [e5]; omega
  · funext y
    show V c main_arg6 (((cfg4.win 4).blk t).view.emb y) = V c main_arg6 y
    refine congrArg (V c main_arg6) (funext fun a => Fin.ext ?_)
    match a with
    | ⟨0, _⟩ => show win4_4.index t (0 : Fin 1) * 64 + 1 * (y 0).val = (y 0).val; rw [e6]; omega
  · funext y
    show V c main_arg7 (((cfg4.win 5).blk t).view.emb y) = V c main_arg7 y
    refine congrArg (V c main_arg7) (funext fun a => Fin.ext ?_)
    match a with
    | ⟨0, _⟩ => show win4_5.index t (0 : Fin 1) * 64 + 1 * (y 0).val = (y 0).val; rw [e7]; omega

/-- An index of the array is in point t's block iff each coordinate is in the block's range on its axis. -/
theorem mem_block4 (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v75).slice (win4_6.rect t)).set ↔ _
  rw [View.set_slice_whole, Rect.mem_set_unit]
  exact Iff.rfl

/-- Every entry of the array lies in some point's block: row r is in the block of the point r / 5000. -/
theorem covered4 (i : S50000x64.Idx) :
    ∃ t : Fin cfg4.N, (cfg4.win 6).flush t = true ∧ i ∈ ((cfg4.win 6).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, by show (i 0).val / 5000 < grid4.N; rw [N_4]; omega⟩, rfl⟩
  obtain ⟨-, -, -, -, -, -, -, -, e8, e9⟩ := index_facts4 t
  refine ⟨t, flush4_6 t, ?_⟩
  rw [mem_block4]
  intro a
  match a with
  | ⟨0, _⟩ => show win4_6.index t (0 : Fin 2) * 5000 ≤ (i 0).val ∧ (i 0).val < win4_6.index t (0 : Fin 2) * 5000 + 5000; rw [e8, ht]; omega
  | ⟨1, _⟩ => show win4_6.index t (1 : Fin 2) * 64 ≤ (i 1).val ∧ (i 1).val < win4_6.index t (1 : Fin 2) * 64 + 64; rw [e9]; omega

/-- THE ARRAY after the region: the output's ten blocks tile the 50000 rows, and each is its block of the whole-array
    function, so the array ends holding that function of the arrays the region found. -/
theorem bn4_arr (c : Dev nD) :
    (dat4 (F := Ideal) V c).arrAt 6 cfg4.N
      = Cert.Gcn.bnRelu (F := Ideal) (V c main_v70) (V c main_v52) (V c main_v73) (V c main_v74) (V c main_arg6) (V c main_arg7) :=
  (dat4 (F := Ideal) V c).arrAt_eq_of_cover 6 _ (fun t _ => flushed4_eq V c t) covered4

end Cert.KernelIdeal.RegionValue

end
-- ==== Proof.ChainLayer1.lean ====
/-
  One layer of the network, read off the run.  The layer starts from the boundary where its input features h sit in
  their buffer and ends five boundaries later: the weight matrix and the bias are sliced out of the stacked arguments;
  the linear region leaves t = h·W + b; the host aggregates t over the edges and takes the aggregate's column mean and
  column variance; the normalisation region leaves max ((a − mean)·rsqrt (var + ε)·γ + β, 0) + h.  Every step reads its
  operands at the boundary before it, where the earlier steps' lemmas say what they hold.
-/
import proofs.«407553_j68453188763742_4_alg».proof.Proof.ChainGraph
import proofs.«407553_j68453188763742_4_alg».proof.Proof.RegionLin3
import proofs.«407553_j68453188763742_4_alg».proof.Proof.RegionBn4

set_option maxRecDepth 16384

noncomputable section

namespace Cert.KernelIdeal.Chain

open Idealize.ShloMosaic Idealize.ShloMosaic.TcCoe Idealize.SL.Sem
open Cert.KernelIdeal Cert.KernelIdeal.Gen Cert.KernelIdeal.RegionValue

variable (m : (ℓ : Loc nD τ sig) → Buf (Elt Ideal) ℓ) (ρ : Dev nD → PrngReg) (c : Dev nD)

/-- If the features `h` sit in their buffer at the layer's first boundary, the layer's output buffer holds
    `layer h` (with this layer's slice of the stacked weights and biases) at its last. -/
theorem layer1_out (h : Vec Ideal S50000x64 .f32) (hh : W7 m ρ c (Proc.devRef .tc main_v52) = h) :
    W12 m ρ c (Proc.devRef .tc main_v75)
      = Cert.Gcn.layer h (m ((c : Thread nD τ).loc main_arg1))
          (Cert.Gcn.weight1 (m ((c : Thread nD τ).loc main_arg4))) (Cert.Gcn.bias1 (m ((c : Thread nD τ).loc main_arg5)))
          (m ((c : Thread nD τ).loc main_arg6)) (m ((c : Thread nD τ).loc main_arg7)) := by
  have kA := keeps_1_7 m ρ c
  have kB := keeps_1_9 m ρ c
  have kC := keeps_1_11 m ρ c
  -- the layer's weight matrix and bias, and h carried over the slicing
  have hw : W8 m ρ c (Proc.devRef .tc main_v54) = Cert.Gcn.weight1 (m ((c : Thread nD τ).loc main_arg4)) :=
    (weight_l1 (W7 m ρ c)).trans (by rw [kA.wts, arg4_at1])
  have hb : W8 m ρ c (Proc.devRef .tc main_v56) = Cert.Gcn.bias1 (m ((c : Thread nD τ).loc main_arg5)) :=
    (bias_l1 (W7 m ρ c)).trans (by rw [kA.bss, arg5_at1])
  have hh3 : W8 m ρ c (Proc.devRef .tc main_v52) = h :=
    (show StableHlo.after hostOps3 (W7 m ρ c) (Proc.devRef .tc main_v52) = W7 m ρ c (Proc.devRef .tc main_v52) by host_keeps).trans hh
  -- the linear region
  have ht : W9 m ρ c (Proc.devRef .tc main_v57)
      = Cert.Gcn.lin h (Cert.Gcn.weight1 (m ((c : Thread nD τ).loc main_arg4))) (Cert.Gcn.bias1 (m ((c : Thread nD τ).loc main_arg5))) := by
    rw [← hh3, ← hw, ← hb]
    exact (W9_arr m ρ c 3).trans (lin3_arr (V8 m ρ) c)
  have hh4 : W9 m ρ c (Proc.devRef .tc main_v52) = h :=
    ((W9_arr m ρ c 0).trans (((dat3 (V8 m ρ) c).arrAt_in 0 rfl _).trans (A_eq3 (V8 m ρ) c 0))).trans hh3
  -- the aggregate, its column mean, the zero
  have ha : W10 m ρ c (Proc.devRef .tc main_v70)
      = Cert.Gcn.aggregate (Cert.Gcn.lin h (Cert.Gcn.weight1 (m ((c : Thread nD τ).loc main_arg4))) (Cert.Gcn.bias1 (m ((c : Thread nD τ).loc main_arg5))))
          (m ((c : Thread nD τ).loc main_arg1)) := by
    rw [aggregate_eq]
    refine (agg_l1 (W9 m ρ c)).trans ?_
    rw [ht, kB.src, kB.dst, kB.nrm, src_at1, dst_at1, nrm_at1]
  have hmu : W10 m ρ c (Proc.devRef .tc main_v73)
      = Cert.Gcn.colMean (Cert.Gcn.aggregate (Cert.Gcn.lin h (Cert.Gcn.weight1 (m ((c : Thread nD τ).loc main_arg4))) (Cert.Gcn.bias1 (m ((c : Thread nD τ).loc main_arg5))))
          (m ((c : Thread nD τ).loc main_arg1))) := by
    rw [aggregate_eq]
    refine (mean_l1 (W9 m ρ c)).trans ?_
    rw [ht, kB.src, kB.dst, kB.nrm, src_at1, dst_at1, nrm_at1]
  have hz : W10 m ρ c (Proc.devRef .tc main_c_16) = constantI S_ 32 0#32 := zero_l1 (W9 m ρ c)
  have hh5 : W10 m ρ c (Proc.devRef .tc main_v52) = h :=
    (show StableHlo.after hostOps4 (W9 m ρ c) (Proc.devRef .tc main_v52) = W9 m ρ c (Proc.devRef .tc main_v52) by host_keeps).trans hh4
  -- the column variance, and the three carried over its operations
  have hv : W11 m ρ c (Proc.devRef .tc main_v74)
      = Cert.Gcn.colVar (Cert.Gcn.aggregate (Cert.Gcn.lin h (Cert.Gcn.weight1 (m ((c : Thread nD τ).loc main_arg4))) (Cert.Gcn.bias1 (m ((c : Thread nD τ).loc main_arg5))))
          (m ((c : Thread nD τ).loc main_arg1))) :=
    (var_l1 (W10 m ρ c) hz).trans (by rw [ha])
  have ha6 : W11 m ρ c (Proc.devRef .tc main_v70)
      = Cert.Gcn.aggregate (Cert.Gcn.lin h (Cert.Gcn.weight1 (m ((c : Thread nD τ).loc main_arg4))) (Cert.Gcn.bias1 (m ((c : Thread nD τ).loc main_arg5))))
          (m ((c : Thread nD τ).loc main_arg1)) :=
    (show StableHlo.after hostOps4_1 (W10 m ρ c) (Proc.devRef .tc main_v70) = W10 m ρ c (Proc.devRef .tc main_v70) by host_keeps).trans ha
  have hmu6 : W11 m ρ c (Proc.devRef .tc main_v73)
      = Cert.Gcn.colMean (Cert.Gcn.aggregate (Cert.Gcn.lin h (Cert.Gcn.weight1 (m ((c : Thread nD τ).loc main_arg4))) (Cert.Gcn.bias1 (m ((c : Thread nD τ).loc main_arg5))))
          (m ((c : Thread nD τ).loc main_arg1))) :=
    (show StableHlo.after hostOps4_1 (W10 m ρ c) (Proc.devRef .tc main_v73) = W10 m ρ c (Proc.devRef .tc main_v73) by host_keeps).trans hmu
  have hh6 : W11 m ρ c (Proc.devRef .tc main_v52) = h :=
    (show StableHlo.after hostOps4_1 (W10 m ρ c) (Proc.devRef .tc main_v52) = W10 m ρ c (Proc.devRef .tc main_v52) by host_keeps).trans hh5
  -- the normalisation region
  refine (W12_arr m ρ c 6).trans ((bn4_arr (V11 m ρ) c).trans ?_)
  show Cert.Gcn.bnRelu (W11 m ρ c (Proc.devRef .tc main_v70)) (W11 m ρ c (Proc.devRef .tc main_v52)) (W11 m ρ c (Proc.devRef .tc main_v73))
      (W11 m ρ c (Proc.devRef .tc main_v74)) (W11 m ρ c (Proc.devRef .tc main_arg6)) (W11 m ρ c (Proc.devRef .tc main_arg7)) = _
  rw [ha6, hh6, hmu6, hv, kC.gam, kC.bet, arg6_at1, arg7_at1]
  rfl

end Cert.KernelIdeal.Chain

end
-- ==== Proof.RegionLin5.lean ====
/-
  A linear kernel's output array: h·W + b over all 50000 nodes.

  The call works through the rows 5000 at a time, at ten grid points.  At point t it is handed rows
  5000·t … 5000·t + 4999 of the features h, all of W and all of b, and it writes rows 5000·t … 5000·t + 4999 of the
  output.  An entry of h·W + b reads h through one row alone, so what point t writes is exactly that block of rows of
  the whole-array function; and every row r lies in the block of point r / 5000, so the ten blocks fill the array.
-/
import proofs.«407553_j68453188763742_4_alg».proof.Proof.Gen.KernelIdeal.Frame
import proofs.«407553_j68453188763742_4_alg».proof.Proof.MatmulBias
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A whole block is loaded and stored at offset zero on every axis. -/
theorem lin5_zero2 : (![0, 0] : Fin 2 → Nat) = fun _ => 0 := funext fun a => by fin_cases a <;> rfl
theorem lin5_zero1 : (![0] : Fin 1 → Nat) = fun _ => 0 := funext fun a => by fin_cases a <;> rfl

/-- Where the blocks sit, decided over the ten points: at point t the block of h and the block of the output are
    block t along the rows; W and b are taken whole at every point. -/
theorem lin5_blockIdx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

set_option maxHeartbeats 400000 in
/-- The block of W at any point is W, and the block of b is b. -/
theorem lin5_wblock (c : Dev nD) (t : Fin cfg5.N) : (iblk5 V c 1 t : FVec Ideal S64x64 .f32) = V c main_v77 := by
  obtain ⟨-, -, e2, e3, -, -, -⟩ := lin5_blockIdx t
  funext y
  show V c main_v77 (((cfg5.win 1).blk t).view.emb y) = V c main_v77 y
  refine congrArg _ (funext fun a => Fin.ext ?_)
  match a with
  | ⟨0, _⟩ => show win5_1.index t (0 : Fin 2) * 64 + 1 * (y 0).val = (y 0).val; omega
  | ⟨1, _⟩ => show win5_1.index t (1 : Fin 2) * 64 + 1 * (y 1).val = (y 1).val; omega

set_option maxHeartbeats 400000 in
theorem lin5_bblock (c : Dev nD) (t : Fin cfg5.N) : (iblk5 V c 2 t : FVec Ideal S64 .f32) = V c main_v79 := by
  obtain ⟨-, -, -, -, e4, -, -⟩ := lin5_blockIdx t
  funext y
  show V c main_v79 (((cfg5.win 2).blk t).view.emb y) = V c main_v79 y
  refine congrArg _ (funext fun a => Fin.ext ?_)
  match a with
  | ⟨0, _⟩ => show win5_2.index t (0 : Fin 1) * 64 + 1 * (y 0).val = (y 0).val; omega

set_option maxHeartbeats 400000 in
/-- Row p of the block of h at point t is row 5000·t + p of h. -/
theorem lin5_hblock (c : Dev nD) (t : Fin cfg5.N) (ht : t.val * 5000 + 5000 ≤ 50000) (p : Fin 5000) (k : Fin 64) :
    (iblk5 V c 0 t : FVec Ideal S5000x64 .f32) (ix2 p k)
      = (V c main_v75 : FVec Ideal S50000x64 .f32) (ix2 (⟨t.val * 5000 + p.val, by omega⟩ : Fin 50000) k) := by
  obtain ⟨e0, e1, -, -, -, -, -⟩ := lin5_blockIdx t
  show V c main_v75 (((cfg5.win 0).blk t).view.emb (ix2 p k)) = V c main_v75 _
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * k.val = k.val; omega

set_option maxHeartbeats 400000 in
/-- WHAT POINT t WRITES BACK is block t of h·W + b of the arrays as the call finds them. -/
theorem lin5_flushed (c : Dev nD) (t : Fin cfg5.N) :
    (dat5 V c).flushed 3 t = ((cfg5.win 3).blk t).view.read (Elt Ideal)
      (Cert.Gcn.lin (F := Ideal) (V c main_v75) (V c main_v77) (V c main_v79)) := by
  have ht : t.val * 5000 + 5000 ≤ 50000 := by
    have h := lt_of_lt_of_eq t.isLt N_5
    omega
  show (cfg5.win 3).cut (grid5.coords t) ((dat5 V c).after 3 t) = _
  rw [after5_3]
  unfold out5_3
  rw [View.canon_unit_zero lin5_zero2]
  simp only [View.ld_unit_zero (S := S5000x64) lin5_zero2, View.ld_unit_zero (S := S64x64) lin5_zero2,
    View.ld_unit_zero (S := S64) lin5_zero1]
  obtain ⟨-, -, -, -, -, e5, e6⟩ := lin5_blockIdx t
  refine funext fun (j : S5000x64.Idx) => ?_
  obtain ⟨p, q, rfl⟩ : ∃ (p : Fin 5000) (q : Fin 64), j = ix2 p q := ⟨j 0, j 1, eq_ix2 j⟩
  show k5_pay1 (F := Ideal) (iblk5 V c 0 t) (iblk5 V c 1 t) (iblk5 V c 2 t) (ix2 p q)
      = Cert.Gcn.lin (F := Ideal) (V c main_v75) (V c main_v77) (V c main_v79) (((cfg5.win 3).blk t).view.emb (ix2 p q))
  rw [lin5_wblock V c t, lin5_bblock V c t]
  refine (lin_rows5 (V c main_v75) (V c main_v77) (V c main_v79) (iblk5 V c 0 t) (t.val * 5000) ht
    (lin5_hblock V c t ht) p q).trans ?_
  refine congrArg _ (funext fun a => Fin.ext ?_)
  match a with
  | ⟨0, _⟩ => show t.val * 5000 + p.val = win5_3.index t (0 : Fin 2) * 5000 + 1 * p.val; omega
  | ⟨1, _⟩ => show q.val = win5_3.index t (1 : Fin 2) * 64 + 1 * q.val; omega

/-- An index of the output array is in point t's block iff each coordinate is in the block's range on its axis. -/
theorem lin5_mem_blk (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v80).slice (win5_3.rect t)).set ↔ _
  rw [View.set_slice_whole, Rect.mem_set_unit]
  exact Iff.rfl

/-- Every row r is in the block of point r / 5000: the ten blocks fill the output array. -/
theorem lin5_cover (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : grid5.N = 10 := N_5
  let t : Fin cfg5.N := ⟨(i 0).val / 5000, by show (i 0).val / 5000 < grid5.N; omega⟩
  obtain ⟨-, -, -, -, -, e5, e6⟩ := lin5_blockIdx t
  have e5' : win5_3.index t (0 : Fin 2) = (i 0).val / 5000 := e5
  refine ⟨t, flush5_3 t, ?_⟩
  rw [lin5_mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- THE OUTPUT ARRAY after the call: h·W + b of the arrays as the call finds them. -/
theorem lin5_arr (c : Dev nD) :
    (dat5 (F := Ideal) V c).arrAt 3 cfg5.N
      = Cert.Gcn.lin (F := Ideal) (V c main_v75) (V c main_v77) (V c main_v79) :=
  (dat5 V c).arrAt_eq_of_cover 3 _ (fun t _ => lin5_flushed V c t) lin5_cover

end Cert.KernelIdeal.RegionValue

end
-- ==== Proof.RegionBn6.lean ====
/-
  The value of the third batch-normalisation region (pipeline 6): what the array main_v98 holds when the region ends,
  as ONE function of the arrays the region finds in main_v93 (the aggregate a), main_v75 (the residual h), main_v96 (the
  column means), main_v97 (the column variances), main_arg6 (γ) and main_arg7 (β).

  The region walks a grid of ten points along the 50000 rows.  At point t the body loads rows 5000·t … 5000·t + 4999 of
  a and of h and the four whole 64-vectors, and stores, for row p of the block and column q,
      max ((a − mean q) · (variance q + ε)^(−1/2) · γ q + β q, 0) + h
  at the entries (5000·t + p, q) of a and h.  The whole-array function has exactly this value at row 5000·t + p and
  column q, because it reads each 64-vector at the column alone; so point t writes back block t of that function.  The ten
  blocks tile the rows (row r lies in block r / 5000), hence the array ends holding the function itself.
-/
import proofs.«407553_j68453188763742_4_alg».proof.Proof.Gen.KernelIdeal.Frame
import proofs.«407553_j68453188763742_4_alg».proof.Proof.BnEntry
import proofs.«407553_j68453188763742_4_alg».proof.Proof.BnBlock
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What the body stores for one point, entry by entry: from the loaded blocks x0 (the aggregate), x1 (the residual) and
    the four loaded 64-vectors, at row p and column q it is
    max ((x0 p q − x2 q) · (x3 q + ε)^(−1/2) · x4 q + x5 q, 0) + x1 p q. -/
theorem pay6_apply (x0 x1 : Vec Ideal S5000x64 .f32) (x2 x3 x4 x5 : Vec Ideal S64 .f32) (p : Fin 5000) (q : Fin 64) :
    k6_pay1 (F := Ideal) x0 x2 x3 x4 x5 x1 (ix2 p q)
      = max ((x0 (ix2 p q) - x2 (ix1 q)) * Ideal.rsqrt (x3 (ix1 q) + Ideal.ofBits .f32 0x3727C5AC#32) * x4 (ix1 q) + x5 (ix1 q))
          (Ideal.ofBits .f32 0x00000000#32) + x1 (ix2 p q) := by
  unfold k6_pay1
  rw [addf_apply, maximumf_apply, addf_apply, mulf_apply, mulf_apply, subf_apply, broadcast_apply]
  simp only [shapeCast_self]
  rw [rowRepeat_apply, rowRepeat_apply, rowRepeat_apply, rsqrtRow_apply]
  rfl

/-- One point's stored block is the matching block of rows of the whole-array function: if the two loaded 5000×64 blocks
    are the arrays A and H read along an embedding e of the block into the 50000 rows that keeps the column, and the
    four loaded vectors are the whole 64-vectors, then entry j of the stored block is entry e j of the array function. -/
theorem block6_eq (A H : Vec Ideal S50000x64 .f32) (MU VR GA BE : Vec Ideal S64 .f32)
    (x0 x1 : Vec Ideal S5000x64 .f32) (x2 x3 x4 x5 : Vec Ideal S64 .f32)
    (e : S5000x64.Idx → S50000x64.Idx) (hcol : ∀ j, (e j 1).val = (j 1).val)
    (h0 : ∀ j, x0 j = A (e j)) (h1 : ∀ j, x1 j = H (e j))
    (h2 : x2 = MU) (h3 : x3 = VR) (h4 : x4 = GA) (h5 : x5 = BE) (j : S5000x64.Idx) :
    k6_pay1 (F := Ideal) x0 x2 x3 x4 x5 x1 j = Cert.Gcn.bnRelu (F := Ideal) A H MU VR GA BE (e j) := by
  subst h2 h3 h4 h5
  obtain ⟨p, q, rfl⟩ : ∃ (p : Fin 5000) (q : Fin 64), j = ix2 p q := ⟨j 0, j 1, eq_ix2 j⟩
  obtain ⟨r, q', hr⟩ : ∃ (r : Fin 50000) (q' : Fin 64), e (ix2 p q) = ix2 r q' := ⟨e (ix2 p q) 0, e (ix2 p q) 1, eq_ix2 _⟩
  have hq : q' = q := Fin.ext (by have h := hcol (ix2 p q); rw [hr] at h; exact h)
  subst hq
  rw [pay6_apply, h0, h1, hr, bnRelu_apply]

/-- The index maps, decided over the ten grid points: the aggregate's and the residual's blocks move with the output's,
    the four vectors stay at block 0, and the output's block index is the point itself along the rows, 0 along the columns. -/
theorem index_facts6 : ∀ t : Fin cfg6.N, win6_0.index t (0 : Fin 2) = win6_6.index t (0 : Fin 2)
    ∧ win6_0.index t (1 : Fin 2) = win6_6.index t (1 : Fin 2)
    ∧ win6_1.index t (0 : Fin 2) = win6_6.index t (0 : Fin 2)
    ∧ win6_1.index t (1 : Fin 2) = win6_6.index t (1 : Fin 2)
    ∧ win6_2.index t (0 : Fin 1) = 0
    ∧ win6_3.index t (0 : Fin 1) = 0
    ∧ win6_4.index t (0 : Fin 1) = 0
    ∧ win6_5.index t (0 : Fin 1) = 0
    ∧ win6_6.index t (0 : Fin 2) = t.val
    ∧ win6_6.index t (1 : Fin 2) = 0 :=
  (by decide +kernel : ∀ t : Fin grid6.N, _)

/-- WHAT POINT t WRITES BACK is block t — rows 5000·t … 5000·t + 4999 — of the whole-array function of the arrays as the
    region finds them. -/
theorem flushed6_eq (c : Dev nD) (t : Fin cfg6.N) :
    (dat6 (F := Ideal) V c).flushed 6 t
      = ((cfg6.win 6).blk t).view.read (Elt Ideal)
          (Cert.Gcn.bnRelu (F := Ideal) (V c main_v93) (V c main_v75) (V c main_v96) (V c main_v97) (V c main_arg6) (V c main_arg7)) := by
  show (cfg6.win 6).cut (grid6.coords t) ((dat6 V c).after 6 t) = _
  rw [after6_6]
  unfold out6_6
  rw [View.canon_unit_zero zeroOffsets2]
  simp only [View.ld_unit_zero (S := S5000x64) zeroOffsets2, View.ld_unit_zero (S := S64) zeroOffsets1]
  obtain ⟨e0, e1, e2, e3, e4, e5, e6, e7, e8, e9⟩ := index_facts6 t
  funext j
  refine block6_eq (V c main_v93) (V c main_v75) (V c main_v96) (V c main_v97) (V c main_arg6) (V c main_arg7)
    (iblk6 V c 0 t) (iblk6 V c 1 t) (iblk6 V c 2 t) (iblk6 V c 3 t) (iblk6 V c 4 t) (iblk6 V c 5 t)
    (((cfg6.win 6).blk t).view.emb) (fun y => ?_) (fun y => ?_) (fun y => ?_) ?_ ?_ ?_ ?_ j
  · show win6_6.index t (1 : Fin 2) * 64 + 1 * (y 1).val = (y 1).val
    rw [e9]; omega
  · show V c main_v93 (((cfg6.win 0).blk t).view.emb y) = V c main_v93 (((cfg6.win 6).blk t).view.emb y)
    refine congrArg (V c main_v93) (funext fun a => Fin.ext ?_)
    match a with
    | ⟨0, _⟩ => show win6_0.index t (0 : Fin 2) * 5000 + 1 * (y 0).val = win6_6.index t (0 : Fin 2) * 5000 + 1 * (y 0).val; rw [e0]
    | ⟨1, _⟩ => show win6_0.index t (1 : Fin 2) * 64 + 1 * (y 1).val = win6_6.index t (1 : Fin 2) * 64 + 1 * (y 1).val; rw [e1]
  · show V c main_v75 (((cfg6.win 1).blk t).view.emb y) = V c main_v75 (((cfg6.win 6).blk t).view.emb y)
    refine congrArg (V c main_v75) (funext fun a => Fin.ext ?_)
    match a with
    | ⟨0, _⟩ => show win6_1.index t (0 : Fin 2) * 5000 + 1 * (y 0).val = win6_6.index t (0 : Fin 2) * 5000 + 1 * (y 0).val; rw [e2]
    | ⟨1, _⟩ => show win6_1.index t (1 : Fin 2) * 64 + 1 * (y 1).val = win6_6.index t (1 : Fin 2) * 64 + 1 * (y 1).val; rw [e3]
  · funext y
    show V c main_v96 (((cfg6.win 2).blk t).view.emb y) = V c main_v96 y
    refine congrArg (V c main_v96) (funext fun a => Fin.ext ?_)
    match a with
    | ⟨0, _⟩ => show win6_2.index t (0 : Fin 1) * 64 + 1 * (y 0).val = (y 0).val; rw [e4]; omega
  · funext y
    show V c main_v97 (((cfg6.win 3).blk t).view.emb y) = V c main_v97 y
    refine congrArg (V c main_v97) (funext fun a => Fin.ext ?_)
    match a with
    | ⟨0, _⟩ => show win6_3.index t (0 : Fin 1) * 64 + 1 * (y 0).val = (y 0).val; rw [e5]; omega
  · funext y
    show V c main_arg6 (((cfg6.win 4).blk t).view.emb y) = V c main_arg6 y
    refine congrArg (V c main_arg6) (funext fun a => Fin.ext ?_)
    match a with
    | ⟨0, _⟩ => show win6_4.index t (0 : Fin 1) * 64 + 1 * (y 0).val = (y 0).val; rw [e6]; omega
  · funext y
    show V c main_arg7 (((cfg6.win 5).blk t).view.emb y) = V c main_arg7 y
    refine congrArg (V c main_arg7) (funext fun a => Fin.ext ?_)
    match a with
    | ⟨0, _⟩ => show win6_5.index t (0 : Fin 1) * 64 + 1 * (y 0).val = (y 0).val; rw [e7]; omega

/-- An index of the array is in point t's block iff each coordinate is in the block's range on its axis. -/
theorem mem_block6 (t : Fin cfg6.N) (i : S50000x64.Idx) :
    i ∈ ((cfg6.win 6).blk t).view.set ↔ ∀ a : Fin 2, win6_6.index t a * S5000x64.size a ≤ (i a).val ∧ (i a).val < win6_6.index t a * S5000x64.size a + S5000x64.size a := by
  show i ∈ ((View.whole main_v98).slice (win6_6.rect t)).set ↔ _
  rw [View.set_slice_whole, Rect.mem_set_unit]
  exact Iff.rfl

/-- Every entry of the array lies in some point's block: row r is in the block of the point r / 5000. -/
theorem covered6 (i : S50000x64.Idx) :
    ∃ t : Fin cfg6.N, (cfg6.win 6).flush t = true ∧ i ∈ ((cfg6.win 6).blk t).view.set := by
  have hi0 : (i 0).val < 50000 := (i 0).isLt
  have hi1 : (i 1).val < 64 := (i 1).isLt
  obtain ⟨t, ht⟩ : ∃ t : Fin cfg6.N, t.val = (i 0).val / 5000 :=
    ⟨⟨(i 0).val / 5000, by show (i 0).val / 5000 < grid6.N; rw [N_6]; omega⟩, rfl⟩
  obtain ⟨-, -, -, -, -, -, -, -, e8, e9⟩ := index_facts6 t
  refine ⟨t, flush6_6 t, ?_⟩
  rw [mem_block6]
  intro a
  match a with
  | ⟨0, _⟩ => show win6_6.index t (0 : Fin 2) * 5000 ≤ (i 0).val ∧ (i 0).val < win6_6.index t (0 : Fin 2) * 5000 + 5000; rw [e8, ht]; omega
  | ⟨1, _⟩ => show win6_6.index t (1 : Fin 2) * 64 ≤ (i 1).val ∧ (i 1).val < win6_6.index t (1 : Fin 2) * 64 + 64; rw [e9]; omega

/-- THE ARRAY after the region: the output's ten blocks tile the 50000 rows, and each is its block of the whole-array
    function, so the array ends holding that function of the arrays the region found. -/
theorem bn6_arr (c : Dev nD) :
    (dat6 (F := Ideal) V c).arrAt 6 cfg6.N
      = Cert.Gcn.bnRelu (F := Ideal) (V c main_v93) (V c main_v75) (V c main_v96) (V c main_v97) (V c main_arg6) (V c main_arg7) :=
  (dat6 (F := Ideal) V c).arrAt_eq_of_cover 6 _ (fun t _ => flushed6_eq V c t) covered6

end Cert.KernelIdeal.RegionValue

end
-- ==== Proof.ChainLayer2.lean ====
/-
  One layer of the network, read off the run.  The layer starts from the boundary where its input features h sit in
  their buffer and ends five boundaries later: the weight matrix and the bias are sliced out of the stacked arguments;
  the linear region leaves t = h·W + b; the host aggregates t over the edges and takes the aggregate's column mean and
  column variance; the normalisation region leaves max ((a − mean)·rsqrt (var + ε)·γ + β, 0) + h.  Every step reads its
  operands at the boundary before it, where the earlier steps' lemmas say what they hold.
-/
import proofs.«407553_j68453188763742_4_alg».proof.Proof.ChainGraph
import proofs.«407553_j68453188763742_4_alg».proof.Proof.RegionLin5
import proofs.«407553_j68453188763742_4_alg».proof.Proof.RegionBn6

set_option maxRecDepth 16384

noncomputable section

namespace Cert.KernelIdeal.Chain

open Idealize.ShloMosaic Idealize.ShloMosaic.TcCoe Idealize.SL.Sem
open Cert.KernelIdeal Cert.KernelIdeal.Gen Cert.KernelIdeal.RegionValue

variable (m : (ℓ : Loc nD τ sig) → Buf (Elt Ideal) ℓ) (ρ : Dev nD → PrngReg) (c : Dev nD)

/-- If the features `h` sit in their buffer at the layer's first boundary, the layer's output buffer holds
    `layer h` (with this layer's slice of the stacked weights and biases) at its last. -/
theorem layer2_out (h : Vec Ideal S50000x64 .f32) (hh : W12 m ρ c (Proc.devRef .tc main_v75) = h) :
    W17 m ρ c (Proc.devRef .tc main_v98)
      = Cert.Gcn.layer h (m ((c : Thread nD τ).loc main_arg1))
          (Cert.Gcn.weight2 (m ((c : Thread nD τ).loc main_arg4))) (Cert.Gcn.bias2 (m ((c : Thread nD τ).loc main_arg5)))
          (m ((c : Thread nD τ).loc main_arg6)) (m ((c : Thread nD τ).loc main_arg7)) := by
  have kA := keeps_1_12 m ρ c
  have kB := keeps_1_14 m ρ c
  have kC := keeps_1_16 m ρ c
  -- the layer's weight matrix and bias, and h carried over the slicing
  have hw : W13 m ρ c (Proc.devRef .tc main_v77) = Cert.Gcn.weight2 (m ((c : Thread nD τ).loc main_arg4)) :=
    (weight_l2 (W12 m ρ c)).trans (by rw [kA.wts, arg4_at1])
  have hb : W13 m ρ c (Proc.devRef .tc main_v79) = Cert.Gcn.bias2 (m ((c : Thread nD τ).loc main_arg5)) :=
    (bias_l2 (W12 m ρ c)).trans (by rw [kA.bss, arg5_at1])
  have hh3 : W13 m ρ c (Proc.devRef .tc main_v75) = h :=
    (show StableHlo.after hostOps5 (W12 m ρ c) (Proc.devRef .tc main_v75) = W12 m ρ c (Proc.devRef .tc main_v75) by host_keeps).trans hh
  -- the linear region
  have ht : W14 m ρ c (Proc.devRef .tc main_v80)
      = Cert.Gcn.lin h (Cert.Gcn.weight2 (m ((c : Thread nD τ).loc main_arg4))) (Cert.Gcn.bias2 (m ((c : Thread nD τ).loc main_arg5))) := by
    rw [← hh3, ← hw, ← hb]
    exact (W14_arr m ρ c 3).trans (lin5_arr (V13 m ρ) c)
  have hh4 : W14 m ρ c (Proc.devRef .tc main_v75) = h :=
    ((W14_arr m ρ c 0).trans (((dat5 (V13 m ρ) c).arrAt_in 0 rfl _).trans (A_eq5 (V13 m ρ) c 0))).trans hh3
  -- the aggregate, its column mean, the zero
  have ha : W15 m ρ c (Proc.devRef .tc main_v93)
      = Cert.Gcn.aggregate (Cert.Gcn.lin h (Cert.Gcn.weight2 (m ((c : Thread nD τ).loc main_arg4))) (Cert.Gcn.bias2 (m ((c : Thread nD τ).loc main_arg5))))
          (m ((c : Thread nD τ).loc main_arg1)) := by
    rw [aggregate_eq]
    refine (agg_l2 (W14 m ρ c)).trans ?_
    rw [ht, kB.src, kB.dst, kB.nrm, src_at1, dst_at1, nrm_at1]
  have hmu : W15 m ρ c (Proc.devRef .tc main_v96)
      = Cert.Gcn.colMean (Cert.Gcn.aggregate (Cert.Gcn.lin h (Cert.Gcn.weight2 (m ((c : Thread nD τ).loc main_arg4))) (Cert.Gcn.bias2 (m ((c : Thread nD τ).loc main_arg5))))
          (m ((c : Thread nD τ).loc main_arg1))) := by
    rw [aggregate_eq]
    refine (mean_l2 (W14 m ρ c)).trans ?_
    rw [ht, kB.src, kB.dst, kB.nrm, src_at1, dst_at1, nrm_at1]
  have hz : W15 m ρ c (Proc.devRef .tc main_c_22) = constantI S_ 32 0#32 := zero_l2 (W14 m ρ c)
  have hh5 : W15 m ρ c (Proc.devRef .tc main_v75) = h :=
    (show StableHlo.after hostOps6 (W14 m ρ c) (Proc.devRef .tc main_v75) = W14 m ρ c (Proc.devRef .tc main_v75) by host_keeps).trans hh4
  -- the column variance, and the three carried over its operations
  have hv : W16 m ρ c (Proc.devRef .tc main_v97)
      = Cert.Gcn.colVar (Cert.Gcn.aggregate (Cert.Gcn.lin h (Cert.Gcn.weight2 (m ((c : Thread nD τ).loc main_arg4))) (Cert.Gcn.bias2 (m ((c : Thread nD τ).loc main_arg5))))
          (m ((c : Thread nD τ).loc main_arg1))) :=
    (var_l2 (W15 m ρ c) hz).trans (by rw [ha])
  have ha6 : W16 m ρ c (Proc.devRef .tc main_v93)
      = Cert.Gcn.aggregate (Cert.Gcn.lin h (Cert.Gcn.weight2 (m ((c : Thread nD τ).loc main_arg4))) (Cert.Gcn.bias2 (m ((c : Thread nD τ).loc main_arg5))))
          (m ((c : Thread nD τ).loc main_arg1)) :=
    (show StableHlo.after hostOps6_1 (W15 m ρ c) (Proc.devRef .tc main_v93) = W15 m ρ c (Proc.devRef .tc main_v93) by host_keeps).trans ha
  have hmu6 : W16 m ρ c (Proc.devRef .tc main_v96)
      = Cert.Gcn.colMean (Cert.Gcn.aggregate (Cert.Gcn.lin h (Cert.Gcn.weight2 (m ((c : Thread nD τ).loc main_arg4))) (Cert.Gcn.bias2 (m ((c : Thread nD τ).loc main_arg5))))
          (m ((c : Thread nD τ).loc main_arg1))) :=
    (show StableHlo.after hostOps6_1 (W15 m ρ c) (Proc.devRef .tc main_v96) = W15 m ρ c (Proc.devRef .tc main_v96) by host_keeps).trans hmu
  have hh6 : W16 m ρ c (Proc.devRef .tc main_v75) = h :=
    (show StableHlo.after hostOps6_1 (W15 m ρ c) (Proc.devRef .tc main_v75) = W15 m ρ c (Proc.devRef .tc main_v75) by host_keeps).trans hh5
  -- the normalisation region
  refine (W17_arr m ρ c 6).trans ((bn6_arr (V16 m ρ) c).trans ?_)
  show Cert.Gcn.bnRelu (W16 m ρ c (Proc.devRef .tc main_v93)) (W16 m ρ c (Proc.devRef .tc main_v75)) (W16 m ρ c (Proc.devRef .tc main_v96))
      (W16 m ρ c (Proc.devRef .tc main_v97)) (W16 m ρ c (Proc.devRef .tc main_arg6)) (W16 m ρ c (Proc.devRef .tc main_arg7)) = _
  rw [ha6, hh6, hmu6, hv, kC.gam, kC.bet, arg6_at1, arg7_at1]
  rfl

end Cert.KernelIdeal.Chain

end
-- ==== Proof.RegionEmbed.lean ====
/-
  The first kernel's output array: max (x·W + b, 0) over all 50000 nodes.

  The call works through the rows 5000 at a time, at ten grid points.  At point t it is handed rows
  5000·t … 5000·t + 4999 of x, all of W and all of b, and it writes rows 5000·t … 5000·t + 4999 of the output.  An
  entry of x·W + b reads x through one row alone, so what point t writes is exactly that block of rows of the
  whole-array function; and every row r lies in the block of point r / 5000, so the ten blocks fill the array.
-/
import proofs.«407553_j68453188763742_4_alg».proof.Proof.Gen.KernelIdeal.Frame
import proofs.«407553_j68453188763742_4_alg».proof.Proof.MatmulBias
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A whole block is loaded and stored at offset zero on every axis. -/
theorem embed_zero2 : (![0, 0] : Fin 2 → Nat) = fun _ => 0 := funext fun a => by fin_cases a <;> rfl
theorem embed_zero1 : (![0] : Fin 1 → Nat) = fun _ => 0 := funext fun a => by fin_cases a <;> rfl

/-- Where the blocks sit, decided over the ten points: at point t the block of x and the block of the output are
    block t along the rows; W and b are taken whole at every point. -/
theorem embed_blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

set_option maxHeartbeats 400000 in
/-- The block of W at any point is W, and the block of b is b. -/
theorem embed_wblock (c : Dev nD) (t : Fin cfg0.N) : (iblk0 V c 1 t : FVec Ideal S32x64 .f32) = V c main_arg2 := by
  obtain ⟨-, -, e2, e3, -, -, -⟩ := embed_blockIdx t
  funext y
  show V c main_arg2 (((cfg0.win 1).blk t).view.emb y) = V c main_arg2 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

set_option maxHeartbeats 400000 in
theorem embed_bblock (c : Dev nD) (t : Fin cfg0.N) : (iblk0 V c 2 t : FVec Ideal S64 .f32) = V c main_arg3 := by
  obtain ⟨-, -, -, -, e4, -, -⟩ := embed_blockIdx t
  funext y
  show V c main_arg3 (((cfg0.win 2).blk t).view.emb y) = V c main_arg3 y
  refine congrArg _ (funext fun a => Fin.ext ?_)
  match a with
  | ⟨0, _⟩ => show win0_2.index t (0 : Fin 1) * 64 + 1 * (y 0).val = (y 0).val; omega

set_option maxHeartbeats 400000 in
/-- Row p of the block of x at point t is row 5000·t + p of x. -/
theorem embed_xblock (c : Dev nD) (t : Fin cfg0.N) (ht : t.val * 5000 + 5000 ≤ 50000) (p : Fin 5000) (k : Fin 32) :
    (iblk0 V c 0 t : FVec Ideal S5000x32 .f32) (ix2 p k)
      = (V c main_arg0 : FVec Ideal S50000x32 .f32) (ix2 (⟨t.val * 5000 + p.val, by omega⟩ : Fin 50000) k) := by
  obtain ⟨e0, e1, -, -, -, -, -⟩ := embed_blockIdx t
  show V c main_arg0 (((cfg0.win 0).blk t).view.emb (ix2 p k)) = V c main_arg0 _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 32 + 1 * k.val = k.val; omega

set_option maxHeartbeats 400000 in
/-- WHAT POINT t WRITES BACK is block t of max (x·W + b, 0) of the arrays as the call finds them. -/
theorem embed_flushed (c : Dev nD) (t : Fin cfg0.N) :
    (dat0 V c).flushed 3 t = ((cfg0.win 3).blk t).view.read (Elt Ideal)
      (Cert.Gcn.embed (F := Ideal) (V c main_arg0) (V c main_arg2) (V c main_arg3)) := by
  have ht : t.val * 5000 + 5000 ≤ 50000 := by
    have h := lt_of_lt_of_eq t.isLt N_0
    omega
  show (cfg0.win 3).cut (grid0.coords t) ((dat0 V c).after 3 t) = _
  rw [after0_3]
  unfold out0_3
  rw [View.canon_unit_zero embed_zero2]
  simp only [View.ld_unit_zero (S := S5000x32) embed_zero2, View.ld_unit_zero (S := S32x64) embed_zero2,
    View.ld_unit_zero (S := S64) embed_zero1]
  obtain ⟨-, -, -, -, -, e5, e6⟩ := embed_blockIdx t
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
      = Cert.Gcn.embed (F := Ideal) (V c main_arg0) (V c main_arg2) (V c main_arg3) (((cfg0.win 3).blk t).view.emb (ix2 p q))
  rw [embed_wblock V c t, embed_bblock V c t]
  refine (embed_rows (V c main_arg0) (V c main_arg2) (V c main_arg3) (iblk0 V c 0 t) (t.val * 5000) ht
    (embed_xblock V c t ht) p q).trans ?_
  refine congrArg _ (funext fun a => Fin.ext ?_)
  match a with
  | ⟨0, _⟩ => show t.val * 5000 + p.val = win0_3.index t (0 : Fin 2) * 5000 + 1 * p.val; omega
  | ⟨1, _⟩ => show q.val = win0_3.index t (1 : Fin 2) * 64 + 1 * q.val; omega

/-- An index of the output array is in point t's block iff each coordinate is in the block's range on its axis. -/
theorem embed_mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v29).slice (win0_3.rect t)).set ↔ _
  rw [View.set_slice_whole, Rect.mem_set_unit]
  exact Iff.rfl

/-- Every row r is in the block of point r / 5000: the ten blocks fill the output array. -/
theorem embed_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; omega⟩
  obtain ⟨-, -, -, -, -, e5, e6⟩ := embed_blockIdx t
  have e5' : win0_3.index t (0 : Fin 2) = (i 0).val / 5000 := e5
  refine ⟨t, flush0_3 t, ?_⟩
  rw [embed_mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the call: max (x·W + b, 0) of the arrays as the call finds them. -/
theorem embed_arr (c : Dev nD) :
    (dat0 (F := Ideal) V c).arrAt 3 cfg0.N
      = Cert.Gcn.embed (F := Ideal) (V c main_arg0) (V c main_arg2) (V c main_arg3) :=
  (dat0 V c).arrAt_eq_of_cover 3 _ (fun t _ => embed_flushed V c t) embed_cover

end Cert.KernelIdeal.RegionValue

end
-- ==== Proof.Chain.lean ====
/-
  The kernel program's result, read off the run: the last region's output buffer at the last boundary holds the
  specification's network of the arrays the program was launched with.  The embedding region leaves
  max (x·W + b, 0); each of the three layers maps the features it finds to the next ones.
-/
import proofs.«407553_j68453188763742_4_alg».proof.Proof.ChainLayer0
import proofs.«407553_j68453188763742_4_alg».proof.Proof.ChainLayer1
import proofs.«407553_j68453188763742_4_alg».proof.Proof.ChainLayer2
import proofs.«407553_j68453188763742_4_alg».proof.Proof.RegionEmbed

set_option maxRecDepth 16384

noncomputable section

namespace Cert.KernelIdeal.Chain

open Idealize.ShloMosaic Idealize.ShloMosaic.TcCoe Idealize.SL.Sem
open Cert.KernelIdeal Cert.KernelIdeal.Gen Cert.KernelIdeal.RegionValue

variable (m : (ℓ : Loc nD τ sig) → Buf (Elt Ideal) ℓ) (ρ : Dev nD → PrngReg) (c : Dev nD)

/-- After the embedding region its output buffer holds max (x·W + b, 0) of the launch arrays. -/
theorem embed_at2 : W2 m ρ c (Proc.devRef .tc main_v29)
    = Cert.Gcn.embed (m ((c : Thread nD τ).loc main_arg0)) (m ((c : Thread nD τ).loc main_arg2)) (m ((c : Thread nD τ).loc main_arg3)) := by
  refine (W2_arr m ρ c 3).trans ((embed_arr (V1 m ρ) c).trans ?_)
  show Cert.Gcn.embed (W1 m ρ c (Proc.devRef .tc main_arg0)) (W1 m ρ c (Proc.devRef .tc main_arg2)) (W1 m ρ c (Proc.devRef .tc main_arg3)) = _
  rw [arg0_at1, arg2_at1, arg3_at1]

/-- The result buffer at the last boundary is the network of the launch arrays. -/
theorem result_eq : W17 m ρ c (Proc.devRef .tc main_v98)
    = Cert.Gcn.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  layer2_out m ρ c _ (layer1_out m ρ c _ (layer0_out m ρ c _ (embed_at2 m ρ c)))

end Cert.KernelIdeal.Chain

end
-- ==== Proof.RefOps.lean ====
import proofs.«407553_j68453188763742_4_alg».proof.Proof.Gen.ReferenceIdeal
import Idealize.ShloMosaic.Lib.StableHlo.Run

/-!
The reference program's straight line, listed.  Its @main is a sequence of host operations in four printed
pieces; three module-local functions are called from it (the clamp at zero four times, the column variance three
times, and inside the variance the guarded choice once).  A call runs the callee's operations on the buffers the
call's record names, so the whole program is ONE list of operations: the windows below hold them in program
order, each callee operation standing where its call stands, its buffer names replaced by the record's literal
references (typed as the callee types them).  After the windows: the program equals the run of the list, every
operation touches TensorCore references only, and so every fair execution ends with each buffer at the fold of
the operations' results over what the launch gave it.
-/

noncomputable section

namespace Cert.ReferenceIdeal.Hand

open Cert.ReferenceIdeal Cert.ReferenceIdeal.Gen Idealize.ShloMosaic Idealize.ShloMosaic.TcCoe Idealize.SL.Sem
open Idealize.ShloMosaic.StableHlo (seq seq_append after tcRefs run_seq launchContents)

variable {F : FTy → Type} [FloatOps F]

/-- Window 0: 62 operations. -/
abbrev w0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x3F800000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (maximumf : (⟨S50000, .f32⟩ : BufTy).Contents (Elt F) → (⟨S50000, .f32⟩ : BufTy).Contents (Elt F) → (⟨S50000, .f32⟩ : BufTy).Contents (Elt F)),
    StableHlo.unary main_v12 main_v13 (Host.rsqrt : (⟨S50000, .f32⟩ : BufTy).Contents (Elt F) → (⟨S50000, .f32⟩ : BufTy).Contents (Elt F)),
    StableHlo.nullary main_c (constantI S_ 32 0#32),
    StableHlo.unary main_c main_v14 (broadcastInDim S850000 ![] bcast_S_S850000 : (⟨S_, .i32⟩ : BufTy).Contents (Elt F) → (⟨S850000, .i32⟩ : BufTy).Contents (Elt F)),
    StableHlo.binary main_v3 main_v14 main_v15 (cmpi .slt : (⟨S850000, .i32⟩ : BufTy).Contents (Elt F) → (⟨S850000, .i32⟩ : BufTy).Contents (Elt F) → (⟨S850000, .i1⟩ : BufTy).Contents (Elt F)),
    StableHlo.nullary main_c_2 (constantI S_ 32 50000#32),
    StableHlo.unary main_c_2 main_v16 (broadcastInDim S850000 ![] bcast_S_S850000 : (⟨S_, .i32⟩ : BufTy).Contents (Elt F) → (⟨S850000, .i32⟩ : BufTy).Contents (Elt F)),
    StableHlo.binary main_v3 main_v16 main_v17 (addi : (⟨S850000, .i32⟩ : BufTy).Contents (Elt F) → (⟨S850000, .i32⟩ : BufTy).Contents (Elt F) → (⟨S850000, .i32⟩ : BufTy).Contents (Elt F)),
    StableHlo.ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v18 main_v19 (broadcastInDim S850000x1 ![0] bcast_S850000_S850000x1_0 : (⟨S850000, .i32⟩ : BufTy).Contents (Elt F) → (⟨S850000x1, .i32⟩ : BufTy).Contents (Elt F)),
    StableHlo.binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_3 (constantI S_ 32 0#32),
    StableHlo.unary main_c_3 main_v21 (broadcastInDim S850000 ![] bcast_S_S850000 : (⟨S_, .i32⟩ : BufTy).Contents (Elt F) → (⟨S850000, .i32⟩ : BufTy).Contents (Elt F)),
    StableHlo.binary main_v6 main_v21 main_v22 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v23 (broadcastInDim S850000 ![] bcast_S_S850000 : (⟨S_, .i32⟩ : BufTy).Contents (Elt F) → (⟨S850000, .i32⟩ : BufTy).Contents (Elt F)),
    StableHlo.binary main_v6 main_v23 main_v24 (addi : (⟨S850000, .i32⟩ : BufTy).Contents (Elt F) → (⟨S850000, .i32⟩ : BufTy).Contents (Elt F) → (⟨S850000, .i32⟩ : BufTy).Contents (Elt F)),
    StableHlo.ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v25 main_v26 (broadcastInDim S850000x1 ![0] bcast_S850000_S850000x1_0 : (⟨S850000, .i32⟩ : BufTy).Contents (Elt F) → (⟨S850000x1, .i32⟩ : BufTy).Contents (Elt F)),
    StableHlo.binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v20 main_v27 main_v28 (mulf : (⟨S850000, .f32⟩ : BufTy).Contents (Elt F) → (⟨S850000, .f32⟩ : BufTy).Contents (Elt F) → (⟨S850000, .f32⟩ : BufTy).Contents (Elt F)),
    StableHlo.binary main_arg0 main_arg2 main_v29 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.unary main_arg3 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S50000x64 ![0, 1] bcast_S1x64_S50000x64_0_1 : (⟨S1x64, .f32⟩ : BufTy).Contents (Elt F) → (⟨S50000x64, .f32⟩ : BufTy).Contents (Elt F)),
    StableHlo.binary main_v29 main_v31 main_v32 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x64, .f32⟩) (broadcastInDim S50000x64 ![] bcast_S_S50000x64),
    StableHlo.TRef.binary (.of main_v32 : StableHlo.TRef sig ⟨S50000x64, .f32⟩) (.of main_call0_v0 : StableHlo.TRef sig ⟨S50000x64, .f32⟩) (.of main_v33 : StableHlo.TRef sig ⟨S50000x64, .f32⟩) maximumf,
    StableHlo.unary main_arg4 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v34 main_v35 rfl shapeCasts_S1x64x64_S64x64,
    StableHlo.binary main_v33 main_v35 main_v36 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v37 ((extractStridedSlice S1x64 ![0, 0] · slices_S3x64_S1x64_0_0) : (⟨S3x64, .f32⟩ : BufTy).Contents (Elt F) → (⟨S1x64, .f32⟩ : BufTy).Contents (Elt F)),
    StableHlo.reshape main_v37 main_v38 rfl shapeCasts_S1x64_S64,
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S50000x64 ![0, 1] bcast_S1x64_S50000x64_0_1 : (⟨S1x64, .f32⟩ : BufTy).Contents (Elt F) → (⟨S50000x64, .f32⟩ : BufTy).Contents (Elt F)),
    StableHlo.binary main_v36 main_v40 main_v41 (addf : (⟨S50000x64, .f32⟩ : BufTy).Contents (Elt F) → (⟨S50000x64, .f32⟩ : BufTy).Contents (Elt F) → (⟨S50000x64, .f32⟩ : BufTy).Contents (Elt F)),
    StableHlo.nullary main_c_5 (constantI S_ 32 0#32),
    StableHlo.unary main_c_5 main_v42 (broadcastInDim S850000 ![] bcast_S_S850000 : (⟨S_, .i32⟩ : BufTy).Contents (Elt F) → (⟨S850000, .i32⟩ : BufTy).Contents (Elt F)),
    StableHlo.binary main_v3 main_v42 main_v43 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v44 (broadcastInDim S850000 ![] bcast_S_S850000 : (⟨S_, .i32⟩ : BufTy).Contents (Elt F) → (⟨S850000, .i32⟩ : BufTy).Contents (Elt F)),
    StableHlo.binary main_v3 main_v44 main_v45 (addi : (⟨S850000, .i32⟩ : BufTy).Contents (Elt F) → (⟨S850000, .i32⟩ : BufTy).Contents (Elt F) → (⟨S850000, .i32⟩ : BufTy).Contents (Elt F)),
    StableHlo.ternary main_v43 main_v45 main_v3 main_v46 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v46 main_v47 (broadcastInDim S850000x1 ![0] bcast_S850000_S850000x1_0 : (⟨S850000, .i32⟩ : BufTy).Contents (Elt F) → (⟨S850000x1, .i32⟩ : BufTy).Contents (Elt F)),
    StableHlo.binary main_v41 main_v47 main_v48 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v28 main_v49 (broadcastInDim S850000x1 ![0] bcast_S850000_S850000x1_0 : (⟨S850000, .f32⟩ : BufTy).Contents (Elt F) → (⟨S850000x1, .f32⟩ : BufTy).Contents (Elt F)),
    StableHlo.unary main_v49 main_v50 (broadcastInDim S850000x64 ![0, 1] bcast_S850000x1_S850000x64_0_1 : (⟨S850000x1, .f32⟩ : BufTy).Contents (Elt F) → (⟨S850000x64, .f32⟩ : BufTy).Contents (Elt F)) ]
/-- The buffers window 0's operations write, in order. -/
abbrev W0 : List (Ref sig .tc) :=
  [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29, main_v30, main_v31, main_v32, main_call0_cst, main_call0_v0, main_v33, main_v34, main_v35, main_v36, main_v37, main_v38, main_v39, main_v40, main_v41, main_c_5, main_v42, main_v43, main_c_6, main_v44, main_v45, main_v46, main_v47, main_v48, main_v49, main_v50]

/-- Window 1: 53 operations. -/
abbrev w1 : List (HloOp τ sig (Elt F)) :=
  [ StableHlo.binary main_v48 main_v50 main_v51 (mulf : (⟨S850000x64, .f32⟩ : BufTy).Contents (Elt F) → (⟨S850000x64, .f32⟩ : BufTy).Contents (Elt F) → (⟨S850000x64, .f32⟩ : BufTy).Contents (Elt F)),
    StableHlo.nullary main_cst_7 (constant S_ .f32 0x00000000#32),
    StableHlo.unary main_cst_7 main_v52 (broadcastInDim S50000x64 ![] bcast_S_S50000x64 : (⟨S_, .f32⟩ : BufTy).Contents (Elt F) → (⟨S50000x64, .f32⟩ : BufTy).Contents (Elt F)),
    StableHlo.unary main_v6 main_v53 (broadcastInDim S850000x1 ![0] bcast_S850000_S850000x1_0 : (⟨S850000, .i32⟩ : BufTy).Contents (Elt F) → (⟨S850000x1, .i32⟩ : BufTy).Contents (Elt F)),
    StableHlo.ternary main_v52 main_v53 main_v51 main_v54 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.nullary main_cst_8 (constant S_ .f32 0x00000000#32),
    StableHlo.binary main_v54 main_cst_8 main_v55 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_9 (constant S_ .f32 0x47435000#32),
    StableHlo.unary main_cst_9 main_v56 (broadcastInDim S64 ![] bcast_S_S64 : (⟨S_, .f32⟩ : BufTy).Contents (Elt F) → (⟨S64, .f32⟩ : BufTy).Contents (Elt F)),
    StableHlo.binary main_v55 main_v56 main_v57 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary (.of main_call1_cst : StableHlo.TRef sig ⟨S_, .f32⟩) (constant S_ .f32 0x00000000#32),
    StableHlo.TRef.binary (.of main_v54 : StableHlo.TRef sig ⟨S50000x64, .f32⟩) (.of main_call1_cst : StableHlo.TRef sig ⟨S_, .f32⟩) (.of main_call1_v0 : StableHlo.TRef sig ⟨S64, .f32⟩) (fun x v => Host.reduceAdd x v reducesTo_S50000x64_S64_d0 h_S_),
    StableHlo.TRef.unary (.of main_call1_v0 : StableHlo.TRef sig ⟨S64, .f32⟩) (.of main_call1_v1 : StableHlo.TRef sig ⟨S1x64, .f32⟩) (broadcastInDim S1x64 ![1] bcast_S64_S1x64_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x64, .f32⟩) (broadcastInDim S1x64 ![] bcast_S_S1x64),
    StableHlo.TRef.binary (.of main_call1_v1 : StableHlo.TRef sig ⟨S1x64, .f32⟩) (.of main_call1_v2 : StableHlo.TRef sig ⟨S1x64, .f32⟩) (.of main_call1_v3 : StableHlo.TRef sig ⟨S1x64, .f32⟩) Host.divf,
    StableHlo.TRef.unary (.of main_call1_v3 : StableHlo.TRef sig ⟨S1x64, .f32⟩) (.of main_call1_v4 : StableHlo.TRef sig ⟨S50000x64, .f32⟩) (broadcastInDim S50000x64 ![0, 1] bcast_S1x64_S50000x64_0_1),
    StableHlo.TRef.binary (.of main_v54 : StableHlo.TRef sig ⟨S50000x64, .f32⟩) (.of main_call1_v4 : StableHlo.TRef sig ⟨S50000x64, .f32⟩) (.of main_call1_v5 : StableHlo.TRef sig ⟨S50000x64, .f32⟩) subf,
    StableHlo.TRef.binary (.of main_call1_v5 : StableHlo.TRef sig ⟨S50000x64, .f32⟩) (.of main_call1_v5 : StableHlo.TRef sig ⟨S50000x64, .f32⟩) (.of main_call1_v6 : StableHlo.TRef sig ⟨S50000x64, .f32⟩) mulf,
    StableHlo.TRef.unary (.of main_c_10 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x64, .f32⟩) (.of main_call1_cst_2 : StableHlo.TRef sig ⟨S_, .f32⟩) (.of main_call1_v9 : StableHlo.TRef sig ⟨S64, .f32⟩) (fun x v => Host.reduceAdd x v reducesTo_S50000x64_S64_d0 h_S_),
    StableHlo.TRef.unary (.of main_call1_v8 : StableHlo.TRef sig ⟨S_, .f32⟩) (.of main_call1_v10 : StableHlo.TRef sig ⟨S64, .f32⟩) (broadcastInDim S64 ![] bcast_S_S64),
    StableHlo.TRef.binary (.of main_call1_v9 : StableHlo.TRef sig ⟨S64, .f32⟩) (.of main_call1_v10 : StableHlo.TRef sig ⟨S64, .f32⟩) (.of main_call1_v11 : StableHlo.TRef sig ⟨S64, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S64, .f32⟩) (broadcastInDim S64 ![] bcast_S_S64),
    StableHlo.TRef.ternary (.of main_call1_v12 : StableHlo.TRef sig ⟨S_, .i1⟩) (.of main_call1_v11 : StableHlo.TRef sig ⟨S64, .f32⟩) (.of main_call1_call0_v1 : StableHlo.TRef sig ⟨S64, .f32⟩) (.of main_v58 : StableHlo.TRef sig ⟨S64, .f32⟩) (fun p a b => select (broadcastInDim S64 ![] bcast_S_S64 p) a b),
    StableHlo.unary main_v57 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S50000x64 ![0, 1] bcast_S1x64_S50000x64_0_1 : (⟨S1x64, .f32⟩ : BufTy).Contents (Elt F) → (⟨S50000x64, .f32⟩ : BufTy).Contents (Elt F)),
    StableHlo.binary main_v54 main_v60 main_v61 (subf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x3727C5AC#32),
    StableHlo.unary main_cst_11 main_v62 (broadcastInDim S64 ![] bcast_S_S64 : (⟨S_, .f32⟩ : BufTy).Contents (Elt F) → (⟨S64, .f32⟩ : BufTy).Contents (Elt F)),
    StableHlo.binary main_v58 main_v62 main_v63 (addf : (⟨S64, .f32⟩ : BufTy).Contents (Elt F) → (⟨S64, .f32⟩ : BufTy).Contents (Elt F) → (⟨S64, .f32⟩ : BufTy).Contents (Elt F)),
    StableHlo.unary main_v63 main_v64 (Host.rsqrt : (⟨S64, .f32⟩ : BufTy).Contents (Elt F) → (⟨S64, .f32⟩ : BufTy).Contents (Elt F)),
    StableHlo.unary main_v64 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v66 main_v67 (mulf : (⟨S50000x64, .f32⟩ : BufTy).Contents (Elt F) → (⟨S50000x64, .f32⟩ : BufTy).Contents (Elt F) → (⟨S50000x64, .f32⟩ : BufTy).Contents (Elt F)),
    StableHlo.unary main_arg6 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S50000x64 ![0, 1] bcast_S1x64_S50000x64_0_1 : (⟨S1x64, .f32⟩ : BufTy).Contents (Elt F) → (⟨S50000x64, .f32⟩ : BufTy).Contents (Elt F)),
    StableHlo.binary main_v67 main_v69 main_v70 (mulf : (⟨S50000x64, .f32⟩ : BufTy).Contents (Elt F) → (⟨S50000x64, .f32⟩ : BufTy).Contents (Elt F) → (⟨S50000x64, .f32⟩ : BufTy).Contents (Elt F)),
    StableHlo.unary main_arg7 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S50000x64 ![0, 1] bcast_S1x64_S50000x64_0_1 : (⟨S1x64, .f32⟩ : BufTy).Contents (Elt F) → (⟨S50000x64, .f32⟩ : BufTy).Contents (Elt F)),
    StableHlo.binary main_v70 main_v72 main_v73 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x64, .f32⟩) (broadcastInDim S50000x64 ![] bcast_S_S50000x64),
    StableHlo.TRef.binary (.of main_v73 : StableHlo.TRef sig ⟨S50000x64, .f32⟩) (.of main_call2_v0 : StableHlo.TRef sig ⟨S50000x64, .f32⟩) (.of main_v74 : StableHlo.TRef sig ⟨S50000x64, .f32⟩) maximumf,
    StableHlo.binary main_v74 main_v33 main_v75 (addf : (⟨S50000x64, .f32⟩ : BufTy).Contents (Elt F) → (⟨S50000x64, .f32⟩ : BufTy).Contents (Elt F) → (⟨S50000x64, .f32⟩ : BufTy).Contents (Elt F)) ]
/-- The buffers window 1's operations write, in order. -/
abbrev W1 : List (Ref sig .tc) :=
  [main_v51, main_cst_7, main_v52, main_v53, main_v54, main_cst_8, main_v55, main_cst_9, main_v56, main_v57, main_c_10, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v58, main_v59, main_v60, main_v61, main_cst_11, main_v62, main_v63, main_v64, main_v65, main_v66, main_v67, main_v68, main_v69, main_v70, main_v71, main_v72, main_v73, main_call2_cst, main_call2_v0, main_v74, main_v75]

/-- Window 2: 30 operations. -/
abbrev w2 : List (HloOp τ sig (Elt F)) :=
  [ StableHlo.unary main_arg4 main_v76 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v76 main_v77 rfl shapeCasts_S1x64x64_S64x64,
    StableHlo.binary main_v75 main_v77 main_v78 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v79 ((extractStridedSlice S1x64 ![1, 0] · slices_S3x64_S1x64_1_0) : (⟨S3x64, .f32⟩ : BufTy).Contents (Elt F) → (⟨S1x64, .f32⟩ : BufTy).Contents (Elt F)),
    StableHlo.reshape main_v79 main_v80 rfl shapeCasts_S1x64_S64,
    StableHlo.unary main_v80 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S50000x64 ![0, 1] bcast_S1x64_S50000x64_0_1 : (⟨S1x64, .f32⟩ : BufTy).Contents (Elt F) → (⟨S50000x64, .f32⟩ : BufTy).Contents (Elt F)),
    StableHlo.binary main_v78 main_v82 main_v83 (addf : (⟨S50000x64, .f32⟩ : BufTy).Contents (Elt F) → (⟨S50000x64, .f32⟩ : BufTy).Contents (Elt F) → (⟨S50000x64, .f32⟩ : BufTy).Contents (Elt F)),
    StableHlo.nullary main_c_12 (constantI S_ 32 0#32),
    StableHlo.unary main_c_12 main_v84 (broadcastInDim S850000 ![] bcast_S_S850000 : (⟨S_, .i32⟩ : BufTy).Contents (Elt F) → (⟨S850000, .i32⟩ : BufTy).Contents (Elt F)),
    StableHlo.binary main_v3 main_v84 main_v85 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v86 (broadcastInDim S850000 ![] bcast_S_S850000 : (⟨S_, .i32⟩ : BufTy).Contents (Elt F) → (⟨S850000, .i32⟩ : BufTy).Contents (Elt F)),
    StableHlo.binary main_v3 main_v86 main_v87 (addi : (⟨S850000, .i32⟩ : BufTy).Contents (Elt F) → (⟨S850000, .i32⟩ : BufTy).Contents (Elt F) → (⟨S850000, .i32⟩ : BufTy).Contents (Elt F)),
    StableHlo.ternary main_v85 main_v87 main_v3 main_v88 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v88 main_v89 (broadcastInDim S850000x1 ![0] bcast_S850000_S850000x1_0 : (⟨S850000, .i32⟩ : BufTy).Contents (Elt F) → (⟨S850000x1, .i32⟩ : BufTy).Contents (Elt F)),
    StableHlo.binary main_v83 main_v89 main_v90 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v28 main_v91 (broadcastInDim S850000x1 ![0] bcast_S850000_S850000x1_0 : (⟨S850000, .f32⟩ : BufTy).Contents (Elt F) → (⟨S850000x1, .f32⟩ : BufTy).Contents (Elt F)),
    StableHlo.unary main_v91 main_v92 (broadcastInDim S850000x64 ![0, 1] bcast_S850000x1_S850000x64_0_1 : (⟨S850000x1, .f32⟩ : BufTy).Contents (Elt F) → (⟨S850000x64, .f32⟩ : BufTy).Contents (Elt F)),
    StableHlo.binary main_v90 main_v92 main_v93 (mulf : (⟨S850000x64, .f32⟩ : BufTy).Contents (Elt F) → (⟨S850000x64, .f32⟩ : BufTy).Contents (Elt F) → (⟨S850000x64, .f32⟩ : BufTy).Contents (Elt F)),
    StableHlo.nullary main_cst_14 (constant S_ .f32 0x00000000#32),
    StableHlo.unary main_cst_14 main_v94 (broadcastInDim S50000x64 ![] bcast_S_S50000x64 : (⟨S_, .f32⟩ : BufTy).Contents (Elt F) → (⟨S50000x64, .f32⟩ : BufTy).Contents (Elt F)),
    StableHlo.unary main_v6 main_v95 (broadcastInDim S850000x1 ![0] bcast_S850000_S850000x1_0 : (⟨S850000, .i32⟩ : BufTy).Contents (Elt F) → (⟨S850000x1, .i32⟩ : BufTy).Contents (Elt F)),
    StableHlo.ternary main_v94 main_v95 main_v93 main_v96 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.nullary main_cst_15 (constant S_ .f32 0x00000000#32),
    StableHlo.binary main_v96 main_cst_15 main_v97 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_16 (constant S_ .f32 0x47435000#32),
    StableHlo.unary main_cst_16 main_v98 (broadcastInDim S64 ![] bcast_S_S64 : (⟨S_, .f32⟩ : BufTy).Contents (Elt F) → (⟨S64, .f32⟩ : BufTy).Contents (Elt F)),
    StableHlo.binary main_v97 main_v98 main_v99 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32) ]
/-- The buffers window 2's operations write, in order. -/
abbrev W2 : List (Ref sig .tc) :=
  [main_v76, main_v77, main_v78, main_v79, main_v80, main_v81, main_v82, main_v83, main_c_12, main_v84, main_v85, main_c_13, main_v86, main_v87, main_v88, main_v89, main_v90, main_v91, main_v92, main_v93, main_cst_14, main_v94, main_v95, main_v96, main_cst_15, main_v97, main_cst_16, main_v98, main_v99, main_c_17]

/-- Window 3: 42 operations. -/
abbrev w3 : List (HloOp τ sig (Elt F)) :=
  [ StableHlo.TRef.nullary (.of main_call3_cst : StableHlo.TRef sig ⟨S_, .f32⟩) (constant S_ .f32 0x00000000#32),
    StableHlo.TRef.binary (.of main_v96 : StableHlo.TRef sig ⟨S50000x64, .f32⟩) (.of main_call3_cst : StableHlo.TRef sig ⟨S_, .f32⟩) (.of main_call3_v0 : StableHlo.TRef sig ⟨S64, .f32⟩) (fun x v => Host.reduceAdd x v reducesTo_S50000x64_S64_d0 h_S_),
    StableHlo.TRef.unary (.of main_call3_v0 : StableHlo.TRef sig ⟨S64, .f32⟩) (.of main_call3_v1 : StableHlo.TRef sig ⟨S1x64, .f32⟩) (broadcastInDim S1x64 ![1] bcast_S64_S1x64_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x64, .f32⟩) (broadcastInDim S1x64 ![] bcast_S_S1x64),
    StableHlo.TRef.binary (.of main_call3_v1 : StableHlo.TRef sig ⟨S1x64, .f32⟩) (.of main_call3_v2 : StableHlo.TRef sig ⟨S1x64, .f32⟩) (.of main_call3_v3 : StableHlo.TRef sig ⟨S1x64, .f32⟩) Host.divf,
    StableHlo.TRef.unary (.of main_call3_v3 : StableHlo.TRef sig ⟨S1x64, .f32⟩) (.of main_call3_v4 : StableHlo.TRef sig ⟨S50000x64, .f32⟩) (broadcastInDim S50000x64 ![0, 1] bcast_S1x64_S50000x64_0_1),
    StableHlo.TRef.binary (.of main_v96 : StableHlo.TRef sig ⟨S50000x64, .f32⟩) (.of main_call3_v4 : StableHlo.TRef sig ⟨S50000x64, .f32⟩) (.of main_call3_v5 : StableHlo.TRef sig ⟨S50000x64, .f32⟩) subf,
    StableHlo.TRef.binary (.of main_call3_v5 : StableHlo.TRef sig ⟨S50000x64, .f32⟩) (.of main_call3_v5 : StableHlo.TRef sig ⟨S50000x64, .f32⟩) (.of main_call3_v6 : StableHlo.TRef sig ⟨S50000x64, .f32⟩) mulf,
    StableHlo.TRef.unary (.of main_c_17 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x64, .f32⟩) (.of main_call3_cst_2 : StableHlo.TRef sig ⟨S_, .f32⟩) (.of main_call3_v9 : StableHlo.TRef sig ⟨S64, .f32⟩) (fun x v => Host.reduceAdd x v reducesTo_S50000x64_S64_d0 h_S_),
    StableHlo.TRef.unary (.of main_call3_v8 : StableHlo.TRef sig ⟨S_, .f32⟩) (.of main_call3_v10 : StableHlo.TRef sig ⟨S64, .f32⟩) (broadcastInDim S64 ![] bcast_S_S64),
    StableHlo.TRef.binary (.of main_call3_v9 : StableHlo.TRef sig ⟨S64, .f32⟩) (.of main_call3_v10 : StableHlo.TRef sig ⟨S64, .f32⟩) (.of main_call3_v11 : StableHlo.TRef sig ⟨S64, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S64, .f32⟩) (broadcastInDim S64 ![] bcast_S_S64),
    StableHlo.TRef.ternary (.of main_call3_v12 : StableHlo.TRef sig ⟨S_, .i1⟩) (.of main_call3_v11 : StableHlo.TRef sig ⟨S64, .f32⟩) (.of main_call3_call0_v1 : StableHlo.TRef sig ⟨S64, .f32⟩) (.of main_v100 : StableHlo.TRef sig ⟨S64, .f32⟩) (fun p a b => select (broadcastInDim S64 ![] bcast_S_S64 p) a b),
    StableHlo.unary main_v99 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v96 main_v102 main_v103 (subf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3727C5AC#32),
    StableHlo.unary main_cst_18 main_v104 (broadcastInDim S64 ![] bcast_S_S64 : (⟨S_, .f32⟩ : BufTy).Contents (Elt F) → (⟨S64, .f32⟩ : BufTy).Contents (Elt F)),
    StableHlo.binary main_v100 main_v104 main_v105 (addf : (⟨S64, .f32⟩ : BufTy).Contents (Elt F) → (⟨S64, .f32⟩ : BufTy).Contents (Elt F) → (⟨S64, .f32⟩ : BufTy).Contents (Elt F)),
    StableHlo.unary main_v105 main_v106 (Host.rsqrt : (⟨S64, .f32⟩ : BufTy).Contents (Elt F) → (⟨S64, .f32⟩ : BufTy).Contents (Elt F)),
    StableHlo.unary main_v106 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S50000x64 ![0, 1] bcast_S1x64_S50000x64_0_1 : (⟨S1x64, .f32⟩ : BufTy).Contents (Elt F) → (⟨S50000x64, .f32⟩ : BufTy).Contents (Elt F)),
    StableHlo.binary main_v103 main_v108 main_v109 (mulf : (⟨S50000x64, .f32⟩ : BufTy).Contents (Elt F) → (⟨S50000x64, .f32⟩ : BufTy).Contents (Elt F) → (⟨S50000x64, .f32⟩ : BufTy).Contents (Elt F)),
    StableHlo.unary main_arg6 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v109 main_v111 main_v112 (mulf : (⟨S50000x64, .f32⟩ : BufTy).Contents (Elt F) → (⟨S50000x64, .f32⟩ : BufTy).Contents (Elt F) → (⟨S50000x64, .f32⟩ : BufTy).Contents (Elt F)),
    StableHlo.unary main_arg7 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v114 main_v115 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x64, .f32⟩) (broadcastInDim S50000x64 ![] bcast_S_S50000x64),
    StableHlo.TRef.binary (.of main_v115 : StableHlo.TRef sig ⟨S50000x64, .f32⟩) (.of main_call4_v0 : StableHlo.TRef sig ⟨S50000x64, .f32⟩) (.of main_v116 : StableHlo.TRef sig ⟨S50000x64, .f32⟩) maximumf,
    StableHlo.binary main_v116 main_v75 main_v117 (addf : (⟨S50000x64, .f32⟩ : BufTy).Contents (Elt F) → (⟨S50000x64, .f32⟩ : BufTy).Contents (Elt F) → (⟨S50000x64, .f32⟩ : BufTy).Contents (Elt F)) ]
/-- The buffers window 3's operations write, in order. -/
abbrev W3 : List (Ref sig .tc) :=
  [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v100, main_v101, main_v102, main_v103, main_cst_18, main_v104, main_v105, main_v106, main_v107, main_v108, main_v109, main_v110, main_v111, main_v112, main_v113, main_v114, main_v115, main_call4_cst, main_call4_v0, main_v116, main_v117]

/-- Window 4: 62 operations. -/
abbrev w4 : List (HloOp τ sig (Elt F)) :=
  [ StableHlo.unary main_arg4 main_v118 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v118 main_v119 rfl shapeCasts_S1x64x64_S64x64,
    StableHlo.binary main_v117 main_v119 main_v120 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v121 ((extractStridedSlice S1x64 ![2, 0] · slices_S3x64_S1x64_2_0) : (⟨S3x64, .f32⟩ : BufTy).Contents (Elt F) → (⟨S1x64, .f32⟩ : BufTy).Contents (Elt F)),
    StableHlo.reshape main_v121 main_v122 rfl shapeCasts_S1x64_S64,
    StableHlo.unary main_v122 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),
    StableHlo.binary main_v120 main_v124 main_v125 (addf : (⟨S50000x64, .f32⟩ : BufTy).Contents (Elt F) → (⟨S50000x64, .f32⟩ : BufTy).Contents (Elt F) → (⟨S50000x64, .f32⟩ : BufTy).Contents (Elt F)),
    StableHlo.nullary main_c_19 (constantI S_ 32 0#32),
    StableHlo.unary main_c_19 main_v126 (broadcastInDim S850000 ![] bcast_S_S850000 : (⟨S_, .i32⟩ : BufTy).Contents (Elt F) → (⟨S850000, .i32⟩ : BufTy).Contents (Elt F)),
    StableHlo.binary main_v3 main_v126 main_v127 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v128 (broadcastInDim S850000 ![] bcast_S_S850000 : (⟨S_, .i32⟩ : BufTy).Contents (Elt F) → (⟨S850000, .i32⟩ : BufTy).Contents (Elt F)),
    StableHlo.binary main_v3 main_v128 main_v129 (addi : (⟨S850000, .i32⟩ : BufTy).Contents (Elt F) → (⟨S850000, .i32⟩ : BufTy).Contents (Elt F) → (⟨S850000, .i32⟩ : BufTy).Contents (Elt F)),
    StableHlo.ternary main_v127 main_v129 main_v3 main_v130 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v130 main_v131 (broadcastInDim S850000x1 ![0] bcast_S850000_S850000x1_0 : (⟨S850000, .i32⟩ : BufTy).Contents (Elt F) → (⟨S850000x1, .i32⟩ : BufTy).Contents (Elt F)),
    StableHlo.binary main_v125 main_v131 main_v132 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v28 main_v133 (broadcastInDim S850000x1 ![0] bcast_S850000_S850000x1_0 : (⟨S850000, .f32⟩ : BufTy).Contents (Elt F) → (⟨S850000x1, .f32⟩ : BufTy).Contents (Elt F)),
    StableHlo.unary main_v133 main_v134 (broadcastInDim S850000x64 ![0, 1] bcast_S850000x1_S850000x64_0_1 : (⟨S850000x1, .f32⟩ : BufTy).Contents (Elt F) → (⟨S850000x64, .f32⟩ : BufTy).Contents (Elt F)),
    StableHlo.binary main_v132 main_v134 main_v135 (mulf : (⟨S850000x64, .f32⟩ : BufTy).Contents (Elt F) → (⟨S850000x64, .f32⟩ : BufTy).Contents (Elt F) → (⟨S850000x64, .f32⟩ : BufTy).Contents (Elt F)),
    StableHlo.nullary main_cst_21 (constant S_ .f32 0x00000000#32),
    StableHlo.unary main_cst_21 main_v136 (broadcastInDim S50000x64 ![] bcast_S_S50000x64 : (⟨S_, .f32⟩ : BufTy).Contents (Elt F) → (⟨S50000x64, .f32⟩ : BufTy).Contents (Elt F)),
    StableHlo.unary main_v6 main_v137 (broadcastInDim S850000x1 ![0] bcast_S850000_S850000x1_0 : (⟨S850000, .i32⟩ : BufTy).Contents (Elt F) → (⟨S850000x1, .i32⟩ : BufTy).Contents (Elt F)),
    StableHlo.ternary main_v136 main_v137 main_v135 main_v138 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.nullary main_cst_22 (constant S_ .f32 0x00000000#32),
    StableHlo.binary main_v138 main_cst_22 main_v139 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_23 (constant S_ .f32 0x47435000#32),
    StableHlo.unary main_cst_23 main_v140 (broadcastInDim S64 ![] bcast_S_S64 : (⟨S_, .f32⟩ : BufTy).Contents (Elt F) → (⟨S64, .f32⟩ : BufTy).Contents (Elt F)),
    StableHlo.binary main_v139 main_v140 main_v141 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary (.of main_call5_cst : StableHlo.TRef sig ⟨S_, .f32⟩) (constant S_ .f32 0x00000000#32),
    StableHlo.TRef.binary (.of main_v138 : StableHlo.TRef sig ⟨S50000x64, .f32⟩) (.of main_call5_cst : StableHlo.TRef sig ⟨S_, .f32⟩) (.of main_call5_v0 : StableHlo.TRef sig ⟨S64, .f32⟩) (fun x v => Host.reduceAdd x v reducesTo_S50000x64_S64_d0 h_S_),
    StableHlo.TRef.unary (.of main_call5_v0 : StableHlo.TRef sig ⟨S64, .f32⟩) (.of main_call5_v1 : StableHlo.TRef sig ⟨S1x64, .f32⟩) (broadcastInDim S1x64 ![1] bcast_S64_S1x64_1),
    StableHlo.TRef.nullary (.of main_call5_cst_0 : StableHlo.TRef sig ⟨S_, .f32⟩) (constant S_ .f32 0x47435000#32),
    StableHlo.TRef.unary (.of main_call5_cst_0 : StableHlo.TRef sig ⟨S_, .f32⟩) (.of main_call5_v2 : StableHlo.TRef sig ⟨S1x64, .f32⟩) (broadcastInDim S1x64 ![] bcast_S_S1x64),
    StableHlo.TRef.binary (.of main_call5_v1 : StableHlo.TRef sig ⟨S1x64, .f32⟩) (.of main_call5_v2 : StableHlo.TRef sig ⟨S1x64, .f32⟩) (.of main_call5_v3 : StableHlo.TRef sig ⟨S1x64, .f32⟩) Host.divf,
    StableHlo.TRef.unary (.of main_call5_v3 : StableHlo.TRef sig ⟨S1x64, .f32⟩) (.of main_call5_v4 : StableHlo.TRef sig ⟨S50000x64, .f32⟩) (broadcastInDim S50000x64 ![0, 1] bcast_S1x64_S50000x64_0_1),
    StableHlo.TRef.binary (.of main_v138 : StableHlo.TRef sig ⟨S50000x64, .f32⟩) (.of main_call5_v4 : StableHlo.TRef sig ⟨S50000x64, .f32⟩) (.of main_call5_v5 : StableHlo.TRef sig ⟨S50000x64, .f32⟩) subf,
    StableHlo.TRef.binary (.of main_call5_v5 : StableHlo.TRef sig ⟨S50000x64, .f32⟩) (.of main_call5_v5 : StableHlo.TRef sig ⟨S50000x64, .f32⟩) (.of main_call5_v6 : StableHlo.TRef sig ⟨S50000x64, .f32⟩) mulf,
    StableHlo.TRef.unary (.of main_c_24 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x47435000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S50000x64, .f32⟩) (.of main_call5_cst_2 : StableHlo.TRef sig ⟨S_, .f32⟩) (.of main_call5_v9 : StableHlo.TRef sig ⟨S64, .f32⟩) (fun x v => Host.reduceAdd x v reducesTo_S50000x64_S64_d0 h_S_),
    StableHlo.TRef.unary (.of main_call5_v8 : StableHlo.TRef sig ⟨S_, .f32⟩) (.of main_call5_v10 : StableHlo.TRef sig ⟨S64, .f32⟩) (broadcastInDim S64 ![] bcast_S_S64),
    StableHlo.TRef.binary (.of main_call5_v9 : StableHlo.TRef sig ⟨S64, .f32⟩) (.of main_call5_v10 : StableHlo.TRef sig ⟨S64, .f32⟩) (.of main_call5_v11 : StableHlo.TRef sig ⟨S64, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S64, .f32⟩) (broadcastInDim S64 ![] bcast_S_S64),
    StableHlo.TRef.ternary (.of main_call5_v12 : StableHlo.TRef sig ⟨S_, .i1⟩) (.of main_call5_v11 : StableHlo.TRef sig ⟨S64, .f32⟩) (.of main_call5_call0_v1 : StableHlo.TRef sig ⟨S64, .f32⟩) (.of main_v142 : StableHlo.TRef sig ⟨S64, .f32⟩) (fun p a b => select (broadcastInDim S64 ![] bcast_S_S64 p) a b),
    StableHlo.unary main_v141 main_v143 (broadcastInDim S1x64 ![1] bcast_S64_S1x64_1 : (⟨S64, .f32⟩ : BufTy).Contents (Elt F) → (⟨S1x64, .f32⟩ : BufTy).Contents (Elt F)),
    StableHlo.unary main_v143 main_v144 (broadcastInDim S50000x64 ![0, 1] bcast_S1x64_S50000x64_0_1 : (⟨S1x64, .f32⟩ : BufTy).Contents (Elt F) → (⟨S50000x64, .f32⟩ : BufTy).Contents (Elt F)),
    StableHlo.binary main_v138 main_v144 main_v145 (subf : (⟨S50000x64, .f32⟩ : BufTy).Contents (Elt F) → (⟨S50000x64, .f32⟩ : BufTy).Contents (Elt F) → (⟨S50000x64, .f32⟩ : BufTy).Contents (Elt F)),
    StableHlo.nullary main_cst_25 (constant S_ .f32 0x3727C5AC#32),
    StableHlo.unary main_cst_25 main_v146 (broadcastInDim S64 ![] bcast_S_S64 : (⟨S_, .f32⟩ : BufTy).Contents (Elt F) → (⟨S64, .f32⟩ : BufTy).Contents (Elt F)),
    StableHlo.binary main_v142 main_v146 main_v147 (addf : (⟨S64, .f32⟩ : BufTy).Contents (Elt F) → (⟨S64, .f32⟩ : BufTy).Contents (Elt F) → (⟨S64, .f32⟩ : BufTy).Contents (Elt F)),
    StableHlo.unary main_v147 main_v148 (Host.rsqrt : (⟨S64, .f32⟩ : BufTy).Contents (Elt F) → (⟨S64, .f32⟩ : BufTy).Contents (Elt F)),
    StableHlo.unary main_v148 main_v149 (broadcastInDim S1x64 ![1] bcast_S64_S1x64_1 : (⟨S64, .f32⟩ : BufTy).Contents (Elt F) → (⟨S1x64, .f32⟩ : BufTy).Contents (Elt F)),
    StableHlo.unary main_v149 main_v150 (broadcastInDim S50000x64 ![0, 1] bcast_S1x64_S50000x64_0_1 : (⟨S1x64, .f32⟩ : BufTy).Contents (Elt F) → (⟨S50000x64, .f32⟩ : BufTy).Contents (Elt F)),
    StableHlo.binary main_v145 main_v150 main_v151 (mulf : (⟨S50000x64, .f32⟩ : BufTy).Contents (Elt F) → (⟨S50000x64, .f32⟩ : BufTy).Contents (Elt F) → (⟨S50000x64, .f32⟩ : BufTy).Contents (Elt F)) ]
/-- The buffers window 4's operations write, in order. -/
abbrev W4 : List (Ref sig .tc) :=
  [main_v118, main_v119, main_v120, main_v121, main_v122, main_v123, main_v124, main_v125, main_c_19, main_v126, main_v127, main_c_20, main_v128, main_v129, main_v130, main_v131, main_v132, main_v133, main_v134, main_v135, main_cst_21, main_v136, main_v137, main_v138, main_cst_22, main_v139, main_cst_23, main_v140, main_v141, main_c_24, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v142, main_v143, main_v144, main_v145, main_cst_25, main_v146, main_v147, main_v148, main_v149, main_v150, main_v151]

/-- Window 5: 10 operations. -/
abbrev w5 : List (HloOp τ sig (Elt F)) :=
  [ StableHlo.unary main_arg6 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S50000x64 ![0, 1] bcast_S1x64_S50000x64_0_1 : (⟨S1x64, .f32⟩ : BufTy).Contents (Elt F) → (⟨S50000x64, .f32⟩ : BufTy).Contents (Elt F)),
    StableHlo.binary main_v151 main_v153 main_v154 (mulf : (⟨S50000x64, .f32⟩ : BufTy).Contents (Elt F) → (⟨S50000x64, .f32⟩ : BufTy).Contents (Elt F) → (⟨S50000x64, .f32⟩ : BufTy).Contents (Elt F)),
    StableHlo.unary main_arg7 main_v155 (broadcastInDim S1x64 ![1] bcast_S64_S1x64_1 : (⟨S64, .f32⟩ : BufTy).Contents (Elt F) → (⟨S1x64, .f32⟩ : BufTy).Contents (Elt F)),
    StableHlo.unary main_v155 main_v156 (broadcastInDim S50000x64 ![0, 1] bcast_S1x64_S50000x64_0_1 : (⟨S1x64, .f32⟩ : BufTy).Contents (Elt F) → (⟨S50000x64, .f32⟩ : BufTy).Contents (Elt F)),
    StableHlo.binary main_v154 main_v156 main_v157 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50000x64, .f32⟩) (broadcastInDim S50000x64 ![] bcast_S_S50000x64),
    StableHlo.TRef.binary (.of main_v157 : StableHlo.TRef sig ⟨S50000x64, .f32⟩) (.of main_call6_v0 : StableHlo.TRef sig ⟨S50000x64, .f32⟩) (.of main_v158 : StableHlo.TRef sig ⟨S50000x64, .f32⟩) maximumf,
    StableHlo.binary main_v158 main_v117 main_v159 (addf : (⟨S50000x64, .f32⟩ : BufTy).Contents (Elt F) → (⟨S50000x64, .f32⟩ : BufTy).Contents (Elt F) → (⟨S50000x64, .f32⟩ : BufTy).Contents (Elt F)) ]
/-- The buffers window 5's operations write, in order. -/
abbrev W5 : List (Ref sig .tc) :=
  [main_v152, main_v153, main_v154, main_v155, main_v156, main_v157, main_call6_cst, main_call6_v0, main_v158, main_v159]

/-- The program's operations in order: the six windows one after the other. -/
abbrev ops : List (HloOp τ sig (Elt F)) := w0 ++ (w1 ++ (w2 ++ (w3 ++ (w4 ++ w5))))

/-! ## The program is the run of the list

Each printed piece of @main is a chain of single steps; a call in it is the callee's chain spliced in.  Sequencing
re-associates by computation, so a piece and the run of its windows are the same chain of steps, step for step. -/

set_option maxRecDepth 8192 in
theorem main_part0_eq (c : Dev nD) : main_part0 (F := F) c = seq w0 := rfl

set_option maxRecDepth 8192 in
theorem main_part1_eq (c : Dev nD) : main_part1 (F := F) c = seq (w1 ++ w2) := rfl

set_option maxRecDepth 8192 in
theorem main_part2_eq (c : Dev nD) : main_part2 (F := F) c = seq (w3 ++ w4) := rfl

set_option maxRecDepth 8192 in
theorem main_part3_eq (c : Dev nD) : main_part3 (F := F) c = seq w5 := rfl

/-- @main runs its four pieces in turn; the run of a concatenation is the runs in turn. -/
theorem main_eq (c : Dev nD) : main (F := F) c = seq ops := by
  show (main_part0 (F := F) c >>= fun _ => main_part1 (F := F) c >>= fun _ => main_part2 (F := F) c >>= fun _ =>
    main_part3 (F := F) c) = _
  rw [main_part0_eq, main_part1_eq, main_part2_eq, main_part3_eq]
  simp only [ops, seq_append, bind_assoc]

/-! ## Every operation stays on the TensorCore's references, and determines what it writes -/

theorem w0_sub : (w0 : List (HloOp τ sig (Elt F))).Forall fun op => op.bufs ⊆ tcRefs τ sig := by
  simp only [w0, List.Forall, StableHlo.nullary_bufs_sub, StableHlo.unary_bufs_sub, StableHlo.binary_bufs_sub,
    StableHlo.ternary_bufs_sub, StableHlo.reshape_bufs_sub, and_self]
theorem w1_sub : (w1 : List (HloOp τ sig (Elt F))).Forall fun op => op.bufs ⊆ tcRefs τ sig := by
  simp only [w1, List.Forall, StableHlo.nullary_bufs_sub, StableHlo.unary_bufs_sub, StableHlo.binary_bufs_sub,
    StableHlo.ternary_bufs_sub, StableHlo.reshape_bufs_sub, and_self]
theorem w2_sub : (w2 : List (HloOp τ sig (Elt F))).Forall fun op => op.bufs ⊆ tcRefs τ sig := by
  simp only [w2, List.Forall, StableHlo.nullary_bufs_sub, StableHlo.unary_bufs_sub, StableHlo.binary_bufs_sub,
    StableHlo.ternary_bufs_sub, StableHlo.reshape_bufs_sub, and_self]
theorem w3_sub : (w3 : List (HloOp τ sig (Elt F))).Forall fun op => op.bufs ⊆ tcRefs τ sig := by
  simp only [w3, List.Forall, StableHlo.nullary_bufs_sub, StableHlo.unary_bufs_sub, StableHlo.binary_bufs_sub,
    StableHlo.ternary_bufs_sub, StableHlo.reshape_bufs_sub, and_self]
theorem w4_sub : (w4 : List (HloOp τ sig (Elt F))).Forall fun op => op.bufs ⊆ tcRefs τ sig := by
  simp only [w4, List.Forall, StableHlo.nullary_bufs_sub, StableHlo.unary_bufs_sub, StableHlo.binary_bufs_sub,
    StableHlo.ternary_bufs_sub, StableHlo.reshape_bufs_sub, and_self]
theorem w5_sub : (w5 : List (HloOp τ sig (Elt F))).Forall fun op => op.bufs ⊆ tcRefs τ sig := by
  simp only [w5, List.Forall, StableHlo.nullary_bufs_sub, StableHlo.unary_bufs_sub, StableHlo.binary_bufs_sub,
    StableHlo.ternary_bufs_sub, StableHlo.reshape_bufs_sub, and_self]

theorem ops_sub : (ops : List (HloOp τ sig (Elt F))).Forall fun op => op.bufs ⊆ tcRefs τ sig := by
  simp only [ops, List.forall_append]
  exact ⟨w0_sub, w1_sub, w2_sub, w3_sub, w4_sub, w5_sub⟩

/-- No operation of a window leaves a buffer at contents it does not determine: each is a plain function of its
    operands, so its set of undetermined buffers is empty by its definition. -/
theorem w0_fresh : (w0 : List (HloOp τ sig (Elt F))).Forall fun op => op.fresh = ∅ := by
  simp only [w0, List.Forall]; repeat' apply And.intro
  all_goals rfl
theorem w1_fresh : (w1 : List (HloOp τ sig (Elt F))).Forall fun op => op.fresh = ∅ := by
  simp only [w1, List.Forall]; repeat' apply And.intro
  all_goals rfl
theorem w2_fresh : (w2 : List (HloOp τ sig (Elt F))).Forall fun op => op.fresh = ∅ := by
  simp only [w2, List.Forall]; repeat' apply And.intro
  all_goals rfl
theorem w3_fresh : (w3 : List (HloOp τ sig (Elt F))).Forall fun op => op.fresh = ∅ := by
  simp only [w3, List.Forall]; repeat' apply And.intro
  all_goals rfl
theorem w4_fresh : (w4 : List (HloOp τ sig (Elt F))).Forall fun op => op.fresh = ∅ := by
  simp only [w4, List.Forall]; repeat' apply And.intro
  all_goals rfl
theorem w5_fresh : (w5 : List (HloOp τ sig (Elt F))).Forall fun op => op.fresh = ∅ := by
  simp only [w5, List.Forall]; repeat' apply And.intro
  all_goals rfl

theorem ops_fresh : ∀ op ∈ (ops : List (HloOp τ sig (Elt F))), op.fresh = ∅ :=
  List.forall_iff_forall_mem.mp (by
    simp only [ops, List.forall_append]
    exact ⟨w0_fresh, w1_fresh, w2_fresh, w3_fresh, w4_fresh, w5_fresh⟩)

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    on the TensorCores terminates, and every final state has each TensorCore buffer at the fold of the operations'
    results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefValue.lean ====
import proofs.«407553_j68453188763742_4_alg».proof.Proof.RefOps
import proofs.«407553_j68453188763742_4_alg».proof.Proof.Spec

/-!
What the reference's line leaves in its result buffer, read off stage by stage.

The six windows of the line are folded one after the other: valK V is what the device's buffers hold after the first K
windows, from contents V.  A buffer that a window does not write keeps its contents through it (the window's list of
written buffers decides that).  A buffer that a window does write holds the window's own operations applied to what the
window read; reading those operands by the earlier windows' lemmas gives it as one of the network's stage functions of
the arguments' contents:  the edge endpoints, the edge weights and the first features after window 0 (with the first
layer's gathered rows and the broadcast weights, which the next window multiplies);  a layer's output after windows 1
and 3;  the next layer's aggregate and its column mean after window 2;  the last layer's normalised aggregate after
window 4;  the network's output after window 5.  Each such equation holds by unfolding the stage function: the
specification applies the same operations in the same order.  The gathers, the scatter-adds and the column sums are never
opened.
-/

noncomputable section

namespace Cert.ReferenceIdeal.Hand

open Cert.ReferenceIdeal Cert.ReferenceIdeal.Gen Cert.Gcn Idealize.ShloMosaic Idealize.ShloMosaic.TcCoe Idealize.SL.Sem
open Idealize.ShloMosaic.StableHlo

variable {F : FTy → Type} [FloatOps F]

/-! ## The fold, window by window -/

/-- Two lines in a row fold as the second over what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The device's buffer contents after the first window, the first two, … , all six. -/
def val1 (V : Valuation τ sig (Elt F)) : Valuation τ sig (Elt F) := after w0 V
def val2 (V : Valuation τ sig (Elt F)) : Valuation τ sig (Elt F) := after w1 (val1 V)
def val3 (V : Valuation τ sig (Elt F)) : Valuation τ sig (Elt F) := after w2 (val2 V)
def val4 (V : Valuation τ sig (Elt F)) : Valuation τ sig (Elt F) := after w3 (val3 V)
def val5 (V : Valuation τ sig (Elt F)) : Valuation τ sig (Elt F) := after w4 (val4 V)
def val6 (V : Valuation τ sig (Elt F)) : Valuation τ sig (Elt F) := after w5 (val5 V)

theorem after_ops (V : Valuation τ sig (Elt F)) : after ops V = val6 V := by
  simp only [ops, after_app]
  rfl

/-! ## What a window does not write, it keeps

Every operation writes exactly one buffer; a window's list WK names them all, so a reference that is not on the list
reads after the window what it read before. -/

theorem w0_writes : (w0 : List (HloOp τ sig (Elt F))).Forall fun op =>
    op.writes ⊆ (W0.map (Proc.devRef (τ := τ) .tc)).toFinset := by
  simp only [w0, List.Forall, nullary_writes, unary_writes, binary_writes, ternary_writes, reshape_writes,
    Finset.singleton_subset_iff, List.mem_toFinset]
  repeat' apply And.intro
  all_goals exact List.mem_map_of_mem (by decide)
theorem w1_writes : (w1 : List (HloOp τ sig (Elt F))).Forall fun op =>
    op.writes ⊆ (W1.map (Proc.devRef (τ := τ) .tc)).toFinset := by
  simp only [w1, List.Forall, nullary_writes, unary_writes, binary_writes, ternary_writes, reshape_writes,
    Finset.singleton_subset_iff, List.mem_toFinset]
  repeat' apply And.intro
  all_goals exact List.mem_map_of_mem (by decide)
theorem w2_writes : (w2 : List (HloOp τ sig (Elt F))).Forall fun op =>
    op.writes ⊆ (W2.map (Proc.devRef (τ := τ) .tc)).toFinset := by
  simp only [w2, List.Forall, nullary_writes, unary_writes, binary_writes, ternary_writes, reshape_writes,
    Finset.singleton_subset_iff, List.mem_toFinset]
  repeat' apply And.intro
  all_goals exact List.mem_map_of_mem (by decide)
theorem w3_writes : (w3 : List (HloOp τ sig (Elt F))).Forall fun op =>
    op.writes ⊆ (W3.map (Proc.devRef (τ := τ) .tc)).toFinset := by
  simp only [w3, List.Forall, nullary_writes, unary_writes, binary_writes, ternary_writes, reshape_writes,
    Finset.singleton_subset_iff, List.mem_toFinset]
  repeat' apply And.intro
  all_goals exact List.mem_map_of_mem (by decide)
theorem w4_writes : (w4 : List (HloOp τ sig (Elt F))).Forall fun op =>
    op.writes ⊆ (W4.map (Proc.devRef (τ := τ) .tc)).toFinset := by
  simp only [w4, List.Forall, nullary_writes, unary_writes, binary_writes, ternary_writes, reshape_writes,
    Finset.singleton_subset_iff, List.mem_toFinset]
  repeat' apply And.intro
  all_goals exact List.mem_map_of_mem (by decide)
theorem w5_writes : (w5 : List (HloOp τ sig (Elt F))).Forall fun op =>
    op.writes ⊆ (W5.map (Proc.devRef (τ := τ) .tc)).toFinset := by
  simp only [w5, List.Forall, nullary_writes, unary_writes, binary_writes, ternary_writes, reshape_writes,
    Finset.singleton_subset_iff, List.mem_toFinset]
  repeat' apply And.intro
  all_goals exact List.mem_map_of_mem (by decide)

theorem val1_keep (V : Valuation τ sig (Elt F)) (r : Ref sig .tc) (h : r ∉ W0) :
    val1 V (no_index (Proc.devRef .tc r)) = V (Proc.devRef .tc r) := after_of_writes_sub w0 V w0_writes h
theorem val2_keep (V : Valuation τ sig (Elt F)) (r : Ref sig .tc) (h : r ∉ W1) :
    val2 V (no_index (Proc.devRef .tc r)) = val1 V (Proc.devRef .tc r) :=
  after_of_writes_sub w1 (val1 V) w1_writes h
theorem val3_keep (V : Valuation τ sig (Elt F)) (r : Ref sig .tc) (h : r ∉ W2) :
    val3 V (no_index (Proc.devRef .tc r)) = val2 V (Proc.devRef .tc r) :=
  after_of_writes_sub w2 (val2 V) w2_writes h
theorem val4_keep (V : Valuation τ sig (Elt F)) (r : Ref sig .tc) (h : r ∉ W3) :
    val4 V (no_index (Proc.devRef .tc r)) = val3 V (Proc.devRef .tc r) :=
  after_of_writes_sub w3 (val3 V) w3_writes h
theorem val5_keep (V : Valuation τ sig (Elt F)) (r : Ref sig .tc) (h : r ∉ W4) :
    val5 V (no_index (Proc.devRef .tc r)) = val4 V (Proc.devRef .tc r) :=
  after_of_writes_sub w4 (val4 V) w4_writes h
theorem val6_keep (V : Valuation τ sig (Elt F)) (r : Ref sig .tc) (h : r ∉ W5) :
    val6 V (no_index (Proc.devRef .tc r)) = val5 V (Proc.devRef .tc r) :=
  after_of_writes_sub w5 (val5 V) w5_writes h

/-- A buffer that no window writes ends as it began. -/
theorem kept (V : Valuation τ sig (Elt F)) (r : Ref sig .tc) (h0 : r ∉ W0) (h1 : r ∉ W1) (h2 : r ∉ W2) (h3 : r ∉ W3) (h4 : r ∉ W4)
    (h5 : r ∉ W5) : after ops V (Proc.devRef .tc r) = V (Proc.devRef .tc r) := by
  rw [after_ops]
  exact (val6_keep V r h5).trans ((val5_keep V r h4).trans ((val4_keep V r h3).trans ((val3_keep V r h2).trans
    ((val2_keep V r h1).trans (val1_keep V r h0)))))

/-! ## The stages, named

The features that enter layers 1, 2 and 3, and the aggregates whose column statistics normalise layers 2 and 3, as
functions of the arguments' contents. -/

def feat0 (V : Valuation τ sig (Elt F)) : Vec F S50000x64 .f32 := embed (V (Proc.devRef .tc main_arg0)) (V (Proc.devRef .tc main_arg2)) (V (Proc.devRef .tc main_arg3))
def feat1 (V : Valuation τ sig (Elt F)) : Vec F S50000x64 .f32 :=
  layer (feat0 V) (V (Proc.devRef .tc main_arg1)) (weight0 (V (Proc.devRef .tc main_arg4))) (bias0 (V (Proc.devRef .tc main_arg5))) (V (Proc.devRef .tc main_arg6)) (V (Proc.devRef .tc main_arg7))
def feat2 (V : Valuation τ sig (Elt F)) : Vec F S50000x64 .f32 :=
  layer (feat1 V) (V (Proc.devRef .tc main_arg1)) (weight1 (V (Proc.devRef .tc main_arg4))) (bias1 (V (Proc.devRef .tc main_arg5))) (V (Proc.devRef .tc main_arg6)) (V (Proc.devRef .tc main_arg7))
def agg2 (V : Valuation τ sig (Elt F)) : Vec F S50000x64 .f32 :=
  aggregate (lin (feat1 V) (weight1 (V (Proc.devRef .tc main_arg4))) (bias1 (V (Proc.devRef .tc main_arg5)))) (V (Proc.devRef .tc main_arg1))
def agg3 (V : Valuation τ sig (Elt F)) : Vec F S50000x64 .f32 :=
  aggregate (lin (feat2 V) (weight2 (V (Proc.devRef .tc main_arg4))) (bias2 (V (Proc.devRef .tc main_arg5)))) (V (Proc.devRef .tc main_arg1))

-- the equations below never look inside these: kept folded, a comparison by unfolding stops at them
attribute [local irreducible] Host.gather Host.scatterAdd Host.reduceAdd

/-! ## Window 0: the edge endpoints, the edge weights, the first features -/

set_option maxHeartbeats 1000000 in
theorem val1_v3 (V : Valuation τ sig (Elt F)) :
    val1 V (no_index (Proc.devRef .tc main_v3)) = srcIdx (V (Proc.devRef .tc main_arg1)) := by
  unfold val1
  simp only [w0]
  after_results_simp
  rfl

set_option maxHeartbeats 1000000 in
theorem val1_v6 (V : Valuation τ sig (Elt F)) :
    val1 V (no_index (Proc.devRef .tc main_v6)) = dstIdx (V (Proc.devRef .tc main_arg1)) := by
  unfold val1
  simp only [w0]
  after_results_simp
  rfl

set_option maxHeartbeats 1000000 in
theorem val1_v28 (V : Valuation τ sig (Elt F)) :
    val1 V (no_index (Proc.devRef .tc main_v28)) = edgeNorm (V (Proc.devRef .tc main_arg1)) := by
  unfold val1
  simp only [w0]
  after_results_simp
  rfl

set_option maxHeartbeats 1000000 in
theorem val1_v33 (V : Valuation τ sig (Elt F)) :
    val1 V (no_index (Proc.devRef .tc main_v33)) = feat0 V := by
  unfold val1
  simp only [w0]
  after_results_simp
  rfl

set_option maxHeartbeats 1000000 in
/-- The first layer's linear map, its rows gathered at the edges' sources. -/
theorem val1_v48 (V : Valuation τ sig (Elt F)) :
    val1 V (no_index (Proc.devRef .tc main_v48))
      = Host.gather gather_S50000x64_S850000x1_S850000x64_1_0_n_n_0_1_164
          (lin (feat0 V) (weight0 (V (Proc.devRef .tc main_arg4))) (bias0 (V (Proc.devRef .tc main_arg5)))) (wrapIdx (srcIdx (V (Proc.devRef .tc main_arg1)))) := by
  unfold val1
  simp only [w0]
  after_results_simp
  rfl

set_option maxHeartbeats 1000000 in
/-- The edge weights repeated along the 64 columns. -/
theorem val1_v50 (V : Valuation τ sig (Elt F)) :
    val1 V (no_index (Proc.devRef .tc main_v50))
      = broadcastInDim S850000x64 ![0, 1] bcast_S850000x1_S850000x64_0_1
          (broadcastInDim S850000x1 ![0] bcast_S850000_S850000x1_0 (edgeNorm (V (Proc.devRef .tc main_arg1)))) := by
  unfold val1
  simp only [w0]
  after_results_simp
  rfl

/-! ## Window 1: the first layer's output -/

set_option maxHeartbeats 1000000 in
theorem val2_v75 (V : Valuation τ sig (Elt F)) :
    val2 V (no_index (Proc.devRef .tc main_v75)) = feat1 V := by
  unfold val2
  simp only [w1]
  after_results_simp
  simp (disch := decide) only [val1_v6, val1_v33, val1_v48, val1_v50, val1_keep]
  rfl

/-! ## Window 2: the second layer's aggregate and its column mean -/

set_option maxHeartbeats 1000000 in
theorem val3_v96 (V : Valuation τ sig (Elt F)) :
    val3 V (no_index (Proc.devRef .tc main_v96)) = agg2 V := by
  unfold val3
  simp only [w2]
  after_results_simp
  simp (disch := decide) only [val2_v75, val2_keep, val1_v3, val1_v6, val1_v28, val1_keep]
  rfl

set_option maxHeartbeats 1000000 in
theorem val3_v99 (V : Valuation τ sig (Elt F)) :
    val3 V (no_index (Proc.devRef .tc main_v99)) = colMean (agg2 V) := by
  unfold val3
  simp only [w2]
  after_results_simp
  simp (disch := decide) only [val2_v75, val2_keep, val1_v3, val1_v6, val1_v28, val1_keep]
  rfl

set_option maxHeartbeats 1000000 in
/-- The count taken off the divisor of the variance: zero. -/
theorem val3_c17 (V : Valuation τ sig (Elt F)) :
    val3 V (no_index (Proc.devRef .tc main_c_17)) = constantI S_ 32 0#32 := by
  unfold val3
  simp only [w2]
  after_results_simp

/-! ## Window 3: the second layer's output -/

set_option maxHeartbeats 1000000 in
theorem val4_v117 (V : Valuation τ sig (Elt F)) :
    val4 V (no_index (Proc.devRef .tc main_v117)) = feat2 V := by
  unfold val4
  simp only [w3]
  after_results_simp
  simp (disch := decide) only [val3_v96, val3_v99, val3_c17, val3_keep, val2_v75, val2_keep, val1_keep]
  rfl

/-! ## Window 4: the third layer's aggregate, centred and scaled by its own column statistics -/

set_option maxHeartbeats 1000000 in
theorem val5_v151 (V : Valuation τ sig (Elt F)) :
    val5 V (no_index (Proc.devRef .tc main_v151))
      = mulf (subf (agg3 V) (rowBcast (colMean (agg3 V))))
          (rowBcast (Host.rsqrt (addf (colVar (agg3 V))
            (broadcastInDim S64 ![] bcast_S_S64 (constant S_ .f32 0x3727C5AC#32))))) := by
  unfold val5
  simp only [w4]
  after_results_simp
  simp (disch := decide) only [val4_v117, val4_keep, val3_keep, val2_keep, val1_v3, val1_v6, val1_v28, val1_keep]
  rfl

/-! ## Window 5: the network's output -/

set_option maxHeartbeats 1000000 in
theorem val6_v159 (V : Valuation τ sig (Elt F)) :
    val6 V (no_index (Proc.devRef .tc main_v159))
      = layer (feat2 V) (V (Proc.devRef .tc main_arg1)) (weight2 (V (Proc.devRef .tc main_arg4))) (bias2 (V (Proc.devRef .tc main_arg5))) (V (Proc.devRef .tc main_arg6)) (V (Proc.devRef .tc main_arg7)) := by
  unfold val6
  simp only [w5]
  after_results_simp
  simp (disch := decide) only [val5_v151, val5_keep, val4_v117, val4_keep, val3_keep, val2_keep, val1_keep]
  rfl

/-! ## The result and the arguments -/

/-- After the whole line the result buffer holds the network applied to the arguments' contents. -/
theorem result_eq (V : Valuation τ sig (Elt F)) :
    after ops V (Proc.devRef .tc main_v159)
      = Cert.Gcn.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]
  exact val6_v159 V

theorem arg0_kept (V : Valuation τ sig (Elt F)) :
    after ops V (Proc.devRef .tc main_arg0) = V (Proc.devRef .tc main_arg0) :=
  kept V _ (by decide) (by decide) (by decide) (by decide) (by decide) (by decide)
theorem arg1_kept (V : Valuation τ sig (Elt F)) :
    after ops V (Proc.devRef .tc main_arg1) = V (Proc.devRef .tc main_arg1) :=
  kept V _ (by decide) (by decide) (by decide) (by decide) (by decide) (by decide)
theorem arg2_kept (V : Valuation τ sig (Elt F)) :
    after ops V (Proc.devRef .tc main_arg2) = V (Proc.devRef .tc main_arg2) :=
  kept V _ (by decide) (by decide) (by decide) (by decide) (by decide) (by decide)
theorem arg3_kept (V : Valuation τ sig (Elt F)) :
    after ops V (Proc.devRef .tc main_arg3) = V (Proc.devRef .tc main_arg3) :=
  kept V _ (by decide) (by decide) (by decide) (by decide) (by decide) (by decide)
theorem arg4_kept (V : Valuation τ sig (Elt F)) :
    after ops V (Proc.devRef .tc main_arg4) = V (Proc.devRef .tc main_arg4) :=
  kept V _ (by decide) (by decide) (by decide) (by decide) (by decide) (by decide)
theorem arg5_kept (V : Valuation τ sig (Elt F)) :
    after ops V (Proc.devRef .tc main_arg5) = V (Proc.devRef .tc main_arg5) :=
  kept V _ (by decide) (by decide) (by decide) (by decide) (by decide) (by decide)
theorem arg6_kept (V : Valuation τ sig (Elt F)) :
    after ops V (Proc.devRef .tc main_arg6) = V (Proc.devRef .tc main_arg6) :=
  kept V _ (by decide) (by decide) (by decide) (by decide) (by decide) (by decide)
theorem arg7_kept (V : Valuation τ sig (Elt F)) :
    after ops V (Proc.devRef .tc main_arg7) = V (Proc.devRef .tc main_arg7) :=
  kept V _ (by decide) (by decide) (by decide) (by decide) (by decide) (by decide)

/-- On every device, for any float values, from any memory with zero counters: every weakly fair execution of @main
    terminates with the result buffer at the network of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159)
        = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v159).trans (result_eq _), (h c main_arg0).trans (arg0_kept _),
       (h c main_arg1).trans (arg1_kept _),
       (h c main_arg2).trans (arg2_kept _),
       (h c main_arg3).trans (arg3_kept _),
       (h c main_arg4).trans (arg4_kept _),
       (h c main_arg5).trans (arg5_kept _),
       (h c main_arg6).trans (arg6_kept _),
       (h c main_arg7).trans (arg7_kept _)⟩)
    (run_main m ρ)

end Cert.ReferenceIdeal.Hand

end
-- ==== Proof.lean ====
/-
  A three-layer graph convolution network on 50000 nodes and 800000 edges: the kernel program against its reference.

  The kernel program computes the embedding max (x·W + b, 0), the three linear maps h·Wₗ + bₗ and the three
  normalisations max ((a − mean)·rsqrt (var + ε)·γ + β, 0) + h in seven regions, each on blocks of 5000 rows, and leaves the
  graph's preprocessing, the aggregation over the edges and the column statistics to host operations; the reference does
  everything with host operations.  Over the extended reals a matrix product into a zero accumulator is the host's
  product, the two reciprocal square roots are one function, and a block of rows of a row-wise formula is the formula on
  those rows: so both programs end with the same function of their arguments, `Cert.Gcn.net`.  No rewrite was applied
  when the kernel was idealized, and the three frames are the runs with the results dropped.
-/
import proofs.«407553_j68453188763742_4_alg».proof.Defs
import proofs.«407553_j68453188763742_4_alg».proof.Proof.Gen.Kernel
import proofs.«407553_j68453188763742_4_alg».proof.Proof.Gen.Kernel.Skeleton
import proofs.«407553_j68453188763742_4_alg».proof.Proof.Gen.Kernel.Launch
import proofs.«407553_j68453188763742_4_alg».proof.Proof.Gen.Kernel.Points
import proofs.«407553_j68453188763742_4_alg».proof.Proof.Gen.Kernel.Frame
import proofs.«407553_j68453188763742_4_alg».proof.Proof.Gen.KernelIdeal
import proofs.«407553_j68453188763742_4_alg».proof.Proof.Gen.KernelIdeal.Skeleton
import proofs.«407553_j68453188763742_4_alg».proof.Proof.Gen.KernelIdeal.Launch
import proofs.«407553_j68453188763742_4_alg».proof.Proof.Gen.KernelIdeal.Points
import proofs.«407553_j68453188763742_4_alg».proof.Proof.Gen.KernelIdeal.Frame
import proofs.«407553_j68453188763742_4_alg».proof.Proof.Gen.ReferenceIdeal
import proofs.«407553_j68453188763742_4_alg».proof.Proof.Gen.Pre_finite_inputs
import proofs.«407553_j68453188763742_4_alg».proof.Proof.KernelRun
import proofs.«407553_j68453188763742_4_alg».proof.Proof.Chain
import proofs.«407553_j68453188763742_4_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel :=
  fun m ρ _ => Cert.Kernel.Gen.frame m ρ

/-- The idealized kernel program runs and keeps its arguments. -/
theorem frame_kernelIdeal : Cert.frame_KernelIdeal :=
  fun m ρ _ => Cert.KernelIdeal.Gen.frame m ρ

/-- The reference runs and keeps its arguments: its run with the result dropped. -/
theorem frame_reference : Cert.frame_ReferenceIdeal :=
  fun m ρ _ => (θ_run Cert.ReferenceIdeal.defs _ _).mono (fun _ h c => (h c).2)
    (Cert.ReferenceIdeal.Hand.run (F := Ideal) m ρ)

/-- Both idealized programs end at the network of their (agreeing) arguments. -/
theorem algebraic : Cert.algebraic_KernelIdeal_ReferenceIdeal := by
  intro m ρ m' ρ' _ hagree
  refine ⟨fun c => Cert.Gcn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result_eq m ρ c), (h c).2⟩)
      (Cert.KernelIdeal.ValueRun.run_value (F := Ideal) m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
